-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10 : Shape := ⟨2, ![4096, 10]⟩
abbrev S4096 : Shape := ⟨1, ![4096]⟩
abbrev S50000x32 : Shape := ⟨2, ![50000, 32]⟩
abbrev S50000x2 : Shape := ⟨2, ![50000, 2]⟩
abbrev S2x1600000 : Shape := ⟨2, ![2, 1600000]⟩
abbrev S10 : Shape := ⟨1, ![10]⟩
abbrev S5 : Shape := ⟨1, ![5]⟩
abbrev S_ : Shape := ⟨0, ![]⟩

class Facts : Prop where
  bcast_S_S4096x10 : S_.BroadcastsInDim S4096x10 (![] : Fin 0 → Fin S4096x10.rank)
  reducesTo_S4096x10_S_d0_1 : S4096x10.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S50000x2 : S_.BroadcastsInDim S50000x2 (![] : Fin 0 → Fin S50000x2.rank)
  reducesTo_S50000x2_S_d0_1 : S50000x2.ReducesTo [0, 1] S_
  bcast_S_S10 : S_.BroadcastsInDim S10 (![] : Fin 0 → Fin S10.rank)
  reducesTo_S10_S_d0 : S10.ReducesTo [0] S_
  bcast_S_S5 : S_.BroadcastsInDim S5 (![] : Fin 0 → Fin S5.rank)
  reducesTo_S5_S_d0 : S5.ReducesTo [0] S_
  bcast_S_S4096 : S_.BroadcastsInDim S4096 (![] : Fin 0 → Fin S4096.rank)
  reducesTo_S4096_S_d0 : S4096.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg4 : IVec S2x1600000 32) (main_arg5 : IVec S4096 32) (main_v30 : IVec S_ 1) (main_v32 : IVec S4096 1) (main_c_12 : IVec S_ 32) : IVec S_ 1 :=
  let main_v33 : IVec S4096 32 := broadcastInDim S4096 ![] bcast_S_S4096 main_c_12
  let main_v34 : IVec S4096 1 := cmpi .slt main_arg5 main_v33
  let main_v35 : IVec S4096 1 := andi main_v32 main_v34
  let main_c_13 : IVec S_ 1 := constantI S_ 1 1#1
  let main_v36 : IVec S_ 1 := (fun x v => Host.reduce IntOp.andi x v reducesTo_S4096_S_d0 h_S_) main_v35 main_c_13
  let main_v37 : IVec S_ 1 := andi main_v30 main_v36
  let main_c_14 : IVec S_ 32 := constantI S_ 32 0#32
  let main_v38 : IVec S2x1600000 32 := broadcastInDim S2x1600000 ![] bcast_S_S2x1600000 main_c_14
  let main_v39 : IVec S2x1600000 1 := cmpi .sge main_arg4 main_v38
  let main_c_15 : IVec S_ 32 := constantI S_ 32 50000#32
  let main_v40 : IVec S2x1600000 32 := broadcastInDim S2x1600000 ![] bcast_S_S2x1600000 main_c_15
  let main_v41 : IVec S2x1600000 1 := cmpi .slt main_arg4 main_v40
  let main_v42 : IVec S2x1600000 1 := andi main_v39 main_v41
  let main_c_16 : IVec S_ 1 := constantI S_ 1 1#1
  let main_v43 : IVec S_ 1 := (fun x v => Host.reduce IntOp.andi x v reducesTo_S2x1600000_S_d0_1 h_S_) main_v42 main_c_16
  let main_v44 : IVec S_ 1 := andi main_v37 main_v43
  main_v44

def fn_part1 {F : FTy → Type} [FloatOps F] (main_arg1 : IVec S4096 32) (main_arg4 : IVec S2x1600000 32) (main_arg5 : IVec S4096 32) (main_arg7 : FVec F S5 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S5 .f32 := Host.absf main_arg7
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg1 main_v24
  let main_c_9 : IVec S_ 32 := constantI S_ 32 10#32
  let main_v26 : IVec S4096 32 := broadcastInDim S4096 ![] bcast_S_S4096 main_c_9
  let main_v27 : IVec S4096 1 := cmpi .slt main_arg1 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  let main_c_11 : IVec S_ 32 := constantI S_ 32 0#32
  let main_v31 : IVec S4096 32 := broadcastInDim S4096 ![] bcast_S_S4096 main_c_11
  let main_v32 : IVec S4096 1 := cmpi .sge main_arg5 main_v31
  let main_c_12 : IVec S_ 32 := constantI S_ 32 5#32
  fn_part2 (F := F) main_arg4 main_arg5 main_v30 main_v32 main_c_12

def fn {F : FTy → Type} [FloatOps F] (main_arg0 : FVec F S4096x10 .f32) (main_arg1 : IVec S4096 32) (main_arg2 : FVec F S50000x32 .f32) (main_arg3 : FVec F S50000x2 .f32) (main_arg4 : IVec S2x1600000 32) (main_arg5 : IVec S4096 32) (main_arg6 : FVec F S10 .f32) (main_arg7 : FVec F S5 .f32) : IVec S_ 1 :=
  let main_v0 : FVec F S4096x10 .f32 := Host.absf main_arg0
  let main_cst : FVec F S_ .f32 := constant S_ .f32 0x7F800000#32
  let main_v1 : FVec F S4096x10 .f32 := broadcastInDim S4096x10 ![] bcast_S_S4096x10 main_cst
  let main_v2 : IVec S4096x10 1 := cmpf .olt main_v0 main_v1
  let main_c : IVec S_ 1 := constantI S_ 1 1#1
  let main_v3 : IVec S_ 1 := (fun x v => Host.reduce IntOp.andi x v reducesTo_S4096x10_S_d0_1 h_S_) main_v2 main_c
  let main_v4 : FVec F S50000x32 .f32 := Host.absf main_arg2
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S50000x2 .f32 := Host.absf main_arg3
  let main_cst_2 : FVec F S_ .f32 := constant S_ .f32 0x7F800000#32
  let main_v10 : FVec F S50000x2 .f32 := broadcastInDim S50000x2 ![] bcast_S_S50000x2 main_cst_2
  let main_v11 : IVec S50000x2 1 := cmpf .olt main_v9 main_v10
  let main_c_3 : IVec S_ 1 := constantI S_ 1 1#1
  let main_v12 : IVec S_ 1 := (fun x v => Host.reduce IntOp.andi x v reducesTo_S50000x2_S_d0_1 h_S_) main_v11 main_c_3
  let main_v13 : IVec S_ 1 := andi main_v8 main_v12
  let main_v14 : FVec F S10 .f32 := Host.absf main_arg6
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg1 main_arg4 main_arg5 main_arg7 main_v13 main_v16
-- ==== Kernel.lean ====
abbrev S4096x10 : Shape := ⟨2, ![4096, 10]⟩
abbrev S4096 : Shape := ⟨1, ![4096]⟩
abbrev S50000x32 : Shape := ⟨2, ![50000, 32]⟩
abbrev S50000x2 : Shape := ⟨2, ![50000, 2]⟩
abbrev S2x1600000 : Shape := ⟨2, ![2, 1600000]⟩
abbrev S10 : Shape := ⟨1, ![10]⟩
abbrev S5 : Shape := ⟨1, ![5]⟩
abbrev S4096x1 : Shape := ⟨2, ![4096, 1]⟩
abbrev S1x10 : Shape := ⟨2, ![1, 10]⟩
abbrev S1x5 : Shape := ⟨2, ![1, 5]⟩
abbrev S1x1 : Shape := ⟨2, ![1, 1]⟩
abbrev S4096x5 : Shape := ⟨2, ![4096, 5]⟩
abbrev S1 : Shape := ⟨1, ![1]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x32 : Shape := ⟨2, ![1600000, 32]⟩
abbrev S1600000x2 : Shape := ⟨2, ![1600000, 2]⟩
abbrev S2x1x1 : Shape := ⟨3, ![2, 1, 1]⟩
abbrev S6400x32 : Shape := ⟨2, ![6400, 32]⟩
abbrev S6400x1 : Shape := ⟨2, ![6400, 1]⟩
abbrev S1x1x1 : Shape := ⟨3, ![1, 1, 1]⟩
abbrev S6400 : Shape := ⟨1, ![6400]⟩

abbrev nBuf : Space → Nat
  | .hbm => 126
  | .vmem => 14
  | .smem => 0
  | _ => 0

abbrev bufTy : (tb : Table) → Fin (tcTables nBuf tb) → BufTy
  | .hbm, ⟨0, _⟩ => ⟨S4096x10, .f32⟩
  | .hbm, ⟨1, _⟩ => ⟨S4096, .i32⟩
  | .hbm, ⟨2, _⟩ => ⟨S50000x32, .f32⟩
  | .hbm, ⟨3, _⟩ => ⟨S50000x2, .f32⟩
  | .hbm, ⟨4, _⟩ => ⟨S2x1600000, .i32⟩
  | .hbm, ⟨5, _⟩ => ⟨S4096, .i32⟩
  | .hbm, ⟨6, _⟩ => ⟨S10, .f32⟩
  | .hbm, ⟨7, _⟩ => ⟨S5, .f32⟩
  | .hbm, ⟨8, _⟩ => ⟨S4096x1, .i32⟩
  | .hbm, ⟨9, _⟩ => ⟨S4096x1, .i32⟩
  | .hbm, ⟨10, _⟩ => ⟨S1x10, .f32⟩
  | .hbm, ⟨11, _⟩ => ⟨S1x5, .f32⟩
  | .hbm, ⟨12, _⟩ => ⟨S1x1, .f32⟩
  | .hbm, ⟨13, _⟩ => ⟨S_, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S50000x32, .f32⟩
  | .hbm, ⟨20, _⟩ => ⟨S50000x32, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1, .i32⟩
  | .hbm, ⟨30, _⟩ => ⟨S_, .i32⟩
  | .hbm, ⟨31, _⟩ => ⟨S1600000x1, .i32⟩
  | .hbm, ⟨32, _⟩ => ⟨S1600000x1, .i1⟩
  | .hbm, ⟨33, _⟩ => ⟨S1x1, .i32⟩
  | .hbm, ⟨34, _⟩ => ⟨S1600000x1, .i32⟩
  | .hbm, ⟨35, _⟩ => ⟨S1600000x1, .i1⟩
  | .hbm, ⟨36, _⟩ => ⟨S1600000x1, .i1⟩
  | .hbm, ⟨37, _⟩ => ⟨S_, .i1⟩
  | .hbm, ⟨38, _⟩ => ⟨S1600000, .i1⟩
  | .hbm, ⟨39, _⟩ => ⟨S1600000x32, .f32⟩
  | .hbm, ⟨40, _⟩ => ⟨S1600000x32, .i1⟩
  | .hbm, ⟨41, _⟩ => ⟨S_, .f32⟩
  | .hbm, ⟨42, _⟩ => ⟨S1600000x32, .f32⟩
  | .hbm, ⟨43, _⟩ => ⟨S1600000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1, .i32⟩
  | .hbm, ⟨53, _⟩ => ⟨S_, .i32⟩
  | .hbm, ⟨54, _⟩ => ⟨S1600000x1, .i32⟩
  | .hbm, ⟨55, _⟩ => ⟨S1600000x1, .i1⟩
  | .hbm, ⟨56, _⟩ => ⟨S1x1, .i32⟩
  | .hbm, ⟨57, _⟩ => ⟨S1600000x1, .i32⟩
  | .hbm, ⟨58, _⟩ => ⟨S1600000x1, .i1⟩
  | .hbm, ⟨59, _⟩ => ⟨S1600000x1, .i1⟩
  | .hbm, ⟨60, _⟩ => ⟨S_, .i1⟩
  | .hbm, ⟨61, _⟩ => ⟨S1600000, .i1⟩
  | .hbm, ⟨62, _⟩ => ⟨S1600000x32, .f32⟩
  | .hbm, ⟨63, _⟩ => ⟨S1600000x32, .i1⟩
  | .hbm, ⟨64, _⟩ => ⟨S_, .f32⟩
  | .hbm, ⟨65, _⟩ => ⟨S1600000x32, .f32⟩
  | .hbm, ⟨66, _⟩ => ⟨S1600000x32, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1, .i32⟩
  | .hbm, ⟨76, _⟩ => ⟨S_, .i32⟩
  | .hbm, ⟨77, _⟩ => ⟨S1600000x1, .i32⟩
  | .hbm, ⟨78, _⟩ => ⟨S1600000x1, .i1⟩
  | .hbm, ⟨79, _⟩ => ⟨S1x1, .i32⟩
  | .hbm, ⟨80, _⟩ => ⟨S1600000x1, .i32⟩
  | .hbm, ⟨81, _⟩ => ⟨S1600000x1, .i1⟩
  | .hbm, ⟨82, _⟩ => ⟨S1600000x1, .i1⟩
  | .hbm, ⟨83, _⟩ => ⟨S_, .i1⟩
  | .hbm, ⟨84, _⟩ => ⟨S1600000, .i1⟩
  | .hbm, ⟨85, _⟩ => ⟨S1600000x2, .f32⟩
  | .hbm, ⟨86, _⟩ => ⟨S1600000x2, .i1⟩
  | .hbm, ⟨87, _⟩ => ⟨S_, .f32⟩
  | .hbm, ⟨88, _⟩ => ⟨S1600000x2, .f32⟩
  | .hbm, ⟨89, _⟩ => ⟨S1600000x2, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1, .i32⟩
  | .hbm, ⟨99, _⟩ => ⟨S_, .i32⟩
  | .hbm, ⟨100, _⟩ => ⟨S1600000x1, .i32⟩
  | .hbm, ⟨101, _⟩ => ⟨S1600000x1, .i1⟩
  | .hbm, ⟨102, _⟩ => ⟨S1x1, .i32⟩
  | .hbm, ⟨103, _⟩ => ⟨S1600000x1, .i32⟩
  | .hbm, ⟨104, _⟩ => ⟨S1600000x1, .i1⟩
  | .hbm, ⟨105, _⟩ => ⟨S1600000x1, .i1⟩
  | .hbm, ⟨106, _⟩ => ⟨S_, .i1⟩
  | .hbm, ⟨107, _⟩ => ⟨S1600000, .i1⟩
  | .hbm, ⟨108, _⟩ => ⟨S1600000x2, .f32⟩
  | .hbm, ⟨109, _⟩ => ⟨S1600000x2, .i1⟩
  | .hbm, ⟨110, _⟩ => ⟨S_, .f32⟩
  | .hbm, ⟨111, _⟩ => ⟨S1600000x2, .f32⟩
  | .hbm, ⟨112, _⟩ => ⟨S1600000x2, .f32⟩
  | .hbm, ⟨113, _⟩ => ⟨S1600000x2, .f32⟩
  | .hbm, ⟨114, _⟩ => ⟨S1600000x2, .f32⟩
  | .hbm, ⟨115, _⟩ => ⟨S_, .f32⟩
  | .hbm, ⟨116, _⟩ => ⟨S1600000, .f32⟩
  | .hbm, ⟨117, _⟩ => ⟨S1600000x1, .f32⟩
  | .hbm, ⟨118, _⟩ => ⟨S2x1x1, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .local _ .vmem, ⟨0, _⟩ => ⟨S4096x10, .f32⟩
  | .local _ .vmem, ⟨1, _⟩ => ⟨S4096x1, .i32⟩
  | .local _ .vmem, ⟨2, _⟩ => ⟨S4096x1, .i32⟩
  | .local _ .vmem, ⟨3, _⟩ => ⟨S1x10, .f32⟩
  | .local _ .vmem, ⟨4, _⟩ => ⟨S1x5, .f32⟩
  | .local _ .vmem, ⟨5, _⟩ => ⟨S1x1, .f32⟩
  | .local _ .vmem, ⟨6, _⟩ => ⟨S6400x32, .f32⟩
  | .local _ .vmem, ⟨7, _⟩ => ⟨S6400x32, .f32⟩
  | .local _ .vmem, ⟨8, _⟩ => ⟨S6400x32, .f32⟩
  | .local _ .vmem, ⟨9, _⟩ => ⟨S6400x32, .f32⟩
  | .local _ .vmem, ⟨10, _⟩ => ⟨S6400x1, .f32⟩
  | .local _ .vmem, ⟨11, _⟩ => ⟨S6400x1, .f32⟩
  | .local _ .vmem, ⟨12, _⟩ => ⟨S1x1x1, .f32⟩
  | .local _ .vmem, ⟨13, _⟩ => ⟨S1x1x1, .f32⟩
  | _, _ => ⟨S4096x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v12 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v13 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v14 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v15 : Ref sig .tc := ⟨.hbm, 112, rfl⟩
abbrev main_v16 : Ref sig .tc := ⟨.hbm, 113, rfl⟩
abbrev main_v17 : Ref sig .tc := ⟨.hbm, 114, rfl⟩
abbrev main_cst_0 : Ref sig .tc := ⟨.hbm, 115, rfl⟩
abbrev main_v18 : Ref sig .tc := ⟨.hbm, 116, rfl⟩
abbrev main_v19 : Ref sig .tc := ⟨.hbm, 117, rfl⟩
abbrev main_v20 : Ref sig .tc := ⟨.hbm, 118, rfl⟩
abbrev main_cst_1 : Ref sig .tc := ⟨.hbm, 119, rfl⟩
abbrev main_v21 : Ref sig .tc := ⟨.hbm, 120, rfl⟩
abbrev main_cst_2 : Ref sig .tc := ⟨.hbm, 121, rfl⟩
abbrev main_v22 : Ref sig .tc := ⟨.hbm, 122, rfl⟩
abbrev main_cst_3 : Ref sig .tc := ⟨.hbm, 123, rfl⟩
abbrev main_v23 : Ref sig .tc := ⟨.hbm, 124, rfl⟩
abbrev main_v24 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 125], ![false, false]⟩

def cc1_transform_0 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S6400x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S6400x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S6400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4096_S4096x1 : S4096.ShapeCasts S4096x1
  shapeCasts_S10_S1x10 : S10.ShapeCasts S1x10
  shapeCasts_S5_S1x5 : S5.ShapeCasts S1x5
  inb_S4096x10_S4096x10_0_0 : ∀ a, (![0, 0] : Fin 2 → Nat) a + S4096x10.size a ≤ S4096x10.size a
  h_S4096x10 : 0 < S4096x10.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S1x5_S1x5_0_0 : ∀ a, (![0, 0] : Fin 2 → Nat) a + S1x5.size a ≤ S1x5.size a
  h_S1x5 : 0 < S1x5.numel
  shapeCasts_S1x5_S1x5 : S1x5.ShapeCasts S1x5
  reduces_S4096x10_S4096 : S4096x10.Reduces [1] S4096
  broadcasts_S4096x1_S4096x10 : S4096x1.Broadcasts S4096x10
  iota_S4096x10_d1_w32 : S4096x10.Iotas .tc 32 [1]
  natLt_1_32 : 1 < 32
  broadcasts_S1x10_S4096x10 : S1x10.Broadcasts S4096x10
  iota_S4096x5_d1_w32 : S4096x5.Iotas .tc 32 [1]
  broadcasts_S4096x1_S4096x5 : S4096x1.Broadcasts S4096x5
  broadcasts_S1x5_S4096x5 : S1x5.Broadcasts S4096x5
  reduces_S4096x5_S4096 : S4096x5.Reduces [1] S4096
  reduces_S4096x1_S1 : S4096x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000x32 : S_.BroadcastsInDim S50000x32 (![] : Fin 0 → Fin S50000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S1600000_S1600000x2_0 : S1600000.BroadcastsInDim S1600000x2 (![0] : Fin 1 → Fin S1600000x2.rank)
  bcast_S_S1600000x2 : S_.BroadcastsInDim S1600000x2 (![] : Fin 0 → Fin S1600000x2.rank)
  reducesTo_S1600000x2_S1600000_d1 : S1600000x2.ReducesTo [1] S1600000
  shapeCasts_S1600000_S1600000x1 : S1600000.ShapeCasts S1600000x1
  inb_S1x1x1_S1x1x1_0_0_0 : ∀ a, (![0, 0, 0] : Fin 3 → Nat) a + S1x1x1.size a ≤ S1x1x1.size a
  h_S1x1x1 : 0 < S1x1x1.numel
  inb_S6400x32_S6400x32_0_0 : ∀ a, (![0, 0] : Fin 2 → Nat) a + S6400x32.size a ≤ S6400x32.size a
  h_S6400x32 : 0 < S6400x32.numel
  shapeCasts_S6400x32_S6400x32 : S6400x32.ShapeCasts S6400x32
  reduces_S6400x32_S6400 : S6400x32.Reduces [1] S6400
  shapeCasts_S6400_S6400x1 : S6400.ShapeCasts S6400x1
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  reduces_S6400x1_S1 : S6400x1.Reduces [0] S1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  gather_S50000x32_S1600000x1_S1600000x32_1_0_n_n_0_1_132_wf : GatherDims.WF S50000x32 S1600000x1 S1600000x32 [1] [0] [] [0] [] 1 ![1, 32]
  gather_S50000x2_S1600000x1_S1600000x2_1_0_n_n_0_1_12_wf : GatherDims.WF S50000x2 S1600000x1 S1600000x2 [1] [0] [] [0] [] 1 ![1, 2]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S4096x10.size a
  hwx0_0 : ∀ i : grid0.Coords, EltTy.bits .f32 = 32 ∨ (Rect.block (s := S4096x10) S4096x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .i32 = 32 ∨ (Rect.block (s := S4096x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4096x1.size a
  hwx0_2 : ∀ i : grid0.Coords, EltTy.bits .i32 = 32 ∨ (Rect.block (s := S4096x1) S4096x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x32.size a ≤ S1600000x32.size a
  hwx1_0 : ∀ i : grid1.Coords, EltTy.bits .f32 = 32 ∨ (Rect.block (s := S1600000x32) S6400x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x32.size a ≤ S1600000x32.size a
  hwx1_1 : ∀ i : grid1.Coords, EltTy.bits .f32 = 32 ∨ (Rect.block (s := S1600000x32) S6400x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x1.size a ≤ S1600000x1.size a
  hwx1_2 : ∀ i : grid1.Coords, EltTy.bits .f32 = 32 ∨ (Rect.block (s := S1600000x1) S6400x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf

abbrev win0_0 : Pipeline.Window sig grid0 :=
  Pipeline.Window.ofSpec (Memref.whole main_arg0) S4096x10.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S6400x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S6400x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S6400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x10 : Shape := ⟨2, ![4096, 10]⟩
abbrev S4096 : Shape := ⟨1, ![4096]⟩
abbrev S50000x32 : Shape := ⟨2, ![50000, 32]⟩
abbrev S50000x2 : Shape := ⟨2, ![50000, 2]⟩
abbrev S2x1600000 : Shape := ⟨2, ![2, 1600000]⟩
abbrev S10 : Shape := ⟨1, ![10]⟩
abbrev S5 : Shape := ⟨1, ![5]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S1x1600000 : Shape := ⟨2, ![1, 1600000]⟩
abbrev S1600000 : Shape := ⟨1, ![1600000]⟩
abbrev S1600000x1 : Shape := ⟨2, ![1600000, 1]⟩
abbrev S1600000x2 : Shape := ⟨2, ![1600000, 2]⟩
abbrev S1600000x32 : Shape := ⟨2, ![1600000, 32]⟩

abbrev nBuf : Space → Nat
  | .hbm => 146
  | .vmem => 0
  | .smem => 0
  | _ => 0

abbrev hbmTy0_0 (i : Nat) : BufTy := match i % 128 with
  | 0 => ⟨S4096x10, .f32⟩
  | 1 => ⟨S4096, .i32⟩
  | 2 => ⟨S50000x32, .f32⟩
  | 3 => ⟨S50000x2, .f32⟩
  | 4 => ⟨S2x1600000, .i32⟩
  | 5 => ⟨S4096, .i32⟩
  | 6 => ⟨S10, .f32⟩
  | 7 => ⟨S5, .f32⟩
  | 8 => ⟨S_, .f32⟩
  | 9 => ⟨S4096, .f32⟩
  | 10 => ⟨S_, .f32⟩
  | 11 => ⟨S4096, .f32⟩
  | 12 => ⟨S4096, .f32⟩
  | 13 => ⟨S4096x1, .f32⟩
  | 14 => ⟨S4096x10, .f32⟩
  | 15 => ⟨S4096x10, .f32⟩
  | 16 => ⟨S4096x10, .f32⟩
  | 17 => ⟨S_, .f32⟩
  | 18 => ⟨S4096, .f32⟩
  | 19 => ⟨S4096x1, .f32⟩
  | 20 => ⟨S4096x1, .f32⟩
  | 21 => ⟨S4096x10, .f32⟩
  | 22 => ⟨S4096x10, .f32⟩
  | 23 => ⟨S4096x1, .i32⟩
  | 24 => ⟨S_, .i32⟩
  | 25 => ⟨S4096x1, .i32⟩
  | 26 => ⟨S4096x1, .i1⟩
  | 27 => ⟨S_, .i32⟩
  | 28 => ⟨S4096x1, .i32⟩
  | 29 => ⟨S4096x1, .i32⟩
  | 30 => ⟨S4096x1, .i32⟩
  | 31 => ⟨S4096x1x1, .i32⟩
  | 32 => ⟨S1, .i32⟩
  | 33 => ⟨S_, .i32⟩
  | 34 => ⟨S4096x1x1, .i32⟩
  | 35 => ⟨S4096x1x1, .i1⟩
  | 36 => ⟨S1x1x1, .i32⟩
  | 37 => ⟨S4096x1x1, .i32⟩
  | 38 => ⟨S4096x1x1, .i1⟩
  | 39 => ⟨S4096x1x1, .i1⟩
  | 40 => ⟨S_, .i1⟩
  | 41 => ⟨S4096x1, .i1⟩
  | 42 => ⟨S4096x1, .f32⟩
  | 43 => ⟨S_, .f32⟩
  | 44 => ⟨S4096x1, .f32⟩
  | 45 => ⟨S4096x1, .f32⟩
  | 46 => ⟨S4096, .f32⟩
  | 47 => ⟨S4096, .f32⟩
  | 48 => ⟨S_, .f32⟩
  | 49 => ⟨S4096, .f32⟩
  | 50 => ⟨S4096, .f32⟩
  | 51 => ⟨S_, .f32⟩
  | 52 => ⟨S4096, .f32⟩
  | 53 => ⟨S4096, .f32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S4096, .f32⟩
  | 63 => ⟨S4096, .f32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S4096, .f32⟩
  | 73 => ⟨S4096, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S1x1600000, .i32⟩
  | 81 => ⟨S1600000, .i32⟩
  | 82 => ⟨S1x1600000, .i32⟩
  | 83 => ⟨S1600000, .i32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x2, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x2, .f32⟩
  | 102 => ⟨S1600000x2, .f32⟩
  | 103 => ⟨S1600000x2, .f32⟩
  | 104 => ⟨S_, .f32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x32, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x32, .f32⟩
  | 124 => ⟨S_, .f32⟩
  | 125 => ⟨S1600000x32, .f32⟩
  | 126 => ⟨S1600000x32, .i1⟩
  | 127 => ⟨S_, .f32⟩
  | _ => ⟨S4096x10, .f32⟩

abbrev hbmTy0_1 (i : Nat) : BufTy := match i % 128 with
  | 0 => ⟨S1600000x32, .f32⟩
  | 1 => ⟨S1600000x32, .i1⟩
  | 2 => ⟨S1600000x32, .i1⟩
  | 3 => ⟨S1600000x32, .f32⟩
  | 4 => ⟨S_, .f32⟩
  | 5 => ⟨S_, .f32⟩
  | 6 => ⟨S1600000x32, .f32⟩
  | 7 => ⟨S1600000x32, .f32⟩
  | 8 => ⟨S_, .f32⟩
  | 9 => ⟨S1600000, .f32⟩
  | 10 => ⟨S1600000, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S4096x10, .f32⟩

abbrev hbmTy (i : Nat) : BufTy := match i / 128 with
  | 0 => hbmTy0_0 i
  | 1 => hbmTy0_1 i
  | _ => ⟨S4096x10, .f32⟩

abbrev bufTy : (tb : Table) → Fin (tcTables nBuf tb) → BufTy
  | .hbm, ⟨i, _⟩ => hbmTy i
  | _, _ => ⟨S4096x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v0 : Ref sig .tc := ⟨.hbm, 22, rfl⟩
abbrev main_v1 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_cst : Ref sig .tc := ⟨.hbm, 48, rfl⟩
abbrev main_v5 : Ref sig .tc := ⟨.hbm, 49, rfl⟩
abbrev main_v6 : Ref sig .tc := ⟨.hbm, 50, rfl⟩
abbrev main_cst_0 : Ref sig .tc := ⟨.hbm, 51, rfl⟩
abbrev main_v7 : Ref sig .tc := ⟨.hbm, 52, rfl⟩
abbrev main_v8 : Ref sig .tc := ⟨.hbm, 53, rfl⟩
abbrev main_c : Ref sig .tc := ⟨.hbm, 54, rfl⟩
abbrev main_v9 : Ref sig .tc := ⟨.hbm, 55, rfl⟩
abbrev main_v10 : Ref sig .tc := ⟨.hbm, 56, rfl⟩
abbrev main_c_1 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_c_2 : Ref sig .tc := ⟨.hbm, 64, rfl⟩
abbrev main_v17 : Ref sig .tc := ⟨.hbm, 65, rfl⟩
abbrev main_v18 : Ref sig .tc := ⟨.hbm, 66, rfl⟩
abbrev main_c_3 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_4 : Ref sig .tc := ⟨.hbm, 76, rfl⟩
abbrev main_v27 : Ref sig .tc := ⟨.hbm, 77, rfl⟩
abbrev main_cst_5 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_c_6 : Ref sig .tc := ⟨.hbm, 84, rfl⟩
abbrev main_v33 : Ref sig .tc := ⟨.hbm, 85, rfl⟩
abbrev main_v34 : Ref sig .tc := ⟨.hbm, 86, rfl⟩
abbrev main_c_7 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_c_8 : Ref sig .tc := ⟨.hbm, 93, rfl⟩
abbrev main_v40 : Ref sig .tc := ⟨.hbm, 94, rfl⟩
abbrev main_v41 : Ref sig .tc := ⟨.hbm, 95, rfl⟩
abbrev main_c_9 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_10 : Ref sig .tc := ⟨.hbm, 104, rfl⟩
abbrev main_v49 : Ref sig .tc := ⟨.hbm, 105, rfl⟩
abbrev main_c_11 : Ref sig .tc := ⟨.hbm, 106, rfl⟩
abbrev main_v50 : Ref sig .tc := ⟨.hbm, 107, rfl⟩
abbrev main_v51 : Ref sig .tc := ⟨.hbm, 108, rfl⟩
abbrev main_c_12 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_c_13 : Ref sig .tc := ⟨.hbm, 115, rfl⟩
abbrev main_v57 : Ref sig .tc := ⟨.hbm, 116, rfl⟩
abbrev main_v58 : Ref sig .tc := ⟨.hbm, 117, rfl⟩
abbrev main_c_14 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_15 : Ref sig .tc := ⟨.hbm, 124, rfl⟩
abbrev main_v64 : Ref sig .tc := ⟨.hbm, 125, rfl⟩
abbrev main_v65 : Ref sig .tc := ⟨.hbm, 126, rfl⟩
abbrev main_cst_16 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_17 : Ref sig .tc := ⟨.hbm, 132, rfl⟩
abbrev main_call2_v0 : Ref sig .tc := ⟨.hbm, 133, rfl⟩
abbrev main_call2_v1 : Ref sig .tc := ⟨.hbm, 134, rfl⟩
abbrev main_v70 : Ref sig .tc := ⟨.hbm, 135, rfl⟩
abbrev main_cst_18 : Ref sig .tc := ⟨.hbm, 136, rfl⟩
abbrev main_v71 : Ref sig .tc := ⟨.hbm, 137, rfl⟩
abbrev main_v72 : Ref sig .tc := ⟨.hbm, 138, rfl⟩
abbrev main_cst_19 : Ref sig .tc := ⟨.hbm, 139, rfl⟩
abbrev main_v73 : Ref sig .tc := ⟨.hbm, 140, rfl⟩
abbrev main_cst_20 : Ref sig .tc := ⟨.hbm, 141, rfl⟩
abbrev main_v74 : Ref sig .tc := ⟨.hbm, 142, rfl⟩
abbrev main_cst_21 : Ref sig .tc := ⟨.hbm, 143, rfl⟩
abbrev main_v75 : Ref sig .tc := ⟨.hbm, 144, rfl⟩
abbrev main_v76 : Ref sig .tc := ⟨.hbm, 145, rfl⟩

abbrev nD : Nat := 1
abbrev τ : Topo := Topo.v7x

variable {F : FTy → Type} [FloatOps F]

class Facts₀ : Prop where
  reducesTo_S4096x10_S4096_d1 : S4096x10.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x2_S1600000_d1 : S1600000x2.ReducesTo [1] S1600000
  bcast_S_S1600000x32 : S_.BroadcastsInDim S1600000x32 (![] : Fin 0 → Fin S1600000x32.rank)
  reducesTo_S1600000x32_S1600000_d1 : S1600000x32.ReducesTo [1] S1600000
  reducesTo_S1600000_S_d0 : S1600000.ReducesTo [0] S_
  gather_S4096x10_S4096x1x1_S4096x1_n_1_0_0_1_2_11_wf : GatherDims.WF S4096x10 S4096x1x1 S4096x1 [] [1] [0] [1] [0] 2 ![1, 1]
  gather_S10_S4096x1_S4096_n_0_n_n_0_1_1_wf : GatherDims.WF S10 S4096x1 S4096 [] [0] [] [0] [] 1 ![1]
  gather_S5_S4096x1_S4096_n_0_n_n_0_1_1_wf : GatherDims.WF S5 S4096x1 S4096 [] [0] [] [0] [] 1 ![1]
  gather_S50000x2_S1600000x1_S1600000x2_1_0_n_n_0_1_12_wf : GatherDims.WF S50000x2 S1600000x1 S1600000x2 [1] [0] [] [0] [] 1 ![1, 2]
  gather_S50000x32_S1600000x1_S1600000x32_1_0_n_n_0_1_132_wf : GatherDims.WF S50000x32 S1600000x1 S1600000x32 [1] [0] [] [0] [] 1 ![1, 32]

variable [Facts₀]

def gather_S4096x10_S4096x1x1_S4096x1_n_1_0_0_1_2_11 : GatherDims S4096x10 S4096x1x1 S4096x1 where
  offsetDims := []
  collapsedSliceDims := [1]
  operandBatchingDims := [0]
  startIndicesBatchingDims := [0]
  startIndexMap := [1]
  indexVectorDim := 2
  sliceSizes := ![1, 1]
  wf := gather_S4096x10_S4096x1x1_S4096x1_n_1_0_0_1_2_11_wf
def gather_S10_S4096x1_S4096_n_0_n_n_0_1_1 : GatherDims S10 S4096x1 S4096 where
  offsetDims := []
  collapsedSliceDims := [0]
  operandBatchingDims := []
  startIndicesBatchingDims := []
  startIndexMap := [0]
  indexVectorDim := 1
  sliceSizes := ![1]
  wf := gather_S10_S4096x1_S4096_n_0_n_n_0_1_1_wf
def gather_S5_S4096x1_S4096_n_0_n_n_0_1_1 : GatherDims S5 S4096x1 S4096 where
  offsetDims := []
  collapsedSliceDims := [0]
  operandBatchingDims := []
  startIndicesBatchingDims := []
  startIndexMap := [0]
  indexVectorDim := 1
  sliceSizes := ![1]
  wf := gather_S5_S4096x1_S4096_n_0_n_n_0_1_1_wf
def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf

class Facts : Prop extends Facts₀ where

variable [Facts]
-- ==== Proof.HostTerms.lean ====
import proofs.«419550_j77738908057987_3_alg».proof.Proof.Gen.KernelIdeal

/-!
# The host-side terms around the two kernel calls

Between the focal kernel and the pairwise kernel the program computes, on the host, the operands of the second:
the node features cut off below at zero, their rows taken at the two endpoints of every edge, and the squared
distance of the endpoints' positions. A take of rows first moves a negative index up by the number of rows, then
reads the row (the read itself clamps), and puts a fill value wherever the moved index is outside the table.
These are those terms, named once, at any float family.
-/

noncomputable section

namespace Cert.KernelIdeal.HostTerms

open Cert.KernelIdeal Cert.KernelIdeal.Facts₀ Cert.KernelIdeal.Facts Idealize.ShloMosaic

variable {F : FTy → Type} [FloatOps F] [Cert.KernelIdeal.Facts]

/-- An edge endpoint's row number as the take uses it: a negative number moved up by 50000, laid out as a column. -/
def normIdx (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 50000#32))) idx)

/-- Whether a column entry lies in 0 … 49999. -/
def inRange (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The rows of a 32-column table at the given row numbers, the fill value where a number is out of range. -/
def take32 (x : FVec F S50000x32 .f32) (idx : IVec S1600000 32) : FVec F S1600000x32 .f32 :=
  select (broadcastInDim S1600000x32 ![0] bcast_S1600000_S1600000x32_0 (inRange (normIdx idx)))
    (Host.gather gather_S50000x32_S1600000x1_S1600000x32_1_0_n_n_0_1_132 x (normIdx idx))
    (broadcastInDim S1600000x32 ![] bcast_S_S1600000x32 (constant S_ .f32 0x7FC00000#32))

/-- The same for a 2-column table. -/
def take2 (x : FVec F S50000x2 .f32) (idx : IVec S1600000 32) : FVec F S1600000x2 .f32 :=
  select (broadcastInDim S1600000x2 ![0] bcast_S1600000_S1600000x2_0 (inRange (normIdx idx)))
    (Host.gather gather_S50000x2_S1600000x1_S1600000x2_1_0_n_n_0_1_12 x (normIdx idx))
    (broadcastInDim S1600000x2 ![] bcast_S_S1600000x2 (constant S_ .f32 0x7FC00000#32))

/-- The first row of the edge list: every edge's first endpoint. -/
def srcOf (ed : IVec S2x1600000 32) : IVec S1600000 32 :=
  shapeCast S1600000 (extractStridedSlice S1x1600000 ![0, 0] ed slices_S2x1600000_S1x1600000_0_0) shapeCasts_S1x1600000_S1600000

/-- The second row: every edge's second endpoint. -/
def dstOf (ed : IVec S2x1600000 32) : IVec S1600000 32 :=
  shapeCast S1600000 (extractStridedSlice S1x1600000 ![1, 0] ed slices_S2x1600000_S1x1600000_1_0) shapeCasts_S1x1600000_S1600000

/-- The node features cut off below at zero. -/
def cutoff (x : FVec F S50000x32 .f32) : FVec F S50000x32 .f32 :=
  maximumf x (broadcastInDim S50000x32 ![] bcast_S_S50000x32 (constant S_ .f32 0x00000000#32))

/-- Every edge's squared distance between its endpoints' positions, as a column. -/
def dist (ps : FVec F S50000x2 .f32) (ed : IVec S2x1600000 32) : FVec F S1600000x1 .f32 :=
  shapeCast S1600000x1
    (Host.reduceAdd
      (mulf (subf (take2 ps (srcOf ed)) (take2 ps (dstOf ed))) (subf (take2 ps (srcOf ed)) (take2 ps (dstOf ed))))
      (constant S_ .f32 0x00000000#32) reducesTo_S1600000x2_S1600000_d1 h_S_)
    shapeCasts_S1600000_S1600000x1

end Cert.KernelIdeal.HostTerms

end
-- ==== Proof.HostStretch.lean ====
import proofs.«419550_j77738908057987_3_alg».proof.Proof.Gen.KernelIdeal.Launch
import proofs.«419550_j77738908057987_3_alg».proof.Proof.HostTerms
import Idealize.ShloMosaic.Lib.StableHlo.Run

/-!
# Each stretch of host operations, read at the buffer it computes

Over ANY contents `X` of the buffers before a stretch: the buffer a take call returns holds the take of the two
buffers the call was given; the distance stretch returns the column of summed squared differences; the last
stretch returns the weighted, scaled sum of the pairwise kernel's output, and its sum with the loss.

A called function's operations move contents between a buffer's own type and the tensor type the function
states, a transport along an equation of types that is the identity at every literal buffer: there and back is
the identity for any buffer, and at a literal buffer each way alone is.
-/

set_option maxRecDepth 16384

noncomputable section

namespace Cert.KernelIdeal.HostStretch

open Cert.KernelIdeal Cert.KernelIdeal.Gen Cert.KernelIdeal.HostTerms
open Idealize.ShloMosaic Idealize.ShloMosaic.TcCoe Idealize.SL.Sem Idealize.ShloMosaic.StableHlo

/-- Into a buffer's own type and back is the identity. -/
theorem ofBuf_toBuf {sig : RefSig} {Val : EltTy → Type} {T : BufTy} (x : TRef sig T) (v : T.Contents Val) :
    x.ofBuf (x.toBuf v) = v := by
  obtain ⟨r, h, hd, hu⟩ := x
  subst h
  rfl

variable {F : FTy → Type} [FloatOps F]

/-! At the literal buffers of the four takes the transport is the identity. -/

theorem out_v12 (t : FVec F S1600000x32 .f32) : ((TRef.of main_v12 : TRef sig ⟨S1600000x32, .f32⟩).toBuf (Val := Elt F) t : FVec F S1600000x32 .f32) = t := rfl
theorem out_v13 (t : FVec F S1600000x32 .f32) : ((TRef.of main_v13 : TRef sig ⟨S1600000x32, .f32⟩).toBuf (Val := Elt F) t : FVec F S1600000x32 .f32) = t := rfl
theorem out_v14 (t : FVec F S1600000x2 .f32) : ((TRef.of main_v14 : TRef sig ⟨S1600000x2, .f32⟩).toBuf (Val := Elt F) t : FVec F S1600000x2 .f32) = t := rfl
theorem out_v15 (t : FVec F S1600000x2 .f32) : ((TRef.of main_v15 : TRef sig ⟨S1600000x2, .f32⟩).toBuf (Val := Elt F) t : FVec F S1600000x2 .f32) = t := rfl
theorem in_v11 (t : FVec F S50000x32 .f32) : (TRef.of main_v11 : TRef sig ⟨S50000x32, .f32⟩).ofBuf (Val := Elt F) t = t := rfl
theorem in_arg3 (t : FVec F S50000x2 .f32) : (TRef.of main_arg3 : TRef sig ⟨S50000x2, .f32⟩).ofBuf (Val := Elt F) t = t := rfl
theorem in_v7 (t : IVec S1600000 32) : (TRef.of main_v7 : TRef sig ⟨S1600000, .i32⟩).ofBuf (Val := Elt F) t = t := rfl
theorem in_v9 (t : IVec S1600000 32) : (TRef.of main_v9 : TRef sig ⟨S1600000, .i32⟩).ofBuf (Val := Elt F) t = t := rfl

variable (X : Valuation τ sig (Elt F))

set_option maxHeartbeats 4000000 in
/-- The first take: rows of the cut-off features at the first endpoints. -/
theorem take_first : StableHlo.after hostOps1_1 X (Proc.devRef .tc main_v12)
    = take32 (X (Proc.devRef .tc main_v11)) (X (Proc.devRef .tc main_v7)) := by
  have h : StableHlo.after hostOps1_1 X (Proc.devRef .tc main_v12)
      = (TRef.of main_v12 : TRef sig ⟨S1600000x32, .f32⟩).toBuf
          (take32 ((TRef.of main_v11 : TRef sig ⟨S50000x32, .f32⟩).ofBuf (X (Proc.devRef .tc main_v11)))
            ((TRef.of main_v7 : TRef sig ⟨S1600000, .i32⟩).ofBuf (X (Proc.devRef .tc main_v7)))) := by
    after_results_simp
    simp only [ofBuf_toBuf]
    rfl
  rw [h, out_v12, in_v11, in_v7]

set_option maxHeartbeats 4000000 in
/-- The second take: rows of the cut-off features at the second endpoints. -/
theorem take_second : StableHlo.after hostOps1_2 X (Proc.devRef .tc main_v13)
    = take32 (X (Proc.devRef .tc main_v11)) (X (Proc.devRef .tc main_v9)) := by
  have h : StableHlo.after hostOps1_2 X (Proc.devRef .tc main_v13)
      = (TRef.of main_v13 : TRef sig ⟨S1600000x32, .f32⟩).toBuf
          (take32 ((TRef.of main_v11 : TRef sig ⟨S50000x32, .f32⟩).ofBuf (X (Proc.devRef .tc main_v11)))
            ((TRef.of main_v9 : TRef sig ⟨S1600000, .i32⟩).ofBuf (X (Proc.devRef .tc main_v9)))) := by
    after_results_simp
    simp only [ofBuf_toBuf]
    rfl
  rw [h, out_v13, in_v11, in_v9]

set_option maxHeartbeats 4000000 in
/-- The third take: the positions at the first endpoints. -/
theorem take_third : StableHlo.after hostOps1_3 X (Proc.devRef .tc main_v14)
    = take2 (X (Proc.devRef .tc main_arg3)) (X (Proc.devRef .tc main_v7)) := by
  have h : StableHlo.after hostOps1_3 X (Proc.devRef .tc main_v14)
      = (TRef.of main_v14 : TRef sig ⟨S1600000x2, .f32⟩).toBuf
          (take2 ((TRef.of main_arg3 : TRef sig ⟨S50000x2, .f32⟩).ofBuf (X (Proc.devRef .tc main_arg3)))
            ((TRef.of main_v7 : TRef sig ⟨S1600000, .i32⟩).ofBuf (X (Proc.devRef .tc main_v7)))) := by
    after_results_simp
    simp only [ofBuf_toBuf]
    rfl
  rw [h, out_v14, in_arg3, in_v7]

set_option maxHeartbeats 4000000 in
/-- The fourth take: the positions at the second endpoints. -/
theorem take_fourth : StableHlo.after hostOps1_4 X (Proc.devRef .tc main_v15)
    = take2 (X (Proc.devRef .tc main_arg3)) (X (Proc.devRef .tc main_v9)) := by
  have h : StableHlo.after hostOps1_4 X (Proc.devRef .tc main_v15)
      = (TRef.of main_v15 : TRef sig ⟨S1600000x2, .f32⟩).toBuf
          (take2 ((TRef.of main_arg3 : TRef sig ⟨S50000x2, .f32⟩).ofBuf (X (Proc.devRef .tc main_arg3)))
            ((TRef.of main_v9 : TRef sig ⟨S1600000, .i32⟩).ofBuf (X (Proc.devRef .tc main_v9)))) := by
    after_results_simp
    simp only [ofBuf_toBuf]
    rfl
  rw [h, out_v15, in_arg3, in_v9]

/-- The distance stretch: the column of the sums, over the two coordinates, of the squared differences. -/
theorem dist_stretch : StableHlo.after hostOps1_5 X (Proc.devRef .tc main_v19)
    = shapeCast S1600000x1
        (Host.reduceAdd
          (mulf (subf (X (Proc.devRef .tc main_v14)) (X (Proc.devRef .tc main_v15)))
            (subf (X (Proc.devRef .tc main_v14)) (X (Proc.devRef .tc main_v15))))
          (constant S_ .f32 0x00000000#32) reducesTo_S1600000x2_S1600000_d1 h_S_)
        shapeCasts_S1600000_S1600000x1 := by
  after_results <;> rfl

/-- The last stretch at the penalty: the weight times the sum of the pairwise kernel's output, over the edge count. -/
theorem tail_penalty : StableHlo.after hostOps2 X (Proc.devRef .tc main_v23)
    = Host.divf (mulf (constant S_ .f32 0x3C23D70A#32)
        (Host.reduceAdd (X (Proc.devRef .tc main_v20)) (constant S_ .f32 0x00000000#32) reducesTo_S2x1x1_S_d0_1_2 h_S_))
        (constant S_ .f32 0x49C35000#32) := by
  after_results <;> rfl

/-- The last stretch at the total: the loss as it stood plus the penalty. -/
theorem tail_total : StableHlo.after hostOps2 X (Proc.devRef .tc main_v24)
    = addf (X (Proc.devRef .tc main_v5)) (StableHlo.after hostOps2 X (Proc.devRef .tc main_v23)) := by
  rw [tail_penalty]
  after_results <;> rfl

end Cert.KernelIdeal.HostStretch

end
-- ==== Proof.HostFold.lean ====
import proofs.«419550_j77738908057987_3_alg».proof.Proof.Gen.KernelIdeal.Frame
import proofs.«419550_j77738908057987_3_alg».proof.Proof.HostTerms
import proofs.«419550_j77738908057987_3_alg».proof.Proof.HostStretch
import Idealize.ShloMosaic.Lib.StableHlo.Run

/-!
# The program's buffers at the boundaries that matter

The program is host operations, the focal kernel, host operations, the pairwise kernel, host operations. Reading
the contents of its buffers boundary by boundary from the launch memory:

* the focal kernel is entered with the scores as launched and with the classes, the tissues and the two weight
  tables reshaped (a column, a column, a row, a row);
* the pairwise kernel is entered with the cut-off features taken at every edge's first endpoint, the same at the
  second endpoint, and the column of squared distances;
* the loss returned is the focal kernel's 1×1 output read as a scalar; the penalty returned is the weight times
  the sum of the pairwise kernel's two partial sums, divided by the number of edges; the total is their sum.
-/

set_option maxRecDepth 16384

noncomputable section

namespace Cert.KernelIdeal.HostFold

open Cert.KernelIdeal Cert.KernelIdeal.Gen Cert.KernelIdeal.HostTerms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of host operations leaves a buffer alone when none of them writes it. -/
local macro "unwritten" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Buffers carried unchanged across stretches and regions -/

/-- The scores reach the focal kernel as launched. -/
theorem arg0_at_entry0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by show StableHlo.after hostOps0 (W0 m ρ c) (Proc.devRef .tc main_arg0) = W0 m ρ c (Proc.devRef .tc main_arg0); unwritten hostOps0

/-- The features are as launched after the focal kernel. -/
theorem arg2_at_W2 (c : Dev nD) : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := by show StableHlo.after hostOps0 (W0 m ρ c) (Proc.devRef .tc main_arg2) = W0 m ρ c (Proc.devRef .tc main_arg2); unwritten hostOps0

/-- The edge list is as launched after the focal kernel. -/
theorem arg4_at_W2 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := by show StableHlo.after hostOps0 (W0 m ρ c) (Proc.devRef .tc main_arg4) = W0 m ρ c (Proc.devRef .tc main_arg4); unwritten hostOps0

/-- The positions are as launched when the first take of positions runs. -/
theorem arg3_at_W5 (c : Dev nD) : W5 m ρ c (Proc.devRef .tc main_arg3) = W0 m ρ c (Proc.devRef .tc main_arg3) :=
  calc W5 m ρ c (Proc.devRef .tc main_arg3)
    _ = W4 m ρ c (Proc.devRef .tc main_arg3) := by show StableHlo.after hostOps1_2 (W4 m ρ c) (Proc.devRef .tc main_arg3) = W4 m ρ c (Proc.devRef .tc main_arg3); unwritten hostOps1_2
    _ = W3 m ρ c (Proc.devRef .tc main_arg3) := by show StableHlo.after hostOps1_1 (W3 m ρ c) (Proc.devRef .tc main_arg3) = W3 m ρ c (Proc.devRef .tc main_arg3); unwritten hostOps1_1
    _ = W2 m ρ c (Proc.devRef .tc main_arg3) := by show StableHlo.after hostOps1 (W2 m ρ c) (Proc.devRef .tc main_arg3) = W2 m ρ c (Proc.devRef .tc main_arg3); unwritten hostOps1
    _ = W1 m ρ c (Proc.devRef .tc main_arg3) := W2_of_ne m ρ c main_arg3 (by decide)
    _ = W0 m ρ c (Proc.devRef .tc main_arg3) := by show StableHlo.after hostOps0 (W0 m ρ c) (Proc.devRef .tc main_arg3) = W0 m ρ c (Proc.devRef .tc main_arg3); unwritten hostOps0

/-- The positions are as launched when the second take of positions runs. -/
theorem arg3_at_W6 (c : Dev nD) : W6 m ρ c (Proc.devRef .tc main_arg3) = W0 m ρ c (Proc.devRef .tc main_arg3) :=
  calc W6 m ρ c (Proc.devRef .tc main_arg3)
    _ = W5 m ρ c (Proc.devRef .tc main_arg3) := by show StableHlo.after hostOps1_3 (W5 m ρ c) (Proc.devRef .tc main_arg3) = W5 m ρ c (Proc.devRef .tc main_arg3); unwritten hostOps1_3
    _ = W4 m ρ c (Proc.devRef .tc main_arg3) := by show StableHlo.after hostOps1_2 (W4 m ρ c) (Proc.devRef .tc main_arg3) = W4 m ρ c (Proc.devRef .tc main_arg3); unwritten hostOps1_2
    _ = W3 m ρ c (Proc.devRef .tc main_arg3) := by show StableHlo.after hostOps1_1 (W3 m ρ c) (Proc.devRef .tc main_arg3) = W3 m ρ c (Proc.devRef .tc main_arg3); unwritten hostOps1_1
    _ = W2 m ρ c (Proc.devRef .tc main_arg3) := by show StableHlo.after hostOps1 (W2 m ρ c) (Proc.devRef .tc main_arg3) = W2 m ρ c (Proc.devRef .tc main_arg3); unwritten hostOps1
    _ = W1 m ρ c (Proc.devRef .tc main_arg3) := W2_of_ne m ρ c main_arg3 (by decide)
    _ = W0 m ρ c (Proc.devRef .tc main_arg3) := by show StableHlo.after hostOps0 (W0 m ρ c) (Proc.devRef .tc main_arg3) = W0 m ρ c (Proc.devRef .tc main_arg3); unwritten hostOps0

/-- The first endpoints, computed in the first stretch after the focal kernel, are still there two takes later. -/
theorem v7_at_W5 (c : Dev nD) : W5 m ρ c (Proc.devRef .tc main_v7) = W3 m ρ c (Proc.devRef .tc main_v7) :=
  calc W5 m ρ c (Proc.devRef .tc main_v7)
    _ = W4 m ρ c (Proc.devRef .tc main_v7) := by show StableHlo.after hostOps1_2 (W4 m ρ c) (Proc.devRef .tc main_v7) = W4 m ρ c (Proc.devRef .tc main_v7); unwritten hostOps1_2
    _ = W3 m ρ c (Proc.devRef .tc main_v7) := by show StableHlo.after hostOps1_1 (W3 m ρ c) (Proc.devRef .tc main_v7) = W3 m ρ c (Proc.devRef .tc main_v7); unwritten hostOps1_1

/-- The second endpoints are still there after the first take. -/
theorem v9_at_W4 (c : Dev nD) : W4 m ρ c (Proc.devRef .tc main_v9) = W3 m ρ c (Proc.devRef .tc main_v9) :=
  calc W4 m ρ c (Proc.devRef .tc main_v9)
    _ = W3 m ρ c (Proc.devRef .tc main_v9) := by show StableHlo.after hostOps1_1 (W3 m ρ c) (Proc.devRef .tc main_v9) = W3 m ρ c (Proc.devRef .tc main_v9); unwritten hostOps1_1

/-- The second endpoints are still there after three takes. -/
theorem v9_at_W6 (c : Dev nD) : W6 m ρ c (Proc.devRef .tc main_v9) = W3 m ρ c (Proc.devRef .tc main_v9) :=
  calc W6 m ρ c (Proc.devRef .tc main_v9)
    _ = W5 m ρ c (Proc.devRef .tc main_v9) := by show StableHlo.after hostOps1_3 (W5 m ρ c) (Proc.devRef .tc main_v9) = W5 m ρ c (Proc.devRef .tc main_v9); unwritten hostOps1_3
    _ = W4 m ρ c (Proc.devRef .tc main_v9) := by show StableHlo.after hostOps1_2 (W4 m ρ c) (Proc.devRef .tc main_v9) = W4 m ρ c (Proc.devRef .tc main_v9); unwritten hostOps1_2
    _ = W3 m ρ c (Proc.devRef .tc main_v9) := by show StableHlo.after hostOps1_1 (W3 m ρ c) (Proc.devRef .tc main_v9) = W3 m ρ c (Proc.devRef .tc main_v9); unwritten hostOps1_1

/-- The cut-off features are still there after the first take. -/
theorem v11_at_W4 (c : Dev nD) : W4 m ρ c (Proc.devRef .tc main_v11) = W3 m ρ c (Proc.devRef .tc main_v11) :=
  calc W4 m ρ c (Proc.devRef .tc main_v11)
    _ = W3 m ρ c (Proc.devRef .tc main_v11) := by show StableHlo.after hostOps1_1 (W3 m ρ c) (Proc.devRef .tc main_v11) = W3 m ρ c (Proc.devRef .tc main_v11); unwritten hostOps1_1

/-- The first take's result reaches the pairwise kernel. -/
theorem v12_at_entry1 (c : Dev nD) : W8 m ρ c (Proc.devRef .tc main_v12) = W4 m ρ c (Proc.devRef .tc main_v12) :=
  calc W8 m ρ c (Proc.devRef .tc main_v12)
    _ = W7 m ρ c (Proc.devRef .tc main_v12) := by show StableHlo.after hostOps1_5 (W7 m ρ c) (Proc.devRef .tc main_v12) = W7 m ρ c (Proc.devRef .tc main_v12); unwritten hostOps1_5
    _ = W6 m ρ c (Proc.devRef .tc main_v12) := by show StableHlo.after hostOps1_4 (W6 m ρ c) (Proc.devRef .tc main_v12) = W6 m ρ c (Proc.devRef .tc main_v12); unwritten hostOps1_4
    _ = W5 m ρ c (Proc.devRef .tc main_v12) := by show StableHlo.after hostOps1_3 (W5 m ρ c) (Proc.devRef .tc main_v12) = W5 m ρ c (Proc.devRef .tc main_v12); unwritten hostOps1_3
    _ = W4 m ρ c (Proc.devRef .tc main_v12) := by show StableHlo.after hostOps1_2 (W4 m ρ c) (Proc.devRef .tc main_v12) = W4 m ρ c (Proc.devRef .tc main_v12); unwritten hostOps1_2

/-- The second take's result reaches the pairwise kernel. -/
theorem v13_at_entry1 (c : Dev nD) : W8 m ρ c (Proc.devRef .tc main_v13) = W5 m ρ c (Proc.devRef .tc main_v13) :=
  calc W8 m ρ c (Proc.devRef .tc main_v13)
    _ = W7 m ρ c (Proc.devRef .tc main_v13) := by show StableHlo.after hostOps1_5 (W7 m ρ c) (Proc.devRef .tc main_v13) = W7 m ρ c (Proc.devRef .tc main_v13); unwritten hostOps1_5
    _ = W6 m ρ c (Proc.devRef .tc main_v13) := by show StableHlo.after hostOps1_4 (W6 m ρ c) (Proc.devRef .tc main_v13) = W6 m ρ c (Proc.devRef .tc main_v13); unwritten hostOps1_4
    _ = W5 m ρ c (Proc.devRef .tc main_v13) := by show StableHlo.after hostOps1_3 (W5 m ρ c) (Proc.devRef .tc main_v13) = W5 m ρ c (Proc.devRef .tc main_v13); unwritten hostOps1_3

/-- The third take's result is still there after the fourth. -/
theorem v14_at_W7 (c : Dev nD) : W7 m ρ c (Proc.devRef .tc main_v14) = W6 m ρ c (Proc.devRef .tc main_v14) :=
  calc W7 m ρ c (Proc.devRef .tc main_v14)
    _ = W6 m ρ c (Proc.devRef .tc main_v14) := by show StableHlo.after hostOps1_4 (W6 m ρ c) (Proc.devRef .tc main_v14) = W6 m ρ c (Proc.devRef .tc main_v14); unwritten hostOps1_4

/-- The loss, read off the focal kernel's output in the stretch after it, is never written again. -/
theorem v5_at_end (c : Dev nD) : W10 m ρ c (Proc.devRef .tc main_v5) = W3 m ρ c (Proc.devRef .tc main_v5) :=
  calc W10 m ρ c (Proc.devRef .tc main_v5)
    _ = W9 m ρ c (Proc.devRef .tc main_v5) := by show StableHlo.after hostOps2 (W9 m ρ c) (Proc.devRef .tc main_v5) = W9 m ρ c (Proc.devRef .tc main_v5); unwritten hostOps2
    _ = W8 m ρ c (Proc.devRef .tc main_v5) := W9_of_ne m ρ c main_v5 (by decide)
    _ = W7 m ρ c (Proc.devRef .tc main_v5) := by show StableHlo.after hostOps1_5 (W7 m ρ c) (Proc.devRef .tc main_v5) = W7 m ρ c (Proc.devRef .tc main_v5); unwritten hostOps1_5
    _ = W6 m ρ c (Proc.devRef .tc main_v5) := by show StableHlo.after hostOps1_4 (W6 m ρ c) (Proc.devRef .tc main_v5) = W6 m ρ c (Proc.devRef .tc main_v5); unwritten hostOps1_4
    _ = W5 m ρ c (Proc.devRef .tc main_v5) := by show StableHlo.after hostOps1_3 (W5 m ρ c) (Proc.devRef .tc main_v5) = W5 m ρ c (Proc.devRef .tc main_v5); unwritten hostOps1_3
    _ = W4 m ρ c (Proc.devRef .tc main_v5) := by show StableHlo.after hostOps1_2 (W4 m ρ c) (Proc.devRef .tc main_v5) = W4 m ρ c (Proc.devRef .tc main_v5); unwritten hostOps1_2
    _ = W3 m ρ c (Proc.devRef .tc main_v5) := by show StableHlo.after hostOps1_1 (W3 m ρ c) (Proc.devRef .tc main_v5) = W3 m ρ c (Proc.devRef .tc main_v5); unwritten hostOps1_1

theorem W0_eq (c : Dev nD) (b : Ref sig .tc) : W0 m ρ c (Proc.devRef .tc b) = m ((c : Thread nD τ).loc b) := rfl

/-! ## The focal kernel's operands -/

/-- The classes as a column. -/
theorem v0_at_entry0 (c : Dev nD) :
    W1 m ρ c (Proc.devRef .tc main_v0) = shapeCast S4096x1 (m ((c : Thread nD τ).loc main_arg1)) shapeCasts_S4096_S4096x1 := by
  show StableHlo.after hostOps0 (W0 m ρ c) (Proc.devRef .tc main_v0) = _
  after_results <;> rfl

/-- The tissues as a column. -/
theorem v1_at_entry0 (c : Dev nD) :
    W1 m ρ c (Proc.devRef .tc main_v1) = shapeCast S4096x1 (m ((c : Thread nD τ).loc main_arg5)) shapeCasts_S4096_S4096x1 := by
  show StableHlo.after hostOps0 (W0 m ρ c) (Proc.devRef .tc main_v1) = _
  after_results <;> rfl

/-- The class weights as a row. -/
theorem v2_at_entry0 (c : Dev nD) :
    W1 m ρ c (Proc.devRef .tc main_v2) = shapeCast S1x10 (m ((c : Thread nD τ).loc main_arg6)) shapeCasts_S10_S1x10 := by
  show StableHlo.after hostOps0 (W0 m ρ c) (Proc.devRef .tc main_v2) = _
  after_results <;> rfl

/-- The tissue weights as a row. -/
theorem v3_at_entry0 (c : Dev nD) :
    W1 m ρ c (Proc.devRef .tc main_v3) = shapeCast S1x5 (m ((c : Thread nD τ).loc main_arg7)) shapeCasts_S5_S1x5 := by
  show StableHlo.after hostOps0 (W0 m ρ c) (Proc.devRef .tc main_v3) = _
  after_results <;> rfl

/-! ## The stretch after the focal kernel -/

/-- Every edge's first endpoint. -/
theorem v7_at_W3 (c : Dev nD) : W3 m ρ c (Proc.devRef .tc main_v7) = srcOf (m ((c : Thread nD τ).loc main_arg4)) := by
  show StableHlo.after hostOps1 (W2 m ρ c) (Proc.devRef .tc main_v7) = _
  after_results
  rw [arg4_at_W2]
  rfl

/-- Every edge's second endpoint. -/
theorem v9_at_W3 (c : Dev nD) : W3 m ρ c (Proc.devRef .tc main_v9) = dstOf (m ((c : Thread nD τ).loc main_arg4)) := by
  show StableHlo.after hostOps1 (W2 m ρ c) (Proc.devRef .tc main_v9) = _
  after_results
  rw [arg4_at_W2]
  rfl

/-- The features cut off below at zero. -/
theorem v11_at_W3 (c : Dev nD) : W3 m ρ c (Proc.devRef .tc main_v11) = cutoff (m ((c : Thread nD τ).loc main_arg2)) := by
  show StableHlo.after hostOps1 (W2 m ρ c) (Proc.devRef .tc main_v11) = _
  after_results
  rw [arg2_at_W2]
  rfl

/-- The loss: the focal kernel's 1×1 output read as a scalar. -/
theorem v5_at_W3 (c : Dev nD) :
    W3 m ρ c (Proc.devRef .tc main_v5) = shapeCast S_ (W2 m ρ c (Proc.devRef .tc main_v4)) shapeCasts_S1x1_S_ := by
  show StableHlo.after hostOps1 (W2 m ρ c) (Proc.devRef .tc main_v5) = _
  after_results <;> rfl

/-! ## The four takes and the distance column -/

/-- The cut-off features at every edge's first endpoint. -/
theorem v12_at_W4 (c : Dev nD) :
    W4 m ρ c (Proc.devRef .tc main_v12)
      = take32 (W3 m ρ c (Proc.devRef .tc main_v11)) (W3 m ρ c (Proc.devRef .tc main_v7)) :=
  HostStretch.take_first (W3 m ρ c)

/-- The cut-off features at every edge's second endpoint. -/
theorem v13_at_W5 (c : Dev nD) :
    W5 m ρ c (Proc.devRef .tc main_v13)
      = take32 (W4 m ρ c (Proc.devRef .tc main_v11)) (W4 m ρ c (Proc.devRef .tc main_v9)) :=
  HostStretch.take_second (W4 m ρ c)

/-- The positions at every edge's first endpoint. -/
theorem v14_at_W6 (c : Dev nD) :
    W6 m ρ c (Proc.devRef .tc main_v14)
      = take2 (W5 m ρ c (Proc.devRef .tc main_arg3)) (W5 m ρ c (Proc.devRef .tc main_v7)) :=
  HostStretch.take_third (W5 m ρ c)

/-- The positions at every edge's second endpoint. -/
theorem v15_at_W7 (c : Dev nD) :
    W7 m ρ c (Proc.devRef .tc main_v15)
      = take2 (W6 m ρ c (Proc.devRef .tc main_arg3)) (W6 m ρ c (Proc.devRef .tc main_v9)) :=
  HostStretch.take_fourth (W6 m ρ c)

/-- The column of squared distances, from the two takes of positions. -/
theorem v19_at_W8 (c : Dev nD) :
    W8 m ρ c (Proc.devRef .tc main_v19)
      = shapeCast S1600000x1
          (Host.reduceAdd
            (mulf (subf (W7 m ρ c (Proc.devRef .tc main_v14)) (W7 m ρ c (Proc.devRef .tc main_v15)))
              (subf (W7 m ρ c (Proc.devRef .tc main_v14)) (W7 m ρ c (Proc.devRef .tc main_v15))))
            (constant S_ .f32 0x00000000#32) reducesTo_S1600000x2_S1600000_d1 h_S_)
          shapeCasts_S1600000_S1600000x1 :=
  HostStretch.dist_stretch (W7 m ρ c)

/-! ## The pairwise kernel's operands, as host terms of the launch memory -/

theorem entry1_first (c : Dev nD) :
    W8 m ρ c (Proc.devRef .tc main_v12) = take32 (cutoff (m ((c : Thread nD τ).loc main_arg2))) (srcOf (m ((c : Thread nD τ).loc main_arg4))) := by
  rw [v12_at_entry1, v12_at_W4, v11_at_W3, v7_at_W3]

theorem entry1_second (c : Dev nD) :
    W8 m ρ c (Proc.devRef .tc main_v13) = take32 (cutoff (m ((c : Thread nD τ).loc main_arg2))) (dstOf (m ((c : Thread nD τ).loc main_arg4))) := by
  rw [v13_at_entry1, v13_at_W5, v11_at_W4, v9_at_W4, v11_at_W3, v9_at_W3]

theorem entry1_dist (c : Dev nD) :
    W8 m ρ c (Proc.devRef .tc main_v19) = dist (m ((c : Thread nD τ).loc main_arg3)) (m ((c : Thread nD τ).loc main_arg4)) := by
  rw [v19_at_W8, v14_at_W7, v14_at_W6, v15_at_W7, arg3_at_W5, arg3_at_W6, v7_at_W5, v9_at_W6, v7_at_W3, v9_at_W3]
  rfl

/-! ## The three results -/

/-- The loss returned: the focal kernel's output array, read as a scalar. -/
theorem res_loss (c : Dev nD) :
    W10 m ρ c (Proc.devRef .tc main_v5)
      = shapeCast S_ ((dat0 (V1 m ρ) c).arrAt 5 cfg0.N) shapeCasts_S1x1_S_ := by
  rw [v5_at_end, v5_at_W3]
  exact congrArg (fun x => shapeCast S_ x shapeCasts_S1x1_S_) (W2_arr m ρ c 5)

/-- The penalty returned: the weight times the sum of the pairwise kernel's two partial sums, over the edge count. -/
theorem res_penalty (c : Dev nD) :
    W10 m ρ c (Proc.devRef .tc main_v23)
      = Host.divf (mulf (constant S_ .f32 0x3C23D70A#32)
          (Host.reduceAdd ((dat1 (V8 m ρ) c).arrAt 3 cfg1.N) (constant S_ .f32 0x00000000#32) reducesTo_S2x1x1_S_d0_1_2 h_S_))
          (constant S_ .f32 0x49C35000#32) := by
  refine (HostStretch.tail_penalty (W9 m ρ c)).trans ?_
  exact congrArg (fun x => Host.divf (mulf (constant S_ .f32 0x3C23D70A#32)
    (Host.reduceAdd x (constant S_ .f32 0x00000000#32) reducesTo_S2x1x1_S_d0_1_2 h_S_)) (constant S_ .f32 0x49C35000#32))
    (W9_arr m ρ c 3)

/-- The total returned: loss plus penalty. -/
theorem res_total (c : Dev nD) :
    W10 m ρ c (Proc.devRef .tc main_v24)
      = addf (W10 m ρ c (Proc.devRef .tc main_v5)) (W10 m ρ c (Proc.devRef .tc main_v23)) := by
  have h5 : W10 m ρ c (Proc.devRef .tc main_v5) = W9 m ρ c (Proc.devRef .tc main_v5) := by
    show StableHlo.after hostOps2 (W9 m ρ c) (Proc.devRef .tc main_v5) = W9 m ρ c (Proc.devRef .tc main_v5)
    unwritten hostOps2
  rw [h5]
  exact HostStretch.tail_total (W9 m ρ c)

end Cert.KernelIdeal.HostFold

end
-- ==== Proof.Region0.lean ====
import proofs.«419550_j77738908057987_3_alg».proof.Proof.Gen.KernelIdeal.Frame
import Idealize.ShloMosaic.Lib.Pipeline.Value
import Idealize.ShloMosaic.Lib.ValueIdx
import Idealize.ShloMosaic.Lib.Tactic

/-!
# What the focal kernel leaves in its output array

The kernel runs at one grid point. Each of its five operand windows has one block, the whole array, and its
output window's one block is the whole 1×1 output array, stored once. So after the run the output array is the
stored payload computed from the five operand arrays as the kernel finds them.
-/

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The five operand arrays as the kernel finds them, at their literal types: the scores, the class column, the
    tissue column, the class-weight row, the tissue-weight row. -/
abbrev arr0 (c : Dev nD) : Vec F S4096x10 .f32 := V c main_arg0
abbrev arr1 (c : Dev nD) : Vec F S4096x1 .i32 := V c main_v0
abbrev arr2 (c : Dev nD) : Vec F S4096x1 .i32 := V c main_v1
abbrev arr3 (c : Dev nD) : Vec F S1x10 .f32 := V c main_v2
abbrev arr4 (c : Dev nD) : Vec F S1x5 .f32 := V c main_v3

/-- The zero offsets of a rank-2 unit rectangle, as a constant function. -/
theorem hz : (![0, 0] : Fin 2 → Nat) = fun _ => 0 := funext fun a => by fin_cases a <;> rfl

/-- Every window's block index at the one point is (0, 0) — decided over the grid. -/
theorem index0_0 : ∀ t : Fin cfg0.N, win0_0.index t 0 = 0 ∧ win0_0.index t 1 = 0 :=
  (by decide +kernel : ∀ t : Fin grid0.N, win0_0.index t 0 = 0 ∧ win0_0.index t 1 = 0)
theorem index0_1 : ∀ t : Fin cfg0.N, win0_1.index t 0 = 0 ∧ win0_1.index t 1 = 0 :=
  (by decide +kernel : ∀ t : Fin grid0.N, win0_1.index t 0 = 0 ∧ win0_1.index t 1 = 0)
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)
theorem index0_4 : ∀ t : Fin cfg0.N, win0_4.index t 0 = 0 ∧ win0_4.index t 1 = 0 :=
  (by decide +kernel : ∀ t : Fin grid0.N, win0_4.index t 0 = 0 ∧ win0_4.index t 1 = 0)
theorem index0_5 : ∀ t : Fin cfg0.N, win0_5.index t 0 = 0 ∧ win0_5.index t 1 = 0 :=
  (by decide +kernel : ∀ t : Fin grid0.N, win0_5.index t 0 = 0 ∧ win0_5.index t 1 = 0)

/-- Each operand window's one block is its array: block (0, 0) of the array's own extents. -/
theorem blk0_eq (c : Dev nD) (t : Fin cfg0.N) : (iblk0 V c 0 t : Vec F S4096x10 .f32) = arr0 V c := by
  funext j
  unfold iblk0 arr0
  rw [View.read_apply]
  show V c main_arg0 (((cfg0.win 0).blk t).view.emb j) = V c main_arg0 j
  congr 1
  funext a
  apply Fin.ext
  match a with
  | ⟨0, _⟩ =>
    show win0_0.index t 0 * 4096 + 1 * (j 0).val = (j 0).val
    rw [(index0_0 t).1]; omega
  | ⟨1, _⟩ =>
    show win0_0.index t 1 * 10 + 1 * (j 1).val = (j 1).val
    rw [(index0_0 t).2]; omega
theorem blk1_eq (c : Dev nD) (t : Fin cfg0.N) : (iblk0 V c 1 t : Vec F S4096x1 .i32) = arr1 V c := by
  funext j
  unfold iblk0 arr1
  rw [View.read_apply]
  show V c main_v0 (((cfg0.win 1).blk t).view.emb j) = V c main_v0 j
  congr 1
  funext a
  apply Fin.ext
  match a with
  | ⟨0, _⟩ =>
    show win0_1.index t 0 * 4096 + 1 * (j 0).val = (j 0).val
    rw [(index0_1 t).1]; omega
  | ⟨1, _⟩ =>
    show win0_1.index t 1 * 1 + 1 * (j 1).val = (j 1).val
    rw [(index0_1 t).2]; omega
theorem blk2_eq (c : Dev nD) (t : Fin cfg0.N) : (iblk0 V c 2 t : Vec F S4096x1 .i32) = arr2 V c := by
  funext j
  unfold iblk0 arr2
  rw [View.read_apply]
  show V c main_v1 (((cfg0.win 2).blk t).view.emb j) = V c main_v1 j
  congr 1
  funext a
  apply Fin.ext
  match a with
  | ⟨0, _⟩ =>
    show win0_2.index t 0 * 4096 + 1 * (j 0).val = (j 0).val
    rw [(index0_2 t).1]; omega
  | ⟨1, _⟩ =>
    show win0_2.index t 1 * 1 + 1 * (j 1).val = (j 1).val
    rw [(index0_2 t).2]; omega
theorem blk3_eq (c : Dev nD) (t : Fin cfg0.N) : (iblk0 V c 3 t : Vec F S1x10 .f32) = arr3 V c := by
  funext j
  unfold iblk0 arr3
  rw [View.read_apply]
  show V c main_v2 (((cfg0.win 3).blk t).view.emb j) = V c main_v2 j
  congr 1
  funext a
  apply Fin.ext
  match a with
  | ⟨0, _⟩ =>
    show win0_3.index t 0 * 1 + 1 * (j 0).val = (j 0).val
    rw [(index0_3 t).1]; omega
  | ⟨1, _⟩ =>
    show win0_3.index t 1 * 10 + 1 * (j 1).val = (j 1).val
    rw [(index0_3 t).2]; omega
theorem blk4_eq (c : Dev nD) (t : Fin cfg0.N) : (iblk0 V c 4 t : Vec F S1x5 .f32) = arr4 V c := by
  funext j
  unfold iblk0 arr4
  rw [View.read_apply]
  show V c main_v3 (((cfg0.win 4).blk t).view.emb j) = V c main_v3 j
  congr 1
  funext a
  apply Fin.ext
  match a with
  | ⟨0, _⟩ =>
    show win0_4.index t 0 * 1 + 1 * (j 0).val = (j 0).val
    rw [(index0_4 t).1]; omega
  | ⟨1, _⟩ =>
    show win0_4.index t 1 * 5 + 1 * (j 1).val = (j 1).val
    rw [(index0_4 t).2]; omega

/-- The one-element array has one index. -/
theorem idx_unit_eq (i i' : S1x1.Idx) : i = i' := by
  funext a
  apply Fin.ext
  match a with
  | ⟨0, _⟩ =>
    have h1 : (i 0).val < 1 := (i 0).isLt
    have h2 : (i' 0).val < 1 := (i' 0).isLt
    show (i 0).val = (i' 0).val
    omega
  | ⟨1, _⟩ =>
    have h1 : (i 1).val < 1 := (i 1).isLt
    have h2 : (i' 1).val < 1 := (i' 1).isLt
    show (i 1).val = (i' 1).val
    omega

/-- Contents of the output block, written back at a point, are those contents read through the point's block of
    the array: block and array are the same one element. -/
theorem cut_eq_read (P : Vec F S1x1 .f32) (t : Fin cfg0.N) :
    (cfg0.win 5).cut (grid0.coords t) P = ((cfg0.win 5).blk t).view.read (Elt F) P := by
  funext j
  rw [View.read_apply]
  show P _ = P _
  exact congrArg P (idx_unit_eq _ _)

/-- The stored payload of the five operand arrays. -/
abbrev stored (c : Dev nD) : Vec F S1x1 .f32 :=
  k0_pay1 (k0_pay3 (arr0 V c) (arr1 V c)) (k0_pay4 (arr0 V c) (arr1 V c)) (k0_pay5 (arr1 V c) (arr3 V c))
    (k0_pay6 (arr2 V c) (arr4 V c))

/-- What the point writes back: the body's one store covers the output block, its loads read the operand blocks
    whole, and those are the operand arrays. -/
theorem flushed_eq (c : Dev nD) (t : Fin cfg0.N) (hf : (cfg0.win 5).flush t = true) :
    (dat0 V c).flushed 5 t = ((cfg0.win 5).blk t).view.read (Elt F) (stored V c) := by
  show (cfg0.win 5).cut (grid0.coords t) ((dat0 V c).after 5 t) = _
  rw [after0_5]
  unfold out0_5
  rw [View.canon_unit_zero hz]
  simp only [View.ld_unit_zero (S := S4096x10) hz, View.ld_unit_zero (S := S4096x1) hz,
    View.ld_unit_zero (S := S1x10) hz, View.ld_unit_zero (S := S1x5) hz]
  rw [blk0_eq V c t, blk1_eq V c t, blk2_eq V c t, blk3_eq V c t, blk4_eq V c t]
  exact cut_eq_read _ t

/-- The one point writes back the one block, which is all of the array: so the array after the run is the stored
    payload. -/
theorem arr_eq (c : Dev nD) : (dat0 V c).arrAt 5 cfg0.N = stored V c :=
  (dat0 V c).arrAt_eq_of_cover 5 (stored V c) (flushed_eq V c) fun i => ⟨t0_0, flush0_5 t0_0, by
    have h0 : (i 0).val < 1 := (i 0).isLt
    have h1 : (i 1).val < 1 := (i 1).isLt
    show i ∈ ((View.whole main_v4).slice (win0_5.rect t0_0)).set
    rw [View.set_slice_whole, Rect.mem_set_unit]
    intro a
    match a with
    | ⟨0, _⟩ =>
      show win0_5.index t0_0 0 * 1 ≤ (i 0).val ∧ (i 0).val < win0_5.index t0_0 0 * 1 + 1
      rw [(index0_5 t0_0).1]; omega
    | ⟨1, _⟩ =>
      show win0_5.index t0_0 1 * 1 ≤ (i 1).val ∧ (i 1).val < win0_5.index t0_0 1 * 1 + 1
      rw [(index0_5 t0_0).2]; omega⟩

/-- The output array after the run is the stored payload of the operand arrays. -/
theorem arrAt_eq (c : Dev nD) :
    ((dat0 V c).arrAt 5 cfg0.N : Vec F S1x1 .f32)
      = k0_pay1 (k0_pay3 (arr0 V c) (arr1 V c)) (k0_pay4 (arr0 V c) (arr1 V c)) (k0_pay5 (arr1 V c) (arr3 V c))
          (k0_pay6 (arr2 V c) (arr4 V c)) :=
  arr_eq V c

end Cert.KernelIdeal.Region0

end
-- ==== Proof.Spec.lean ====
import Idealize.ShloMosaic.PureOps.Ideal

/-!
# What both programs compute

A weighted focal loss over 4096 rows of 10 class scores, plus a pairwise penalty over 1 600 000 edges of a
graph on 50 000 nodes, all on the extended reals.

* Row `b` has scores `lg b`, a class `t b` and a tissue `s b`. Its log-probabilities are the scores less their
  maximum, less the logarithm of the sum of the exponentials of those differences. With `lp` the
  log-probability of the row's own class and `q = 1 - exp lp`, the row contributes
  `-(q * q * cw (t b) * tw (s b)) * lp`; the loss is the sum of the contributions divided by the number of rows.
* Edge `e` joins nodes `E0 e` and `E1 e`. It contributes the sum over the 32 features of the product of the two
  nodes' features, each cut off below at zero, times the squared distance of the two nodes' positions; the
  penalty is a fixed weight times the sum of the contributions, divided by the number of edges.

The four float constants are kept as the words the programs spell; nothing here evaluates them.
-/

open scoped BigOperators
open Idealize.ShloMosaic

noncomputable section

namespace Cert.Spec

/-- The word for 1.0. -/
abbrev one : EReal := Ideal.ofBits .f32 0x3F800000#32
/-- The word for -infinity, from which a row's maximum is folded. -/
abbrev negInf : EReal := Ideal.ofBits .f32 0xFF800000#32
/-- The word for 4096.0, the number of rows. -/
abbrev nRows : EReal := Ideal.ofBits .f32 0x45800000#32
/-- The word the penalty is weighted by (the f32 nearest 0.01). -/
abbrev weight : EReal := Ideal.ofBits .f32 0x3C23D70A#32
/-- The word for 1600000.0, the number of edges. -/
abbrev nEdges : EReal := Ideal.ofBits .f32 0x49C35000#32

/-- The largest of a row's ten scores. -/
def rowMax (lg : Fin 4096 → Fin 10 → EReal) (b : Fin 4096) : EReal :=
  (Finset.univ : Finset (Fin 10)).fold max negInf (lg b)

/-- A score less its row's maximum. -/
def shifted (lg : Fin 4096 → Fin 10 → EReal) (b : Fin 4096) (c : Fin 10) : EReal :=
  lg b c - rowMax lg b

/-- The sum over a row of the exponentials of the shifted scores. -/
def sumExp (lg : Fin 4096 → Fin 10 → EReal) (b : Fin 4096) : EReal :=
  ∑ c : Fin 10, Ideal.exp (shifted lg b c)

/-- The log-probability of class `c` in row `b`. -/
def logp (lg : Fin 4096 → Fin 10 → EReal) (b : Fin 4096) (c : Fin 10) : EReal :=
  shifted lg b c - Ideal.log (sumExp lg b)

/-- Row `b`'s contribution to the focal loss. -/
def rowLoss (lg : Fin 4096 → Fin 10 → EReal) (t : Fin 4096 → Fin 10) (s : Fin 4096 → Fin 5)
    (cw : Fin 10 → EReal) (tw : Fin 5 → EReal) (b : Fin 4096) : EReal :=
  -((((one - Ideal.exp (logp lg b (t b))) * (one - Ideal.exp (logp lg b (t b)))) * cw (t b)) * tw (s b))
    * logp lg b (t b)

/-- The focal loss: the mean of the rows' contributions. -/
def focal (lg : Fin 4096 → Fin 10 → EReal) (t : Fin 4096 → Fin 10) (s : Fin 4096 → Fin 5)
    (cw : Fin 10 → EReal) (tw : Fin 5 → EReal) : EReal :=
  Ideal.div (∑ b : Fin 4096, rowLoss lg t s cw tw b) nRows

/-- The overlap of two nodes' features, each cut off below at zero. -/
def pairSum (Sm : Fin 50000 → Fin 32 → EReal) (i j : Fin 50000) : EReal :=
  ∑ k : Fin 32, max (Sm i k) 0 * max (Sm j k) 0

/-- The squared distance of two nodes' positions. -/
def dist2 (ps : Fin 50000 → Fin 2 → EReal) (i j : Fin 50000) : EReal :=
  ∑ a : Fin 2, (ps i a - ps j a) * (ps i a - ps j a)

/-- The sum over the edges of overlap times squared distance. -/
def spatialSum (Sm : Fin 50000 → Fin 32 → EReal) (ps : Fin 50000 → Fin 2 → EReal)
    (E0 E1 : Fin 1600000 → Fin 50000) : EReal :=
  ∑ e : Fin 1600000, pairSum Sm (E0 e) (E1 e) * dist2 ps (E0 e) (E1 e)

/-- The penalty: the weighted sum, divided by the number of edges. -/
def spatial (Sm : Fin 50000 → Fin 32 → EReal) (ps : Fin 50000 → Fin 2 → EReal)
    (E0 E1 : Fin 1600000 → Fin 50000) : EReal :=
  Ideal.div (weight * spatialSum Sm ps E0 E1) nEdges

/-- The total: loss plus penalty. -/
def total (lg : Fin 4096 → Fin 10 → EReal) (t : Fin 4096 → Fin 10) (s : Fin 4096 → Fin 5)
    (cw : Fin 10 → EReal) (tw : Fin 5 → EReal) (Sm : Fin 50000 → Fin 32 → EReal)
    (ps : Fin 50000 → Fin 2 → EReal) (E0 E1 : Fin 1600000 → Fin 50000) : EReal :=
  focal lg t s cw tw + spatial Sm ps E0 E1

end Cert.Spec

end
-- ==== Proof.FocalValue.lean ====
import proofs.«419550_j77738908057987_3_alg».proof.Proof.Gen.KernelIdeal.Skeleton
import proofs.«419550_j77738908057987_3_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The focal kernel's stored value, at Ideal

The kernel's one store writes a 1×1 block computed from the whole blocks of its five operands. Where the class and
tissue columns hold in-range numbers, that value is the focal loss of the specification: a one-hot row times a
row of numbers sums to the number at the hot position.
-/

noncomputable section

namespace Cert.KernelIdeal.FocalValue

open Cert.KernelIdeal Cert.KernelIdeal.Gen Idealize.ShloMosaic Idealize.ShloMosaic.ValueIdx
open scoped BigOperators

/-! ## A one-hot row picks one entry of a row -/

/-- A row of extended reals times a one-hot row sums to the entry at the hot position: every other term is
    `x * 0 = 0` and the hot one is `x * 1 = x`, whatever `x` is. -/
theorem sum_mul_onehot {n : ℕ} (f : Fin n → EReal) (t : Fin n) :
    ∑ c : Fin n, f c * (if c = t then (1 : EReal) else 0) = f t := by
  rw [Finset.sum_eq_single t]
  · rw [if_pos rfl, mul_one]
  · intro c _ hc
    rw [if_neg hc, mul_zero]
  · intro h
    exact absurd (Finset.mem_univ t) h

/-- Two numbers below `2 ^ 32` compare equal as 32-bit words exactly when they are equal. -/
theorem cmpi_eq_ofNat (k t : ℕ) (hk : k < 4294967296) (ht : t < 4294967296) :
    IntOp.cmpi .eq (BitVec.ofNat 32 k) (BitVec.ofNat 32 t) = if k = t then 1#1 else 0#1 := by
  show BitVec.ofBool (BitVec.ofNat 32 k == BitVec.ofNat 32 t) = _
  by_cases h : k = t
  · subst h
    rw [if_pos rfl, beq_self_eq_true]
    rfl
  · have hne : BitVec.ofNat 32 k ≠ BitVec.ofNat 32 t := by
      intro e
      have e' := congrArg BitVec.toNat e
      rw [BitVec.toNat_ofNat, BitVec.toNat_ofNat] at e'
      have hk' : k % 2 ^ 32 = k := Nat.mod_eq_of_lt (by omega)
      have ht' : t % 2 ^ 32 = t := Nat.mod_eq_of_lt (by omega)
      rw [hk', ht'] at e'
      exact h e'
    rw [if_neg h, beq_eq_false_iff_ne.mpr hne]
    rfl

/-- The comparison bit of two such numbers, widened to a word and read as a signed integer, then as an extended
    real, is `1` where they are equal and `0` where they are not. -/
theorem onehot_val (k t : ℕ) (hk : k < 4294967296) (ht : t < 4294967296) :
    (FloatOps.sitofp (F := Ideal) .f32 ((IntOp.cmpi .eq (BitVec.ofNat 32 k) (BitVec.ofNat 32 t)).setWidth 32) : EReal)
      = if k = t then 1 else 0 := by
  rw [cmpi_eq_ofNat k t hk ht]
  show ((((if k = t then 1#1 else 0#1 : BitVec 1).setWidth 32).toInt : ℝ) : EReal) = _
  by_cases h : k = t
  · rw [if_pos h, if_pos h]
    have e : ((1#1 : BitVec 1).setWidth 32).toInt = 1 := by decide
    rw [e]
    simp
  · rw [if_neg h, if_neg h]
    have e : ((0#1 : BitVec 1).setWidth 32).toInt = 0 := by decide
    rw [e]
    simp

/-! ## Layout operations of a row-reducing kernel, read at an index -/

section Layout
variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over a reduction of a matrix along its columns, the index above row `b` with column `k` put back is `(b, k)`. -/
theorem lift_axis1 {n m : ℕ} (h : (⟨2, ![n, m]⟩ : Shape).Reduces [1] ⟨1, ![n]⟩) (b : Fin n) (k : Fin m) :
    h.lift (ix1 b) k = ix2 b k := by
  funext c
  match c with
  | ⟨0, _⟩ => exact Fin.ext rfl
  | ⟨1, _⟩ => exact Fin.ext rfl

/-- Over a reduction of a matrix along its rows, the index above column `u` with row `b` put back is `(b, u)`. -/
theorem lift_axis0 {n m : ℕ} (h : (⟨2, ![n, m]⟩ : Shape).Reduces [0] ⟨1, ![m]⟩) (u : Fin m) (b : Fin n) :
    h.lift (ix1 u) b = ix2 b u := by
  funext c
  match c with
  | ⟨0, _⟩ => exact Fin.ext rfl
  | ⟨1, _⟩ => exact Fin.ext rfl

end Layout

/-- A sum along the columns of a matrix of extended reals, read at row `b`, is the sum of that row. -/
theorem rowSum_apply {n m : ℕ} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (b : Fin n) :
    multiReduction .add [1] ⟨1, ![n]⟩ src 0x00000000#32 h hφ hacc (ix1 b) = ∑ k : Fin m, src (ix2 b k) :=
  (Ideal.multiReduction_add_single src 0x00000000#32 h hφ hacc (ix1 b)).trans
    (Finset.sum_congr rfl fun k _ => congrArg src (lift_axis1 h b k))

/-- A sum along the rows of a matrix of extended reals, read at column `u`, is the sum of that column. -/
theorem colSum_apply {n m : ℕ} (src : FVec Ideal ⟨2, ![n, m]⟩ .f32)
    (h : (⟨2, ![n, m]⟩ : Shape).Reduces [0] ⟨1, ![m]⟩) (hφ : FKind.Formats .f32)
    (hacc : (0x00000000#32 : BitVec 32) = FKind.add.neutral .f32 hφ) (u : Fin m) :
    multiReduction .add [0] ⟨1, ![m]⟩ src 0x00000000#32 h hφ hacc (ix1 u) = ∑ b : Fin n, src (ix2 b u) :=
  (Ideal.multiReduction_add_single src 0x00000000#32 h hφ hacc (ix1 u)).trans
    (Finset.sum_congr rfl fun b _ => congrArg src (lift_axis0 h u b))

/-- A maximum along the columns of a matrix of extended reals, read at row `b`, is the fold of `max` over that row
    from the value of the accumulator's word. -/
theorem rowMax_apply {n m : ℕ} (src : FVec Ideal ⟨2, ![n, m]⟩ .f32) (acc : BitVec 32)
    (h : (⟨2, ![n, m]⟩ : Shape).Reduces [1] ⟨1, ![n]⟩) (hφ : FKind.Formats .f32)
    (hacc : acc = FKind.maximumf.neutral .f32 hφ) (b : Fin n) :
    multiReduction .maximumf [1] ⟨1, ![n]⟩ src acc h hφ hacc (ix1 b)
      = (Finset.univ : Finset (Fin m)).fold max (Ideal.ofBits .f32 acc) (fun k => src (ix2 b k)) :=
  (Ideal.multiReduction_maximumf_single src acc h hφ hacc (ix1 b)).trans
    (congrArg (fun g => (Finset.univ : Finset (Fin m)).fold max (Ideal.ofBits .f32 acc) g)
      (funext fun k => congrArg src (lift_axis1 h b k)))

/-! ## The keepdims forms: a row reduction kept as a column, and a column spread over the lanes -/

/-- A row sum kept as a column reads, at `(b, u)`, the sum of row `b`. -/
theorem keepSum_apply {n m : ℕ} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (b : Fin n) (u : Fin 1) :
    shapeCast ⟨2, ![n, 1]⟩ (multiReduction .add [1] ⟨1, ![n]⟩ src 0x00000000#32 h hφ hacc) hc (ix2 b u)
      = ∑ k : Fin m, src (ix2 b k) :=
  (shapeCast_a_a1_apply _ hc b u).trans (rowSum_apply src h hφ hacc b)

/-- A row maximum kept as a column reads, at `(b, u)`, the fold of `max` over row `b`. -/
theorem keepMax_apply {n m : ℕ} (src : FVec Ideal ⟨2, ![n, m]⟩ .f32) (acc : BitVec 32)
    (h : (⟨2, ![n, m]⟩ : Shape).Reduces [1] ⟨1, ![n]⟩) (hφ : FKind.Formats .f32)
    (hacc : acc = FKind.maximumf.neutral .f32 hφ)
    (hc : (⟨1, ![n]⟩ : Shape).ShapeCasts ⟨2, ![n, 1]⟩) (b : Fin n) (u : Fin 1) :
    shapeCast ⟨2, ![n, 1]⟩ (multiReduction .maximumf [1] ⟨1, ![n]⟩ src acc h hφ hacc) hc (ix2 b u)
      = (Finset.univ : Finset (Fin m)).fold max (Ideal.ofBits .f32 acc) (fun k => src (ix2 b k)) :=
  (shapeCast_a_a1_apply _ hc b u).trans (rowMax_apply src acc h hφ hacc b)

/-! ## The one-hot row the kernel builds from a column of class numbers -/

/-- Lane `k` of row `b` of the kernel's one-hot matrix — the lane number compared with the row's word, the bit
    widened and converted — is `1` where `k` is the row's class and `0` elsewhere. -/
theorem onehot_apply {n m : ℕ} (x : IVec ⟨2, ![n, 1]⟩ 32) (hi : (⟨2, ![n, m]⟩ : Shape).Iotas .tc 32 [1])
    (hc : (⟨2, ![n, 1]⟩ : Shape).ShapeCasts ⟨2, ![n, 1]⟩) (hb : (⟨2, ![n, 1]⟩ : Shape).Broadcasts ⟨2, ![n, m]⟩)
    (hlt : 1 < 32) (hm : m ≤ 4294967296) (t : Fin n → Fin m)
    (ht : ∀ b : Fin n, x (ix2 b 0) = BitVec.ofNat 32 (t b).val) (b : Fin n) (k : Fin m) :
    (sitofp (F := Ideal) .f32 (extui 32 (cmpi .eq (iota .tc ⟨2, ![n, m]⟩ 32 [1] hi)
        (broadcastTo ⟨2, ![n, m]⟩ (shapeCast ⟨2, ![n, 1]⟩ x hc) hb)) hlt)) (ix2 b k)
      = if k = t b then (1 : EReal) else 0 := by
  have e1 : iota .tc ⟨2, ![n, m]⟩ 32 [1] hi (ix2 b k) = BitVec.ofNat 32 k.val :=
    iota_single_apply .tc ⟨2, ![n, m]⟩ 32 1 hi (ix2 b k)
  have e2 : broadcastTo ⟨2, ![n, m]⟩ (shapeCast ⟨2, ![n, 1]⟩ x hc) hb (ix2 b k) = BitVec.ofNat 32 (t b).val := by
    rw [broadcastTo_a1_ab_apply, shapeCast_self, ht b]
  show FloatOps.sitofp (F := Ideal) .f32
      ((IntOp.cmpi .eq (iota .tc ⟨2, ![n, m]⟩ 32 [1] hi (ix2 b k))
        (broadcastTo ⟨2, ![n, m]⟩ (shapeCast ⟨2, ![n, 1]⟩ x hc) hb (ix2 b k))).setWidth 32) = _
  rw [e1, e2]
  refine (onehot_val k.val (t b).val (by have := k.isLt; omega) (by have := (t b).isLt; omega)).trans ?_
  by_cases h : k = t b
  · rw [if_pos h, if_pos (congrArg Fin.val h)]
  · rw [if_neg h, if_neg fun e => h (Fin.ext e)]

/-! ## The kernel's row arithmetic, stage by stage -/

section Stages
variable (x0 : FVec Ideal S4096x10 .f32)

/-- The kernel's scores less their row maximum. -/
def kShifted : FVec Ideal S4096x10 .f32 :=
  subf x0 (broadcastTo S4096x10 (shapeCast S4096x1 (multiReduction .maximumf [1] S4096 x0 0xFF800000#32
    reduces_S4096x10_S4096 (.inl rfl) rfl) shapeCasts_S4096_S4096x1) broadcasts_S4096x1_S4096x10)

/-- At `(b, k)` it is the specification's shifted score. -/
theorem kShifted_apply (b : Fin 4096) (k : Fin 10) :
    kShifted x0 (ix2 b k) = Cert.Spec.shifted (fun b k => x0 (ix2 b k)) b k := by
  show x0 (ix2 b k) - _ = x0 (ix2 b k) - _
  exact congrArg (x0 (ix2 b k) - ·)
    ((broadcastTo_a1_ab_apply _ broadcasts_S4096x1_S4096x10 b k).trans
      (keepMax_apply x0 0xFF800000#32 reduces_S4096x10_S4096 (.inl rfl) rfl shapeCasts_S4096_S4096x1 b 0))

/-- The kernel's sum over each row of the exponentials of the shifted scores, kept as a column. -/
def kSumExp : FVec Ideal S4096x1 .f32 :=
  shapeCast S4096x1 (multiReduction .add [1] S4096 (exp (kShifted x0)) 0x00000000#32
    reduces_S4096x10_S4096 (.inl rfl) rfl) shapeCasts_S4096_S4096x1

/-- At row `b` it is the specification's sum of exponentials. -/
theorem kSumExp_apply (b : Fin 4096) (u : Fin 1) :
    kSumExp x0 (ix2 b u) = Cert.Spec.sumExp (fun b k => x0 (ix2 b k)) b := by
  refine (keepSum_apply (exp (kShifted x0)) reduces_S4096x10_S4096 (.inl rfl) rfl shapeCasts_S4096_S4096x1 b u).trans ?_
  unfold Cert.Spec.sumExp
  refine Finset.sum_congr rfl fun k _ => ?_
  show Ideal.exp (kShifted x0 (ix2 b k)) = _
  rw [kShifted_apply]

/-- The kernel's log-probabilities: the shifted scores less the logarithm of the row's sum of exponentials. -/
def kLogp : FVec Ideal S4096x10 .f32 :=
  subf (kShifted x0) (broadcastTo S4096x10 (log (kSumExp x0)) broadcasts_S4096x1_S4096x10)

/-- At `(b, k)` it is the specification's log-probability. -/
theorem kLogp_apply (b : Fin 4096) (k : Fin 10) :
    kLogp x0 (ix2 b k) = Cert.Spec.logp (fun b k => x0 (ix2 b k)) b k := by
  show kShifted x0 (ix2 b k) - broadcastTo S4096x10 (log (kSumExp x0)) broadcasts_S4096x1_S4096x10 (ix2 b k) = _
  rw [broadcastTo_a1_ab_apply, kShifted_apply]
  show _ - Ideal.log (kSumExp x0 (ix2 b 0)) = _
  rw [kSumExp_apply]
  rfl

end Stages

/-- The kernel's one-hot matrix over the ten classes, read at `(b, k)`. -/
theorem pay2_apply (x1 : Vec Ideal S4096x1 .i32) (t : Fin 4096 → Fin 10)
    (ht : ∀ b : Fin 4096, x1 (ix2 b 0) = BitVec.ofNat 32 (t b).val) (b : Fin 4096) (k : Fin 10) :
    k0_pay2 (F := Ideal) x1 (ix2 b k) = if k = t b then (1 : EReal) else 0 :=
  onehot_apply x1 iota_S4096x10_d1_w32 shapeCasts_S4096x1_S4096x1 broadcasts_S4096x1_S4096x10 natLt_1_32
    (by norm_num) t ht b k

/-- The kernel's first payload is the row sum, kept as a column, of the log-probabilities times the one-hot matrix. -/
theorem pay3_eq (x0 : FVec Ideal S4096x10 .f32) (x1 : Vec Ideal S4096x1 .i32) :
    k0_pay3 (F := Ideal) x0 x1
      = shapeCast S4096x1 (multiReduction .add [1] S4096 (mulf (kLogp x0) (k0_pay2 x1)) 0x00000000#32
          reduces_S4096x10_S4096 (.inl rfl) rfl) shapeCasts_S4096_S4096x1 := rfl

/-- So at row `b` it is the log-probability of the row's own class. -/
theorem pay3_apply (x0 : FVec Ideal S4096x10 .f32) (x1 : Vec Ideal S4096x1 .i32) (t : Fin 4096 → Fin 10)
    (ht : ∀ b : Fin 4096, x1 (ix2 b 0) = BitVec.ofNat 32 (t b).val) (b : Fin 4096) (u : Fin 1) :
    k0_pay3 (F := Ideal) x0 x1 (ix2 b u) = Cert.Spec.logp (fun b k => x0 (ix2 b k)) b (t b) := by
  rw [pay3_eq]
  refine (keepSum_apply _ reduces_S4096x10_S4096 (.inl rfl) rfl shapeCasts_S4096_S4096x1 b u).trans ?_
  refine Eq.trans (Finset.sum_congr rfl fun k _ => ?_)
    (sum_mul_onehot (fun k => Cert.Spec.logp (fun b k => x0 (ix2 b k)) b k) (t b))
  show kLogp x0 (ix2 b k) * k0_pay2 x1 (ix2 b k) = _
  rw [kLogp_apply, pay2_apply x1 t ht b k]

/-- The second payload is the square of one less the exponential of that log-probability. -/
theorem pay4_apply (x0 : FVec Ideal S4096x10 .f32) (x1 : Vec Ideal S4096x1 .i32) (t : Fin 4096 → Fin 10)
    (ht : ∀ b : Fin 4096, x1 (ix2 b 0) = BitVec.ofNat 32 (t b).val) (b : Fin 4096) (u : Fin 1) :
    k0_pay4 (F := Ideal) x0 x1 (ix2 b u)
      = (Cert.Spec.one - Ideal.exp (Cert.Spec.logp (fun b k => x0 (ix2 b k)) b (t b)))
        * (Cert.Spec.one - Ideal.exp (Cert.Spec.logp (fun b k => x0 (ix2 b k)) b (t b))) := by
  show (Cert.Spec.one - Ideal.exp (k0_pay3 (F := Ideal) x0 x1 (ix2 b u)))
      * (Cert.Spec.one - Ideal.exp (k0_pay3 (F := Ideal) x0 x1 (ix2 b u))) = _
  rw [pay3_apply x0 x1 t ht b u]

/-- The third payload picks the class weight of the row's class. -/
theorem pay5_apply (x1 : Vec Ideal S4096x1 .i32) (x3 : FVec Ideal S1x10 .f32) (t : Fin 4096 → Fin 10)
    (ht : ∀ b : Fin 4096, x1 (ix2 b 0) = BitVec.ofNat 32 (t b).val) (b : Fin 4096) (u : Fin 1) :
    k0_pay5 (F := Ideal) x1 x3 (ix2 b u) = x3 (ix2 0 (t b)) := by
  refine (keepSum_apply (mulf (broadcastTo S4096x10 (shapeCast S1x10 (shapeCast S1x10 x3 shapeCasts_S1x10_S1x10)
    shapeCasts_S1x10_S1x10) broadcasts_S1x10_S4096x10) (k0_pay2 x1)) reduces_S4096x10_S4096 (.inl rfl) rfl
    shapeCasts_S4096_S4096x1 b u).trans ?_
  refine Eq.trans (Finset.sum_congr rfl fun k _ => ?_) (sum_mul_onehot (fun k => x3 (ix2 0 k)) (t b))
  show broadcastTo S4096x10 (shapeCast S1x10 (shapeCast S1x10 x3 shapeCasts_S1x10_S1x10) shapeCasts_S1x10_S1x10)
      broadcasts_S1x10_S4096x10 (ix2 b k) * k0_pay2 (F := Ideal) x1 (ix2 b k) = _
  rw [broadcastTo_1b_ab_apply, shapeCast_self, shapeCast_self, pay2_apply x1 t ht b k]

/-- The fourth payload is the tissue weights times the one-hot matrix over the five tissues. -/
theorem pay6_apply (x2 : Vec Ideal S4096x1 .i32) (x4 : FVec Ideal S1x5 .f32) (s : Fin 4096 → Fin 5)
    (hs : ∀ b : Fin 4096, x2 (ix2 b 0) = BitVec.ofNat 32 (s b).val) (b : Fin 4096) (k : Fin 5) :
    k0_pay6 (F := Ideal) x2 x4 (ix2 b k) = x4 (ix2 0 k) * (if k = s b then (1 : EReal) else 0) := by
  show broadcastTo S4096x5 (shapeCast S1x5 (shapeCast S1x5 x4 shapeCasts_S1x5_S1x5) shapeCasts_S1x5_S1x5)
      broadcasts_S1x5_S4096x5 (ix2 b k)
    * (sitofp (F := Ideal) .f32 (extui 32 (cmpi .eq (iota .tc S4096x5 32 [1] iota_S4096x5_d1_w32)
        (broadcastTo S4096x5 (shapeCast S4096x1 x2 shapeCasts_S4096x1_S4096x1) broadcasts_S4096x1_S4096x5))
        natLt_1_32)) (ix2 b k) = _
  rw [broadcastTo_1b_ab_apply, shapeCast_self, shapeCast_self,
    onehot_apply x2 iota_S4096x5_d1_w32 shapeCasts_S4096x1_S4096x1 broadcasts_S4096x1_S4096x5 natLt_1_32
      (by norm_num) s hs b k]

/-- Its row sum, kept as a column, picks the tissue weight of the row's tissue. -/
theorem tissue_apply (x2 : Vec Ideal S4096x1 .i32) (x4 : FVec Ideal S1x5 .f32) (s : Fin 4096 → Fin 5)
    (hs : ∀ b : Fin 4096, x2 (ix2 b 0) = BitVec.ofNat 32 (s b).val) (b : Fin 4096) (u : Fin 1) :
    shapeCast S4096x1 (multiReduction .add [1] S4096 (k0_pay6 (F := Ideal) x2 x4) 0x00000000#32
        reduces_S4096x5_S4096 (.inl rfl) rfl) shapeCasts_S4096_S4096x1 (ix2 b u) = x4 (ix2 0 (s b)) := by
  refine (keepSum_apply (k0_pay6 (F := Ideal) x2 x4) reduces_S4096x5_S4096 (.inl rfl) rfl
    shapeCasts_S4096_S4096x1 b u).trans ?_
  refine Eq.trans (Finset.sum_congr rfl fun k _ => ?_) (sum_mul_onehot (fun k => x4 (ix2 0 k)) (s b))
  exact pay6_apply x2 x4 s hs b k

/-! ## The stored value -/

/-- The column of row terms the kernel sums: `((0 - q²) · class weight) · tissue weight · log-probability`. -/
def kRow (v26 v30 v35 : FVec Ideal S4096x1 .f32) (v43 : FVec Ideal S4096x5 .f32) : FVec Ideal S4096x1 .f32 :=
  mulf (mulf (mulf (subf (broadcast S4096x1 (Scalar.ofBits (F := Ideal) .f32 0x00000000#32)) v30) v35)
    (shapeCast S4096x1 (multiReduction .add [1] S4096 v43 0x00000000#32 reduces_S4096x5_S4096 (.inl rfl) rfl)
      shapeCasts_S4096_S4096x1)) v26

/-- The stored value is the sum of that column over the rows, divided by the word for the number of rows. -/
theorem pay1_apply (v26 v30 v35 : FVec Ideal S4096x1 .f32) (v43 : FVec Ideal S4096x5 .f32) (p q : Fin 1) :
    k0_pay1 (F := Ideal) v26 v30 v35 v43 (ix2 p q)
      = Ideal.div (∑ b : Fin 4096, kRow v26 v30 v35 v43 (ix2 b q)) Cert.Spec.nRows := by
  show Ideal.div (shapeCast S1x1 (multiReduction .add [0] S1 (kRow v26 v30 v35 v43) 0x00000000#32
      reduces_S4096x1_S1 (.inl rfl) rfl) shapeCasts_S1_S1x1 (ix2 p q)) Cert.Spec.nRows = _
  exact congrArg (Ideal.div · Cert.Spec.nRows)
    ((shapeCast_a_1a_apply _ shapeCasts_S1_S1x1 p q).trans
      (colSum_apply (kRow v26 v30 v35 v43) reduces_S4096x1_S1 (.inl rfl) rfl q))

/-- Row `b` of that column, over the kernel's four payloads, is the specification's row term: `0 - a = -a`, and the
    sign moves out of the two products. -/
theorem kRow_apply (x0 : FVec Ideal S4096x10 .f32) (x1 x2 : Vec Ideal S4096x1 .i32) (x3 : FVec Ideal S1x10 .f32)
    (x4 : FVec Ideal S1x5 .f32)
    (t : Fin 4096 → Fin 10) (ht : ∀ b : Fin 4096, x1 (ix2 b 0) = BitVec.ofNat 32 (t b).val)
    (s : Fin 4096 → Fin 5) (hs : ∀ b : Fin 4096, x2 (ix2 b 0) = BitVec.ofNat 32 (s b).val)
    (b : Fin 4096) (u : Fin 1) :
    kRow (k0_pay3 x0 x1) (k0_pay4 x0 x1) (k0_pay5 x1 x3) (k0_pay6 x2 x4) (ix2 b u)
      = Cert.Spec.rowLoss (fun b k => x0 (ix2 b k)) t s (fun k => x3 (ix2 0 k)) (fun k => x4 (ix2 0 k)) b := by
  show (((Ideal.ofBits .f32 0x00000000#32 - k0_pay4 (F := Ideal) x0 x1 (ix2 b u))
        * k0_pay5 (F := Ideal) x1 x3 (ix2 b u))
      * shapeCast S4096x1 (multiReduction .add [1] S4096 (k0_pay6 (F := Ideal) x2 x4) 0x00000000#32
          reduces_S4096x5_S4096 (.inl rfl) rfl) shapeCasts_S4096_S4096x1 (ix2 b u))
    * k0_pay3 (F := Ideal) x0 x1 (ix2 b u) = _
  rw [Ideal.ofBits_zero_f32, pay4_apply x0 x1 t ht b u, pay5_apply x1 x3 t ht b u, tissue_apply x2 x4 s hs b u,
    pay3_apply x0 x1 t ht b u, zero_sub, neg_mul, neg_mul]
  rfl

/-- The stored 1×1 value is the focal loss of the specification. -/
theorem focal_payload (x0 : Vec Ideal S4096x10 .f32) (x1 x2 : Vec Ideal S4096x1 .i32) (x3 : Vec Ideal S1x10 .f32)
    (x4 : Vec Ideal S1x5 .f32)
    (t : Fin 4096 → Fin 10) (ht : ∀ b : Fin 4096, x1 (ix2 b 0) = BitVec.ofNat 32 (t b).val)
    (s : Fin 4096 → Fin 5) (hs : ∀ b : Fin 4096, x2 (ix2 b 0) = BitVec.ofNat 32 (s b).val) (j : S1x1.Idx) :
    k0_pay1 (F := Ideal) (k0_pay3 x0 x1) (k0_pay4 x0 x1) (k0_pay5 x1 x3) (k0_pay6 x2 x4) j
      = Cert.Spec.focal (fun b k => x0 (ix2 b k)) t s (fun k => x3 (ix2 0 k)) (fun k => x4 (ix2 0 k)) := by
  obtain ⟨p, q, rfl⟩ : ∃ p q : Fin 1, j = ix2 p q := ⟨j 0, j 1, eq_ix2 j⟩
  rw [pay1_apply]
  unfold Cert.Spec.focal
  exact congrArg (Ideal.div · Cert.Spec.nRows)
    (Finset.sum_congr rfl fun b _ => kRow_apply x0 x1 x2 x3 x4 t ht s hs b q)

end Cert.KernelIdeal.FocalValue

end
-- ==== Proof.KernelFocal.lean ====
import proofs.«419550_j77738908057987_3_alg».proof.Proof.HostFold
import proofs.«419550_j77738908057987_3_alg».proof.Proof.Region0
import proofs.«419550_j77738908057987_3_alg».proof.Proof.FocalValue
import proofs.«419550_j77738908057987_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
# The loss the kernel program returns is the specification's

The loss is the focal kernel's 1×1 output array read as a scalar; that array is the kernel's stored payload of its
five operand arrays; those are the scores as launched and the classes, tissues and weight tables reshaped to
columns and rows. A vector reshaped to a column or a row reads the vector's entry. So where the classes and tissues
are in range the loss is the specification's focal loss of the launch arrays.
-/

set_option maxRecDepth 16384

open scoped BigOperators

noncomputable section

namespace Cert.KernelIdeal.KernelFocal

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- A 1×1 array read as a scalar is the array at one of its indices. -/
theorem scalar_apply {α : Type} (x : S1x1.Idx → α) (i : S_.Idx) :
    shapeCast S_ x shapeCasts_S1x1_S_ i = x (Shape.reshapeEquiv shapeCasts_S1x1_S_ i) := rfl

/-- The loss at the end of the run. -/
theorem loss_eq (c : Dev nD) (t : Fin 4096 → Fin 10) (s : Fin 4096 → Fin 5)
    (ht : ∀ b : Fin 4096, m ((c : Thread nD τ).loc main_arg1) (ix1 b) = BitVec.ofNat 32 (t b).val)
    (hs : ∀ b : Fin 4096, m ((c : Thread nD τ).loc main_arg5) (ix1 b) = BitVec.ofNat 32 (s b).val) :
    (W10 (F := Ideal) m ρ c (Proc.devRef .tc main_v5) : FVec Ideal S_ .f32)
      = fun _ => Cert.Spec.focal (fun b k => m ((c : Thread nD τ).loc main_arg0) (ix2 b k)) t s
          (fun k => m ((c : Thread nD τ).loc main_arg6) (ix1 k)) (fun k => m ((c : Thread nD τ).loc main_arg7) (ix1 k)) := by
  -- the five operand arrays as the focal kernel is entered
  have h0 : Region0.arr0 (V1 m ρ) c = m ((c : Thread nD τ).loc main_arg0) := by
    show W1 m ρ c (Proc.devRef .tc main_arg0) = _
    rw [HostFold.arg0_at_entry0, HostFold.W0_eq]
  have h1 : Region0.arr1 (V1 m ρ) c
      = shapeCast S4096x1 (m ((c : Thread nD τ).loc main_arg1)) shapeCasts_S4096_S4096x1 := by
    show W1 m ρ c (Proc.devRef .tc main_v0) = _
    exact HostFold.v0_at_entry0 m ρ c
  have h2 : Region0.arr2 (V1 m ρ) c
      = shapeCast S4096x1 (m ((c : Thread nD τ).loc main_arg5)) shapeCasts_S4096_S4096x1 := by
    show W1 m ρ c (Proc.devRef .tc main_v1) = _
    exact HostFold.v1_at_entry0 m ρ c
  have h3 : Region0.arr3 (V1 m ρ) c
      = shapeCast S1x10 (m ((c : Thread nD τ).loc main_arg6)) shapeCasts_S10_S1x10 := by
    show W1 m ρ c (Proc.devRef .tc main_v2) = _
    exact HostFold.v2_at_entry0 m ρ c
  have h4 : Region0.arr4 (V1 m ρ) c
      = shapeCast S1x5 (m ((c : Thread nD τ).loc main_arg7)) shapeCasts_S5_S1x5 := by
    show W1 m ρ c (Proc.devRef .tc main_v3) = _
    exact HostFold.v3_at_entry0 m ρ c
  -- a vector reshaped to a column reads the vector's entry, so the columns hold the classes and the tissues
  have ht' : ∀ b : Fin 4096,
      shapeCast S4096x1 (m ((c : Thread nD τ).loc main_arg1)) shapeCasts_S4096_S4096x1 (ix2 b 0)
        = BitVec.ofNat 32 (t b).val :=
    fun b => (FocalValue.shapeCast_a_a1_apply _ shapeCasts_S4096_S4096x1 b 0).trans (ht b)
  have hs' : ∀ b : Fin 4096,
      shapeCast S4096x1 (m ((c : Thread nD τ).loc main_arg5)) shapeCasts_S4096_S4096x1 (ix2 b 0)
        = BitVec.ofNat 32 (s b).val :=
    fun b => (FocalValue.shapeCast_a_a1_apply _ shapeCasts_S4096_S4096x1 b 0).trans (hs b)
  -- a vector reshaped to a row reads the vector's entry, so the rows hold the two weight tables
  have e3 : (fun k : Fin 10 => shapeCast S1x10 (m ((c : Thread nD τ).loc main_arg6)) shapeCasts_S10_S1x10 (ix2 0 k))
      = fun k => m ((c : Thread nD τ).loc main_arg6) (ix1 k) :=
    funext fun k => shapeCast_a_1a_apply _ shapeCasts_S10_S1x10 0 k
  have e4 : (fun k : Fin 5 => shapeCast S1x5 (m ((c : Thread nD τ).loc main_arg7)) shapeCasts_S5_S1x5 (ix2 0 k))
      = fun k => m ((c : Thread nD τ).loc main_arg7) (ix1 k) :=
    funext fun k => shapeCast_a_1a_apply _ shapeCasts_S5_S1x5 0 k
  rw [HostFold.res_loss, Region0.arrAt_eq (V1 m ρ) c, h0, h1, h2, h3, h4]
  funext i
  refine (scalar_apply _ i).trans ?_
  refine (FocalValue.focal_payload _ _ _ _ _ t ht' s hs' _).trans ?_
  rw [e3, e4]

end Cert.KernelIdeal.KernelFocal

end
-- ==== Proof.Region1.lean ====
import proofs.«419550_j77738908057987_3_alg».proof.Proof.Gen.KernelIdeal.Frame
import Idealize.ShloMosaic.Lib.Pipeline.Value
import Idealize.ShloMosaic.Lib.ValueIdx
import Idealize.ShloMosaic.Lib.Tactic

/-!
# What the pairwise kernel leaves in its output array

The kernel runs on a grid of 2 × 125 points; point `t` belongs to core `t / 125` and works on the 6400 edges from
`6400 * t` on. Every point of a core writes the same 1×1×1 block of the 2×1×1 output, block `t / 125`: the core's
first point stores zero and then its own contribution over that, every later point adds its contribution to what
the block held. The block is written back to the array after the core's last point, so entry `p` of the array is
what the block holds after point `125 * p + 124`.
-/

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The three operand blocks of point `t`, at their literal types. -/
abbrev blkA (c : Dev nD) (t : Fin cfg1.N) : Vec F S6400x32 .f32 := iblk1 V c 0 t
abbrev blkB (c : Dev nD) (t : Fin cfg1.N) : Vec F S6400x32 .f32 := iblk1 V c 1 t
abbrev blkD (c : Dev nD) (t : Fin cfg1.N) : Vec F S6400x1 .f32 := iblk1 V c 2 t

/-- The three operand arrays as the kernel finds them, at their literal types. -/
abbrev arrA (c : Dev nD) : Vec F S1600000x32 .f32 := V c main_v12
abbrev arrB (c : Dev nD) : Vec F S1600000x32 .f32 := V c main_v13
abbrev arrD (c : Dev nD) : Vec F S1600000x1 .f32 := V c main_v19

/-- The zero offsets of a rank-3 and of a rank-2 unit rectangle, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A point that does not reset: the body loads the three operand blocks and the output block whole and stores
    their payload over the whole output block, so that one covering store is what the block holds. -/
theorem out_B (c : Dev nD) (i : grid1.Coords)
    (a2 : Memref sig .tc .vmem S6400x32 .f32) (h2 : a2.IsWhole) (a3 : Memref sig .tc .vmem S6400x32 .f32) (h3 : a3.IsWhole)
    (a4 : Memref sig .tc .vmem S6400x1 .f32) (h4 : a4.IsWhole) (a5 : Memref sig .tc .vmem S1x1x1 .f32) (h5 : a5.IsWhole)
    (hc : ¬cond1_0 i) (x0 x1 : Vec F S6400x32 .f32) (x2 : Vec F S6400x1 .f32) (xo : Vec F S1x1x1 .f32) :
    out1_B_3 c i a2 h2 a3 h3 a4 h4 a5 h5 hc x0 x1 x2 xo = k1_pay2 x0 x1 x2 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S6400x32) hz2, View.ld_unit_zero (S := S6400x1) hz2, View.ld_unit_zero (S := S1x1x1) hz3]

/-- A point that resets: the body stores the zero block over the whole output block, reads it back, and stores the
    payload over it; the later store covers, and what it read of the output block is the zero block. -/
theorem out_A (c : Dev nD) (i : grid1.Coords)
    (a2 : Memref sig .tc .vmem S6400x32 .f32) (h2 : a2.IsWhole) (a3 : Memref sig .tc .vmem S6400x32 .f32) (h3 : a3.IsWhole)
    (a4 : Memref sig .tc .vmem S6400x1 .f32) (h4 : a4.IsWhole) (a5 : Memref sig .tc .vmem S1x1x1 .f32) (h5 : a5.IsWhole)
    (hc : cond1_0 i) (x0 x1 : Vec F S6400x32 .f32) (x2 : Vec F S6400x1 .f32) :
    out1_A_3 c i a2 h2 a3 h3 a4 h4 a5 h5 hc x0 x1 x2 = k1_pay2 x0 x1 x2 k1_pay1 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S6400x32) hz2, View.ld_unit_zero (S := S6400x1) hz2]

/-- The block index of each operand window at point `t` is row block `t`, column block 0; the output window's is
    the core `t / 125` — decided over the grid. -/
theorem index_A : ∀ t : Fin cfg1.N, win1_0.index t 0 = t.val ∧ win1_0.index t 1 = 0 :=
  (by decide +kernel : ∀ t : Fin grid1.N, win1_0.index t 0 = t.val ∧ win1_0.index t 1 = 0)
theorem index_B : ∀ t : Fin cfg1.N, win1_1.index t 0 = t.val ∧ win1_1.index t 1 = 0 :=
  (by decide +kernel : ∀ t : Fin grid1.N, win1_1.index t 0 = t.val ∧ win1_1.index t 1 = 0)
theorem index_D : ∀ t : Fin cfg1.N, win1_2.index t 0 = t.val ∧ win1_2.index t 1 = 0 :=
  (by decide +kernel : ∀ t : Fin grid1.N, win1_2.index t 0 = t.val ∧ win1_2.index t 1 = 0)
theorem index_O : ∀ t : Fin cfg1.N, win1_3.index t 0 = t.val / 125 ∧ win1_3.index t 1 = 0 ∧ win1_3.index t 2 = 0 :=
  (by decide +kernel : ∀ t : Fin grid1.N, win1_3.index t 0 = t.val / 125 ∧ win1_3.index t 1 = 0 ∧ win1_3.index t 2 = 0)

/-- What the output block holds after point `n`: the stored payloads, by recursion on the point. -/
def accAt (c : Dev nD) : (n : ℕ) → n < cfg1.N → Vec F S1x1x1 .f32
  | 0, h => k1_pay2 (blkA V c ⟨0, h⟩) (blkB V c ⟨0, h⟩) (blkD V c ⟨0, h⟩) k1_pay1
  | n + 1, h =>
    if (n + 1) % 125 = 0 then k1_pay2 (blkA V c ⟨n + 1, h⟩) (blkB V c ⟨n + 1, h⟩) (blkD V c ⟨n + 1, h⟩) k1_pay1
    else k1_pay2 (blkA V c ⟨n + 1, h⟩) (blkB V c ⟨n + 1, h⟩) (blkD V c ⟨n + 1, h⟩) (accAt c n (Nat.lt_of_succ_lt h))

/-- The run's own account of the block after each point is that recursion. -/
theorem outsAt1_eq (c : Dev nD) : ∀ (n : ℕ) (h : n < cfg1.N), outsAt1 V c n h = accAt V c n h
  | 0, h =>
    (outsAt1_A V c ⟨0, h⟩ (Nat.zero_mod _)).trans
      (out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr (Nat.zero_mod _)) (iblk1 V c 0 ⟨0, h⟩) (iblk1 V c 1 ⟨0, h⟩) (iblk1 V c 2 ⟨0, h⟩))
  | n + 1, h => by
    by_cases h0 : (n + 1) % 125 = 0
    · refine (outsAt1_A V c ⟨n + 1, h⟩ h0).trans ?_
      refine (out_A c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) ((hcond1_0 ⟨n + 1, h⟩).mpr h0) (iblk1 V c 0 ⟨n + 1, h⟩) (iblk1 V c 1 ⟨n + 1, h⟩) (iblk1 V c 2 ⟨n + 1, h⟩)).trans ?_
      rw [accAt, if_pos h0]
    · refine (outsAt1_B V c ⟨n + 1, h⟩ h0).trans ?_
      refine (out_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩) (outsAt1 V c n (Nat.lt_of_succ_lt h))).trans ?_
      rw [accAt, if_neg h0]
      exact congrArg (k1_pay2 (blkA V c ⟨n + 1, h⟩) (blkB V c ⟨n + 1, h⟩) (blkD V c ⟨n + 1, h⟩)) (outsAt1_eq c n (Nat.lt_of_succ_lt h))

theorem last_lt (p : Fin 2) : 125 * p.val + 124 < cfg1.N := by
  have hN : cfg1.N = 250 := N_1
  have := p.isLt
  omega

/-- The one-element block has one index. -/
theorem idx_unit_eq (i i' : S1x1x1.Idx) : i = i' := by
  funext a
  apply Fin.ext
  match a with
  | ⟨0, _⟩ =>
    have h1 : (i 0).val < 1 := (i 0).isLt
    have h2 : (i' 0).val < 1 := (i' 0).isLt
    show (i 0).val = (i' 0).val
    omega
  | ⟨1, _⟩ =>
    have h1 : (i 1).val < 1 := (i 1).isLt
    have h2 : (i' 1).val < 1 := (i' 1).isLt
    show (i 1).val = (i' 1).val
    omega
  | ⟨2, _⟩ =>
    have h1 : (i 2).val < 1 := (i 2).isLt
    have h2 : (i' 2).val < 1 := (i' 2).isLt
    show (i 2).val = (i' 2).val
    omega

/-- The recursion read at two equal points, at any two indices of the one-element block. -/
theorem accAt_congr (c : Dev nD) {n n' : ℕ} (e : n = n') (h : n < cfg1.N) (h' : n' < cfg1.N) (i i' : S1x1x1.Idx) :
    accAt V c n h i = accAt V c n' h' i' := by
  subst e
  rw [idx_unit_eq i i']

/-- The output array after the run, entry by entry: entry `p` is what the block held after point `125 * p + 124`. -/
def finalArr (c : Dev nD) : Vec F S2x1x1 .f32 :=
  fun i => accAt V c (125 * (i 0).val + 124) (last_lt (i 0)) (ix3 0 0 0)

/-- A point that writes the block back is the last of its core, `125 * (t / 125) + 124`, and what it writes is
    entry `t / 125` of that array: the block at `t` is the array's block `t / 125`. -/
theorem flushed_eq (c : Dev nD) (t : Fin cfg1.N) (hf : (cfg1.win 3).flush t = true) :
    (dat1 V c).flushed 3 t = ((cfg1.win 3).blk t).view.read (Elt F) (finalArr V c) := by
  have hN : cfg1.N = 250 := N_1
  have h124 : t.val % 125 = 124 := (flush1_3 t).mp hf
  show (cfg1.win 3).cut (grid1.coords t) ((dat1 V c).after 3 t) = _
  rw [after1_3, outsAt1_eq]
  funext j
  rw [View.read_apply]
  have hj : (j 0).val < 1 := (j 0).isLt
  have e0 : ((((cfg1.win 3).blk t).view.emb j) 0).val = t.val / 125 := by
    show win1_3.index t 0 * 1 + 1 * (j 0).val = t.val / 125
    rw [(index_O t).1]; omega
  show accAt V c t.val t.isLt _
      = accAt V c (125 * ((((cfg1.win 3).blk t).view.emb j) 0).val + 124) (last_lt ((((cfg1.win 3).blk t).view.emb j) 0)) (ix3 0 0 0)
  exact accAt_congr V c (by rw [e0]; omega) _ _ _ _

/-- The last points of the two cores write back the two blocks of the array, which are all of it: so the array
    after the run is that array. -/
theorem arr_eq (c : Dev nD) : (dat1 V c).arrAt 3 cfg1.N = finalArr V c :=
  (dat1 V c).arrAt_eq_of_cover 3 (finalArr V c) (flushed_eq V c) fun i => by
    have hi0 : (i 0).val < 2 := (i 0).isLt
    have hi1 : (i 1).val < 1 := (i 1).isLt
    have hi2 : (i 2).val < 1 := (i 2).isLt
    refine ⟨⟨125 * (i 0).val + 124, last_lt ⟨(i 0).val, hi0⟩⟩, (flush1_3 _).mpr (by dsimp only; omega), ?_⟩
    show i ∈ ((View.whole main_v20).slice (win1_3.rect ⟨125 * (i 0).val + 124, last_lt ⟨(i 0).val, hi0⟩⟩)).set
    rw [View.set_slice_whole, Rect.mem_set_unit]
    intro a
    match a with
    | ⟨0, _⟩ =>
      show win1_3.index ⟨125 * (i 0).val + 124, last_lt ⟨(i 0).val, hi0⟩⟩ 0 * 1 ≤ (i 0).val
        ∧ (i 0).val < win1_3.index ⟨125 * (i 0).val + 124, last_lt ⟨(i 0).val, hi0⟩⟩ 0 * 1 + 1
      rw [(index_O _).1]; dsimp only; omega
    | ⟨1, _⟩ =>
      show win1_3.index ⟨125 * (i 0).val + 124, last_lt ⟨(i 0).val, hi0⟩⟩ 1 * 1 ≤ (i 1).val
        ∧ (i 1).val < win1_3.index ⟨125 * (i 0).val + 124, last_lt ⟨(i 0).val, hi0⟩⟩ 1 * 1 + 1
      rw [(index_O _).2.1]; omega
    | ⟨2, _⟩ =>
      show win1_3.index ⟨125 * (i 0).val + 124, last_lt ⟨(i 0).val, hi0⟩⟩ 2 * 1 ≤ (i 2).val
        ∧ (i 2).val < win1_3.index ⟨125 * (i 0).val + 124, last_lt ⟨(i 0).val, hi0⟩⟩ 2 * 1 + 1
      rw [(index_O _).2.2]; omega

/-- Entry `p` of the output array after the run is what the block held after core `p`'s last point. -/
theorem arrAt_eq (c : Dev nD) (p : Fin 2) :
    ((dat1 V c).arrAt 3 cfg1.N : Vec F S2x1x1 .f32) (ix3 p 0 0)
      = accAt V c (125 * p.val + 124) (last_lt p) (ix3 0 0 0) :=
  congrFun (arr_eq V c) (ix3 p 0 0)

theorem edge_lt (t : Fin cfg1.N) (r : Fin 6400) : 6400 * t.val + r.val < 1600000 := by
  have hN : cfg1.N = 250 := N_1
  have := t.isLt
  have := r.isLt
  omega

/-- Row `r` of point `t`'s block of the first operand is row `6400 * t + r` of the array. -/
theorem blkA_apply (c : Dev nD) (t : Fin cfg1.N) (r : Fin 6400) (k : Fin 32) :
    blkA V c t (ix2 r k) = arrA V c (ix2 ⟨6400 * t.val + r.val, edge_lt t r⟩ k) := by
  unfold blkA iblk1
  rw [View.read_apply]
  show V c main_v12 (((cfg1.win 0).blk t).view.emb (ix2 r k)) = V c main_v12 (ix2 ⟨6400 * t.val + r.val, edge_lt t r⟩ k)
  congr 1
  funext a
  apply Fin.ext
  match a with
  | ⟨0, _⟩ =>
    show win1_0.index t 0 * 6400 + 1 * r.val = 6400 * t.val + r.val
    rw [(index_A t).1]; omega
  | ⟨1, _⟩ =>
    show win1_0.index t 1 * 32 + 1 * (k).val = (k).val
    rw [(index_A t).2]; omega

theorem blkB_apply (c : Dev nD) (t : Fin cfg1.N) (r : Fin 6400) (k : Fin 32) :
    blkB V c t (ix2 r k) = arrB V c (ix2 ⟨6400 * t.val + r.val, edge_lt t r⟩ k) := by
  unfold blkB iblk1
  rw [View.read_apply]
  show V c main_v13 (((cfg1.win 1).blk t).view.emb (ix2 r k)) = V c main_v13 (ix2 ⟨6400 * t.val + r.val, edge_lt t r⟩ k)
  congr 1
  funext a
  apply Fin.ext
  match a with
  | ⟨0, _⟩ =>
    show win1_1.index t 0 * 6400 + 1 * r.val = 6400 * t.val + r.val
    rw [(index_B t).1]; omega
  | ⟨1, _⟩ =>
    show win1_1.index t 1 * 32 + 1 * (k).val = (k).val
    rw [(index_B t).2]; omega

theorem blkD_apply (c : Dev nD) (t : Fin cfg1.N) (r : Fin 6400) :
    blkD V c t (ix2 r 0) = arrD V c (ix2 ⟨6400 * t.val + r.val, edge_lt t r⟩ 0) := by
  unfold blkD iblk1
  rw [View.read_apply]
  show V c main_v19 (((cfg1.win 2).blk t).view.emb (ix2 r 0)) = V c main_v19 (ix2 ⟨6400 * t.val + r.val, edge_lt t r⟩ 0)
  congr 1
  funext a
  apply Fin.ext
  match a with
  | ⟨0, _⟩ =>
    show win1_2.index t 0 * 6400 + 1 * r.val = 6400 * t.val + r.val
    rw [(index_D t).1]; omega
  | ⟨1, _⟩ =>
    show win1_2.index t 1 * 1 + 1 * ((0 : Fin 1)).val = ((0 : Fin 1)).val
    rw [(index_D t).2]; omega

end Cert.KernelIdeal.Region1

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.SpatialValue.lean ====
import proofs.«419550_j77738908057987_3_alg».proof.Proof.Gen.KernelIdeal.Skeleton
import proofs.«419550_j77738908057987_3_alg».proof.Proof.HostTerms
import proofs.«419550_j77738908057987_3_alg».proof.Proof.Spec
import proofs.«419550_j77738908057987_3_alg».proof.Proof.LibScatterRows
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.PureOps.Ideal.Laws

/-!
# The pairwise kernel's stored values and its operands, at Ideal

One grid point adds, to what its 1×1×1 output block held, the sum over its 6400 edges of the overlap of the two
feature rows times the squared distance; the first point of a core first stores zero. The operands are host
terms: where an endpoint's number is in range, a take reads that row, the cut-off is a maximum with zero, and the
distance column is the sum over the two coordinates of the squared difference.
-/

open scoped BigOperators

noncomputable section

namespace Cert.KernelIdeal.SpatialValue

open Cert.KernelIdeal Cert.KernelIdeal.Gen Cert.KernelIdeal.HostTerms Idealize.ShloMosaic Idealize.ShloMosaic.ValueIdx

/-- The value the first point of a core stores first: zero. -/
theorem zero_payload (j : S1x1x1.Idx) : k1_pay1 (F := Ideal) j = 0 := by
  show Ideal.ofBits .f32 0x00000000#32 = 0
  exact Ideal.ofBits_zero_f32

/-- The row sum's inserted index: row `r` of the one-column block. -/
theorem lift_row (j : S1.Idx) (r : Fin 6400) : reduces_S6400x1_S1.lift j r = ix2 r (0 : Fin 1) := by
  funext c
  match c with
  | ⟨0, _⟩ => exact Fin.ext rfl
  | ⟨1, _⟩ =>
    apply Fin.ext
    show (j 0).val = 0
    have : (j 0).val < 1 := (j 0).isLt
    omega

/-- The lane sum's inserted index: lane `k` of row `r`. -/
theorem lift_lane (r : Fin 6400) (k : Fin 32) : reduces_S6400x32_S6400.lift (ix1 r) k = ix2 r k := by
  funext c
  match c with
  | ⟨0, _⟩ => exact Fin.ext rfl
  | ⟨1, _⟩ => exact Fin.ext rfl

/-- What a point stores: the block's previous value plus the point's 6400 edges' contributions. -/
theorem acc_payload (a b : Vec Ideal S6400x32 .f32) (d : Vec Ideal S6400x1 .f32) (acc : Vec Ideal S1x1x1 .f32)
    (j : S1x1x1.Idx) :
    k1_pay2 (F := Ideal) a b d acc j
      = acc j + ∑ r : Fin 6400, (∑ k : Fin 32, a (ix2 r k) * b (ix2 r k)) * d (ix2 r 0) := by
  unfold k1_pay2
  dsimp only
  simp only [shapeCast_self]
  rw [addf_apply]
  congr 1
  have h0 : (j 0).val < 1 := (j 0).isLt
  have h1 : (j 1).val < 1 := (j 1).isLt
  have h2 : (j 2).val < 1 := (j 2).isLt
  refine (shapeCast_apply _ shapeCasts_S1x1_S1x1x1 j (ix2 (0 : Fin 1) (0 : Fin 1)) (by
    rw [Shape.rowMajor_val_three, Shape.rowMajor_val_two]
    show 0 * 1 + 0 = ((j 0).val * 1 + (j 1).val) * 1 + (j 2).val
    omega)).trans ?_
  refine (shapeCast_apply _ shapeCasts_S1_S1x1 _ (ix1 (0 : Fin 1)) (by
    rw [Shape.rowMajor_val_two, Shape.rowMajor_val_one]; rfl)).trans ?_
  refine (Ideal.multiReduction_add_single _ _ reduces_S6400x1_S1 _ _ _).trans ?_
  refine Finset.sum_congr rfl fun (r : Fin 6400) _ => ?_
  rw [lift_row, mulf_apply]
  congr 1
  refine (shapeCast_apply _ shapeCasts_S6400_S6400x1 _ (ix1 r) (by
    rw [Shape.rowMajor_val_two, Shape.rowMajor_val_one]; show r.val = r.val * 1 + 0; omega)).trans ?_
  refine (Ideal.multiReduction_add_single _ _ reduces_S6400x32_S6400 _ _ _).trans ?_
  refine Finset.sum_congr rfl fun (k : Fin 32) _ => ?_
  rw [lift_lane, mulf_apply]

theorem srcOf_apply (ed : IVec S2x1600000 32) (e : Fin 1600000) : srcOf ed (ix1 e) = ed (ix2 0 e) := by
  unfold srcOf
  refine (shapeCast_apply _ _ (ix1 e) (ix2 (0 : Fin 1) e) (by
    rw [Shape.rowMajor_val_two, Shape.rowMajor_val_one]; show 0 * 1600000 + e.val = e.val; omega)).trans ?_
  exact extractStridedSlice_apply _ _ _ _ (ix2 0 e) (fun a => match a with | ⟨0, _⟩ => rfl | ⟨1, _⟩ => by show e.val = 0 + e.val; omega)

theorem dstOf_apply (ed : IVec S2x1600000 32) (e : Fin 1600000) : dstOf ed (ix1 e) = ed (ix2 1 e) := by
  unfold dstOf
  refine (shapeCast_apply _ _ (ix1 e) (ix2 (0 : Fin 1) e) (by
    rw [Shape.rowMajor_val_two, Shape.rowMajor_val_one]; show 0 * 1600000 + e.val = e.val; omega)).trans ?_
  exact extractStridedSlice_apply _ _ _ _ (ix2 1 e) (fun a => match a with | ⟨0, _⟩ => rfl | ⟨1, _⟩ => by show e.val = 0 + e.val; omega)

theorem cutoff_apply (x : FVec Ideal S50000x32 .f32) (i : Fin 50000) (k : Fin 32) :
    cutoff x (ix2 i k) = max (x (ix2 i k)) 0 := by
  unfold cutoff
  rw [maximumf_apply]
  show max (x (ix2 i k)) (Ideal.ofBits .f32 0x00000000#32) = _
  rw [Ideal.ofBits_zero_f32]

open Idealize.ShloMosaic.StableHlo.Predicate in
/-- A small non-negative word is not below zero. -/
theorem slt_zero_of_small (n : Nat) (hn : n < 2 ^ 31) : IntOp.cmpi .slt (BitVec.ofNat 32 n) 0#32 = 0#1 := by
  apply eq_zero_of_ne_one
  intro hc
  have := (slt_iff_toNat (a := BitVec.ofNat 32 n) (b := 0#32) (by simp [BitVec.toNat_ofNat]; omega) (by decide)).mp hc
  simp at this

/-- Where the row number is in range already, the take's row number is the number itself. -/
theorem normIdx_apply (idx : IVec S1600000 32) (e : Fin 1600000) (i : Fin 50000)
    (h : idx (ix1 e) = BitVec.ofNat 32 i.val) : normIdx idx (ix2 e (0 : Fin 1)) = BitVec.ofNat 32 i.val := by
  unfold normIdx
  refine (broadcastInDim_apply _ _ _ _ (ix1 e) (fun a => match a with | ⟨0, _⟩ => rfl)).trans ?_
  rw [select_apply]
  show Scalar.select (IntOp.cmpi .slt (idx (ix1 e)) 0#32) _ (idx (ix1 e)) = _
  rw [h, slt_zero_of_small _ (by have := i.isLt; omega), select_zero]

/-- A small word reads as its number. -/
theorem toNat_small (n : Nat) (hn : n < 2 ^ 31) : (BitVec.ofNat 32 n).toNat = n := by
  rw [BitVec.toNat_ofNat]; exact Nat.mod_eq_of_lt (by omega)

open Idealize.ShloMosaic.StableHlo.Predicate in
/-- A small word is at least zero. -/
theorem sge_zero_of_small (n : Nat) (hn : n < 2 ^ 31) : IntOp.cmpi .sge (BitVec.ofNat 32 n) 0#32 = 1#1 :=
  (sge_iff_toNat (by rw [toNat_small n hn]; exact hn) (by decide)).mpr (by simp)

open Idealize.ShloMosaic.StableHlo.Predicate in
/-- A word for a number up to 49999 is at most the word for 49999. -/
theorem sle_of_le (n : Nat) (hn : n ≤ 49999) : IntOp.cmpi .sle (BitVec.ofNat 32 n) 49999#32 = 1#1 :=
  (sle_iff_toNat (by rw [toNat_small n (by omega)]; omega) (by decide)).mpr (by
    rw [toNat_small n (by omega)]; show n ≤ 49999; exact hn)

/-- A fold over the one-element range is one step from the start. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- A row number in range passes the range test. -/
theorem inRange_apply (col : IVec S1600000x1 32) (e : Fin 1600000) (i : Fin 50000)
    (h : col (ix2 e (0 : Fin 1)) = BitVec.ofNat 32 i.val) : inRange col (ix1 e) = 1#1 := by
  unfold inRange
  have hr : S1600000x1.Reduces [1] S1600000 := by decide
  rw [Host.reduce_eq_fold_single IntOp.andi _ _ _ hr]
  refine (fold_fin_one IntOp.andi _ _).trans ?_
  have hl : hr.lift (ix1 e) (0 : Fin 1) = ix2 e (0 : Fin 1) := by
    funext c
    match c with
    | ⟨0, _⟩ => exact Fin.ext rfl
    | ⟨1, _⟩ => exact Fin.ext rfl
  show IntOp.andi (IntOp.andi (IntOp.cmpi .sge (col (hr.lift (ix1 e) (0 : Fin 1))) 0#32)
    (IntOp.cmpi .sle (col (hr.lift (ix1 e) (0 : Fin 1))) 49999#32)) 1#1 = 1#1
  have hi := i.isLt
  rw [hl, h, sge_zero_of_small _ (by omega), sle_of_le _ (by omega)]
  rfl

/-- Row `p` of a column, written either way. -/
theorem ixP_eq {n : Nat} (p : Fin n) : StableHlo.Predicate.ixP p = ix2 p (0 : Fin 1) := by
  funext c
  match c with
  | ⟨0, _⟩ => rfl
  | ⟨1, _⟩ => rfl

/-- A row gather along the take's row numbers, at an edge whose number is in range, reads that row. -/
theorem gather_norm {D : Nat} (d : GatherDims ⟨2, ![50000, D]⟩ ⟨2, ![1600000, 1]⟩ ⟨2, ![1600000, D]⟩)
    (hoff : d.offsetDims = [1]) (hcoll : d.collapsedSliceDims = [0]) (hob : d.operandBatchingDims = [])
    (hsim : d.startIndexMap = [0]) (hivd : d.indexVectorDim = 1) (hss : d.sliceSizes = ![1, D])
    {α : Type} (x : (⟨2, ![50000, D]⟩ : Shape).Idx → α) (idx : IVec S1600000 32) (e : Fin 1600000) (i : Fin 50000)
    (h : idx (ix1 e) = BitVec.ofNat 32 i.val) (q : Fin D) :
    Host.gather d x (normIdx idx) (ix2 e q) = x (ix2 i q) := by
  rw [Cert.ScatterRows.gather_rows d hoff hcoll hob hsim hivd hss x (normIdx idx) e q (by norm_num)]
  have hi := i.isLt
  have hv : (normIdx idx (StableHlo.Predicate.ixP e)).toInt.toNat = i.val := by
    rw [ixP_eq, normIdx_apply idx e i h, StableHlo.Predicate.toInt_ofNat_small _ (by omega)]
    rfl
  congr 1
  funext c
  match c with
  | ⟨0, _⟩ =>
    apply Fin.ext
    show min (normIdx idx (StableHlo.Predicate.ixP e)).toInt.toNat (50000 - 1) = i.val
    rw [hv]; omega
  | ⟨1, _⟩ => rfl

/-- A take at an in-range row number reads that row. -/
theorem take32_apply (x : FVec Ideal S50000x32 .f32) (idx : IVec S1600000 32) (e : Fin 1600000) (i : Fin 50000)
    (h : idx (ix1 e) = BitVec.ofNat 32 i.val) (k : Fin 32) : take32 x idx (ix2 e k) = x (ix2 i k) := by
  unfold take32
  rw [select_apply]
  have hc : broadcastInDim S1600000x32 ![0] bcast_S1600000_S1600000x32_0 (inRange (normIdx idx)) (ix2 e k) = 1#1 := by
    refine (broadcastInDim_apply _ _ _ _ (ix1 e) (fun a => match a with | ⟨0, _⟩ => rfl)).trans ?_
    exact inRange_apply _ e i (normIdx_apply idx e i h)
  rw [hc, select_one]
  exact gather_norm _ rfl rfl rfl rfl rfl rfl x idx e i h k

theorem take2_apply (x : FVec Ideal S50000x2 .f32) (idx : IVec S1600000 32) (e : Fin 1600000) (i : Fin 50000)
    (h : idx (ix1 e) = BitVec.ofNat 32 i.val) (a : Fin 2) : take2 x idx (ix2 e a) = x (ix2 i a) := by
  unfold take2
  rw [select_apply]
  have hc : broadcastInDim S1600000x2 ![0] bcast_S1600000_S1600000x2_0 (inRange (normIdx idx)) (ix2 e a) = 1#1 := by
    refine (broadcastInDim_apply _ _ _ _ (ix1 e) (fun a => match a with | ⟨0, _⟩ => rfl)).trans ?_
    exact inRange_apply _ e i (normIdx_apply idx e i h)
  rw [hc, select_one]
  exact gather_norm _ rfl rfl rfl rfl rfl rfl x idx e i h a

/-- The distance column at an edge whose endpoints are in range. -/
theorem dist_apply (ps : FVec Ideal S50000x2 .f32) (ed : IVec S2x1600000 32) (e : Fin 1600000) (i j : Fin 50000)
    (hi : ed (ix2 0 e) = BitVec.ofNat 32 i.val) (hj : ed (ix2 1 e) = BitVec.ofNat 32 j.val) :
    dist ps ed (ix2 e 0) = Cert.Spec.dist2 (fun n a => ps (ix2 n a)) i j := by
  unfold HostTerms.dist
  refine (shapeCast_apply _ _ (ix2 e (0 : Fin 1)) (ix1 e) (by
    rw [Shape.rowMajor_val_two, Shape.rowMajor_val_one]; show e.val = e.val * 1 + 0; omega)).trans ?_
  rw [hostReduceAdd_apply]
  have hr : S1600000x2.Reduces [1] S1600000 := by decide
  rw [Ideal.hostReduceAdd_single _ hr]
  show Ideal.ofBits .f32 0x00000000#32 + _ = _
  rw [Ideal.ofBits_zero_f32, zero_add]
  unfold Cert.Spec.dist2
  refine Finset.sum_congr rfl fun (a : Fin 2) _ => ?_
  have hl : hr.lift (ix1 e) a = ix2 e a := by
    funext c
    match c with
    | ⟨0, _⟩ => exact Fin.ext rfl
    | ⟨1, _⟩ => exact Fin.ext rfl
  have hs : srcOf ed (ix1 e) = BitVec.ofNat 32 i.val := by rw [srcOf_apply]; exact hi
  have hd : dstOf ed (ix1 e) = BitVec.ofNat 32 j.val := by rw [dstOf_apply]; exact hj
  rw [hl, mulf_apply, subf_apply, take2_apply ps (srcOf ed) e i hs a, take2_apply ps (dstOf ed) e j hd a]

end Cert.KernelIdeal.SpatialValue

end
-- ==== Proof.LibMoments.lean ====
import Mathlib.Data.EReal.Inv
import Mathlib.Data.Fintype.BigOperators
import Mathlib.Algebra.BigOperators.Fin
import Mathlib.Algebra.Order.BigOperators.Group.Finset
import Mathlib.Logic.Equiv.Fin.Basic
import Mathlib.Tactic.FieldSimp
import Mathlib.Tactic.Ring
import Mathlib.Tactic.Positivity
import Idealize.ShloMosaic.PureOps.Ideal

/-!
# Batch-norm moments on the extended reals

A batch normalisation needs the mean and the (biased) variance of a finite family
of numbers. One program computes the variance as E[f²] − E[f]², multiplying the two
sums by the reciprocal 1/n; the other computes it as E[(f − E f)²], dividing by n.
On the extended reals the two agree only where nothing is infinite (at an infinity
one side meets ∞ − ∞), so the identity is proved for finite families: real witnesses
are chosen, the coercion ℝ → EReal is pushed outwards through products, differences
and finite sums, and the statement is closed in ℝ.

Also here: the variance is a finite real ≥ 0, so adding a positive ε and taking the
reciprocal square root stays finite and positive; and a sum over n = nb · bk indices
is the sum, over nb blocks, of the bk-term block sums, which is what a running
accumulator carried over the blocks holds at the end.
-/

open scoped BigOperators
open Idealize.ShloMosaic

noncomputable section

namespace Cert.Moments

/-! ### The coercion ℝ → EReal through a finite sum -/

/-- The sum of the coercions of finitely many reals is the coercion of their sum:
    the coercion is additive, by induction on the index set. -/
theorem coe_sum {ι : Type*} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

/-! ### The mean -/

/-- A sum times the reciprocal of a nonzero real n is the sum divided by n, at the
    infinities too (no finiteness is needed). -/
theorem mean_mul_eq_div {ι : Type*} [Fintype ι] (f : ι → EReal) {n : ℝ} (hn : n ≠ 0) :
    (∑ i, f i) * ((1 / n : ℝ) : EReal) = Ideal.div (∑ i, f i) (n : EReal) :=
  (Ideal.div_coe hn _).symm

/-- The same for any extended real in place of the sum. -/
theorem mul_inv_eq_div (x : EReal) {n : ℝ} (hn : n ≠ 0) :
    x * ((1 / n : ℝ) : EReal) = Ideal.div x (n : EReal) :=
  (Ideal.div_coe hn x).symm

/-! ### The variance identity, in ℝ -/

/-- E[r²] − E[r]² = E[(r − E r)²] for n = |ι| real numbers, with every mean written
    as a product with 1/n. Expanding the square, the cross term is −2·m·S and the
    constant term is n·m², and S/n = m. -/
theorem real_variance_identity {ι : Type*} [Fintype ι] (r : ι → ℝ) {n : ℝ}
    (hcard : (Fintype.card ι : ℝ) = n) (hn : n ≠ 0) :
    (∑ i, r i * r i) * (1 / n) - ((∑ i, r i) * (1 / n)) * ((∑ i, r i) * (1 / n))
      = (∑ i, (r i - (∑ i, r i) * (1 / n)) * (r i - (∑ i, r i) * (1 / n))) * (1 / n) := by
  generalize hS : (∑ i, r i) = S
  generalize hm : S * (1 / n) = m
  have hexp : ∑ i, (r i - m) * (r i - m) = (∑ i, r i * r i) - 2 * m * S + n * (m * m) := by
    have h1 : ∀ i, (r i - m) * (r i - m) = r i * r i - 2 * m * r i + m * m := fun i => by ring
    simp only [h1, Finset.sum_add_distrib, Finset.sum_sub_distrib, ← Finset.mul_sum,
      Finset.sum_const, Finset.card_univ, nsmul_eq_mul, hcard, hS]
    ring
  rw [hexp, ← hm]
  field_simp
  ring

/-- The centred second moment of real numbers, divided by a positive n, is ≥ 0:
    a sum of squares times a positive number. -/
theorem real_centred_moment_nonneg {ι : Type*} [Fintype ι] (r : ι → ℝ) (m : ℝ) {n : ℝ} (hn : 0 < n) :
    0 ≤ (∑ i, (r i - m) * (r i - m)) * (1 / n) :=
  mul_nonneg (Finset.sum_nonneg fun i _ => mul_self_nonneg _) (by positivity)

/-! ### The variance identity, on the extended reals -/

/-- THE VARIANCE IDENTITY. For a family f of n = |ι| FINITE extended reals and
    m := (∑ f) · (1/n):  (∑ f²) · (1/n) − m · m = (∑ (f − m) · (f − m)) / n.
    Left: the mean of squares minus the squared mean, each mean a product with the
    reciprocal 1/n. Right: the mean of the squared deviations, a division by n, the
    square written as the product of the deviation with itself. False at an
    infinity (the left side meets ∞ − ∞), hence the finiteness. -/
theorem variance_identity {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - (∑ i, f i) * ((1 / n : ℝ) : EReal))
                        * (f i - (∑ i, f i) * ((1 / n : ℝ) : EReal))) (n : EReal) := by
  choose r hr using hf
  obtain rfl : f = fun i => (r i : EReal) := funext hr
  rw [Ideal.div_coe hn]
  simp only [← EReal.coe_mul, coe_sum, ← EReal.coe_sub]
  exact congrArg _ (real_variance_identity r hcard hn)

/-- The variance identity with the mean on the right written as a DIVISION by n, as a
    program that divides (rather than multiplies by a reciprocal) writes it:
    (∑ f²)·(1/n) − m·m = (∑ (f − μ)·(f − μ)) / n  with m = (∑ f)·(1/n), μ = (∑ f)/n. -/
theorem variance_identity_div {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - Ideal.div (∑ i, f i) (n : EReal))
                        * (f i - Ideal.div (∑ i, f i) (n : EReal))) (n : EReal) := by
  rw [← mean_mul_eq_div f hn]
  exact variance_identity f hf hcard hn

/-- The same identity with every subtraction written as the addition of a negation
    (x − y = x + −y on the extended reals, by definition). -/
theorem variance_identity_add_neg {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        + -(((∑ i, f i) * ((1 / n : ℝ) : EReal)) * ((∑ i, f i) * ((1 / n : ℝ) : EReal)))
      = Ideal.div (∑ i, (f i + -((∑ i, f i) * ((1 / n : ℝ) : EReal)))
                        * (f i + -((∑ i, f i) * ((1 / n : ℝ) : EReal)))) (n : EReal) := by
  simpa only [sub_eq_add_neg] using variance_identity f hf hcard hn

/-! ### The variance is a finite real ≥ 0 -/

/-- n = |ι| as a real, if nonzero, is positive. -/
theorem card_pos_of_ne_zero {ι : Type*} [Fintype ι] {n : ℝ} (hcard : (Fintype.card ι : ℝ) = n) (hn : n ≠ 0) :
    0 < n :=
  lt_of_le_of_ne (hcard ▸ Nat.cast_nonneg _) (Ne.symm hn)

/-- The mean of a finite family is finite. -/
theorem mean_finite {ι : Type*} [Fintype ι] (f : ι → EReal)
    (hf : ∀ i, ∃ r : ℝ, f i = (r : EReal)) (n : ℝ) :
    ∃ m : ℝ, (∑ i, f i) * ((1 / n : ℝ) : EReal) = (m : EReal) := by
  choose r hr using hf
  obtain rfl : f = fun i => (r i : EReal) := funext hr
  exact ⟨(∑ i, r i) * (1 / n), by rw [coe_sum, ← EReal.coe_mul]⟩

/-- The centred form of the variance of a finite family — the right-hand side of the
    variance identity — is a finite real ≥ 0. -/
theorem var_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - (∑ i, f i) * ((1 / n : ℝ) : EReal))
                      * (f i - (∑ i, f i) * ((1 / n : ℝ) : EReal))) (n : EReal) = (v : EReal) := by
  choose r hr using hf
  obtain rfl : f = fun i => (r i : EReal) := funext hr
  refine ⟨(∑ i, (r i - (∑ i, r i) * (1 / n)) * (r i - (∑ i, r i) * (1 / n))) * (1 / n),
    real_centred_moment_nonneg r _ (card_pos_of_ne_zero hcard hn), ?_⟩
  rw [Ideal.div_coe hn]
  simp only [← EReal.coe_mul, coe_sum, ← EReal.coe_sub]

/-- The same with the inner mean written as a division by n. -/
theorem var_nonneg_finite_div {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - Ideal.div (∑ i, f i) (n : EReal))
                      * (f i - Ideal.div (∑ i, f i) (n : EReal))) (n : EReal) = (v : EReal) := by
  rw [← mean_mul_eq_div f hn]
  exact var_nonneg_finite f hf hcard hn

/-- The moment form of the variance — the left-hand side of the variance identity —
    is the same finite real ≥ 0. -/
theorem var_moment_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      (∑ i, f i * f i) * ((1 / n : ℝ) : EReal)
        - ((∑ i, f i) * ((1 / n : ℝ) : EReal)) * ((∑ i, f i) * ((1 / n : ℝ) : EReal)) = (v : EReal) := by
  rw [variance_identity f hf hcard hn]
  exact var_nonneg_finite f hf hcard hn

/-! ### The reciprocal square root of variance plus ε -/

/-- The reciprocal square root of a positive real is the real 1/√x, which is positive. -/
theorem rsqrt_coe_of_pos {x : ℝ} (hx : 0 < x) :
    Ideal.rsqrt (x : EReal) = (((Real.sqrt x)⁻¹ : ℝ) : EReal) ∧ 0 < (Real.sqrt x)⁻¹ := by
  refine ⟨?_, inv_pos.mpr (Real.sqrt_pos.mpr hx)⟩
  rw [Ideal.rsqrt_coe, if_neg (not_lt.mpr hx.le), if_neg hx.ne']

/-- A finite real ≥ 0 plus a positive real ε has a finite, positive reciprocal square root. -/
theorem rsqrt_nonneg_add_pos_finite {v ε : ℝ} (hv : 0 ≤ v) (hε : 0 < ε) :
    ∃ s : ℝ, 0 < s ∧ Ideal.rsqrt ((v : EReal) + (ε : EReal)) = (s : EReal) := by
  have hpos : 0 < v + ε := add_pos_of_nonneg_of_pos hv hε
  exact ⟨(Real.sqrt (v + ε))⁻¹, (rsqrt_coe_of_pos hpos).2, by
    rw [← EReal.coe_add]; exact (rsqrt_coe_of_pos hpos).1⟩

/-- So the reciprocal square root of (centred variance + ε), ε > 0, of a finite family
    is a finite positive real. -/
theorem rsqrt_var_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt (Ideal.div (∑ i, (f i - (∑ i, f i) * ((1 / n : ℝ) : EReal))
                                  * (f i - (∑ i, f i) * ((1 / n : ℝ) : EReal))) (n : EReal)
                    + (ε : EReal)) = (s : EReal) := by
  obtain ⟨v, hv, hveq⟩ := var_nonneg_finite f hf hcard hn
  rw [hveq]
  exact rsqrt_nonneg_add_pos_finite hv hε

/-- The same for the moment form (mean of squares minus squared mean) of the variance. -/
theorem rsqrt_var_moment_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt ((∑ i, f i * f i) * ((1 / n : ℝ) : EReal)
                    - ((∑ i, f i) * ((1 / n : ℝ) : EReal)) * ((∑ i, f i) * ((1 / n : ℝ) : EReal))
                    + (ε : EReal)) = (s : EReal) := by
  obtain ⟨v, hv, hveq⟩ := var_moment_nonneg_finite f hf hcard hn
  rw [hveq]
  exact rsqrt_nonneg_add_pos_finite hv hε

/-! ### Regrouping a sum into blocks -/

/-- The glued index bk·t + r of row r of block t lies below nb·bk. -/
theorem glue_lt {nb bk : ℕ} (t : Fin nb) (r : Fin bk) : bk * t.val + r.val < nb * bk := by
  have h1 : bk * t.val + r.val < bk * (t.val + 1) := by
    rw [Nat.mul_succ]; exact Nat.add_lt_add_left r.isLt _
  have h2 : bk * (t.val + 1) ≤ bk * nb := Nat.mul_le_mul_left _ t.isLt
  rw [Nat.mul_comm nb bk]
  exact lt_of_lt_of_le h1 h2

/-- A sum over nb·bk indices is the sum over the nb blocks of the bk-term block sums,
    in any additive commutative monoid (no finiteness): the pairs (t, r) and the
    indices bk·t + r correspond one to one. -/
theorem sum_blocks {M : Type*} [AddCommMonoid M] (nb bk : ℕ) (g : Fin (nb * bk) → M) :
    ∑ t : Fin nb, ∑ r : Fin bk, g ⟨bk * t.val + r.val, glue_lt t r⟩ = ∑ i : Fin (nb * bk), g i := by
  rw [← Fintype.sum_prod_type', ← Equiv.sum_comp finProdFinEquiv g]
  refine Fintype.sum_congr _ _ fun p => congrArg g (Fin.ext ?_)
  simp only [finProdFinEquiv_apply_val]
  exact Nat.add_comm _ _

/-- The case of 50000 rows in 10 blocks of 5000. -/
theorem sum_blocks_50000 {M : Type*} [AddCommMonoid M] (g : Fin 50000 → M) :
    ∑ t : Fin 10, ∑ r : Fin 5000, g ⟨5000 * t.val + r.val, by have := t.isLt; have := r.isLt; omega⟩
      = ∑ i : Fin 50000, g i :=
  sum_blocks 10 5000 g

/-- A running accumulator: folding acc ↦ acc + b t over t = 0, …, nb − 1 from a
    leaves a plus the sum of the b t. -/
theorem foldl_add_eq_sum {M : Type*} [AddCommMonoid M] (nb : ℕ) (b : Fin nb → M) (a : M) :
    (List.finRange nb).foldl (fun acc t => acc + b t) a = a + ∑ t : Fin nb, b t := by
  rw [← List.sum_ofFn, List.ofFn_eq_map]
  generalize List.finRange nb = l
  induction l generalizing a with
  | nil => simp
  | cons x l ih => rw [List.foldl_cons, ih, List.map_cons, List.sum_cons, add_assoc]

/-- The same for an accumulator given by its recurrence over the natural numbers:
    if A 0 = a and A (t+1) = A t + b t for each t < nb, then A nb = a + ∑ b. -/
theorem rec_add_eq_sum {M : Type*} [AddCommMonoid M] (nb : ℕ) (b : Fin nb → M) (A : ℕ → M) (a : M)
    (h0 : A 0 = a) (hstep : ∀ t : Fin nb, A (t.val + 1) = A t.val + b t) :
    A nb = a + ∑ t : Fin nb, b t := by
  induction nb with
  | zero => simpa using h0
  | succ k ih =>
    rw [Fin.sum_univ_castSucc, ← add_assoc,
      ← ih (fun t => b t.castSucc) (fun t => by simpa using hstep t.castSucc)]
    simpa using hstep (Fin.last k)

/-- So the accumulator carried over the 10 blocks of 5000 rows, started at 0, ends at
    the sum over all 50000 rows (no finiteness needed). -/
theorem foldl_blocks_50000 {M : Type*} [AddCommMonoid M] (g : Fin 50000 → M) :
    (List.finRange 10).foldl
        (fun acc t => acc + ∑ r : Fin 5000, g ⟨5000 * t.val + r.val, by have := t.isLt; have := r.isLt; omega⟩) 0
      = ∑ i : Fin 50000, g i := by
  rw [foldl_add_eq_sum, zero_add]
  exact sum_blocks_50000 g

end Cert.Moments
-- ==== Proof.KernelSpatial.lean ====
import proofs.«419550_j77738908057987_3_alg».proof.Proof.HostFold
import proofs.«419550_j77738908057987_3_alg».proof.Proof.Region1
import proofs.«419550_j77738908057987_3_alg».proof.Proof.SpatialValue
import proofs.«419550_j77738908057987_3_alg».proof.Proof.LibMoments
import proofs.«419550_j77738908057987_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
# The penalty the kernel program returns is the specification's

The penalty is the weight times the sum of the pairwise kernel's two output entries, over the edge count. Entry `p`
is what the output block held after core `p`'s last point: zero, plus the contributions of the core's 125 points in
turn. Point `t`'s contribution is the sum over its 6400 edges `6400 * t + r` of the overlap of the two operand rows
times the distance entry; the operands are takes of the cut-off features at the edge's endpoints and the column
of squared distances, which at in-range endpoints read the specification's overlap and squared distance. A sum
over 2 cores of 125 points of 6400 edges is the sum over all 1 600 000 edges.
-/

set_option maxRecDepth 16384

open scoped BigOperators

noncomputable section

namespace Cert.KernelIdeal.KernelSpatial

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- Edge `n`'s term of the specification's sum: overlap times squared distance; zero past the last edge. -/
def edgeTerm (S : Fin 50000 → Fin 32 → EReal) (P : Fin 50000 → Fin 2 → EReal) (E0 E1 : Fin 1600000 → Fin 50000)
    (n : ℕ) : EReal :=
  if h : n < 1600000 then
    Cert.Spec.pairSum S (E0 ⟨n, h⟩) (E1 ⟨n, h⟩) * Cert.Spec.dist2 P (E0 ⟨n, h⟩) (E1 ⟨n, h⟩)
  else 0

/-- Point `t`'s contribution in the specification's terms: its 6400 edges' terms. -/
def pointTerm (S : Fin 50000 → Fin 32 → EReal) (P : Fin 50000 → Fin 2 → EReal) (E0 E1 : Fin 1600000 → Fin 50000)
    (t : ℕ) : EReal :=
  ∑ r : Fin 6400, edgeTerm S P E0 E1 (6400 * t + r.val)

/-- The contribution of point `t`, as the kernel computes it from its three operand blocks, is the point's
    contribution in the specification's terms: the blocks are rows `6400 * t + r` of the two takes of the cut-off
    features and of the distance column, which at in-range endpoints read the overlap and the squared distance. -/
theorem contrib_eq (c : Dev nD) (E0 E1 : Fin 1600000 → Fin 50000)
    (he0 : ∀ e : Fin 1600000, m ((c : Thread nD τ).loc main_arg4) (ix2 0 e) = BitVec.ofNat 32 (E0 e).val)
    (he1 : ∀ e : Fin 1600000, m ((c : Thread nD τ).loc main_arg4) (ix2 1 e) = BitVec.ofNat 32 (E1 e).val)
    (t : Fin cfg1.N) :
    (∑ r : Fin 6400, (∑ k : Fin 32, Region1.blkA (V8 m ρ) c t (ix2 r k) * Region1.blkB (V8 m ρ) c t (ix2 r k))
        * Region1.blkD (V8 m ρ) c t (ix2 r 0))
      = pointTerm (fun i k => m ((c : Thread nD τ).loc main_arg2) (ix2 i k))
          (fun i a => m ((c : Thread nD τ).loc main_arg3) (ix2 i a)) E0 E1 t.val := by
  unfold pointTerm
  refine Finset.sum_congr rfl fun r _ => ?_
  have hlt := Region1.edge_lt t r
  rw [edgeTerm, dif_pos hlt, Region1.blkD_apply]
  have hs : HostTerms.srcOf (m ((c : Thread nD τ).loc main_arg4)) (ix1 ⟨6400 * t.val + r.val, hlt⟩)
      = BitVec.ofNat 32 (E0 ⟨6400 * t.val + r.val, hlt⟩).val := by
    rw [SpatialValue.srcOf_apply]; exact he0 _
  have hd : HostTerms.dstOf (m ((c : Thread nD τ).loc main_arg4)) (ix1 ⟨6400 * t.val + r.val, hlt⟩)
      = BitVec.ofNat 32 (E1 ⟨6400 * t.val + r.val, hlt⟩).val := by
    rw [SpatialValue.dstOf_apply]; exact he1 _
  refine congrArg₂ (· * ·) ?_ ?_
  · unfold Cert.Spec.pairSum
    refine Finset.sum_congr rfl fun k _ => ?_
    rw [Region1.blkA_apply, Region1.blkB_apply]
    refine congrArg₂ (· * ·) ?_ ?_
    · show W8 m ρ c (Proc.devRef .tc main_v12) (ix2 ⟨6400 * t.val + r.val, hlt⟩ k) = _
      rw [HostFold.entry1_first, SpatialValue.take32_apply _ _ _ _ hs, SpatialValue.cutoff_apply]
    · show W8 m ρ c (Proc.devRef .tc main_v13) (ix2 ⟨6400 * t.val + r.val, hlt⟩ k) = _
      rw [HostFold.entry1_second, SpatialValue.take32_apply _ _ _ _ hd, SpatialValue.cutoff_apply]
  · show W8 m ρ c (Proc.devRef .tc main_v19) (ix2 ⟨6400 * t.val + r.val, hlt⟩ 0) = _
    rw [HostFold.entry1_dist, SpatialValue.dist_apply _ _ _ _ _ (he0 _) (he1 _)]

section Acc
variable (c : Dev nD) (E0 E1 : Fin 1600000 → Fin 50000)
  (he0 : ∀ e : Fin 1600000, m ((c : Thread nD τ).loc main_arg4) (ix2 0 e) = BitVec.ofNat 32 (E0 e).val)
  (he1 : ∀ e : Fin 1600000, m ((c : Thread nD τ).loc main_arg4) (ix2 1 e) = BitVec.ofNat 32 (E1 e).val)
include he0 he1

/-- A point that starts from the zero block leaves its own contribution. -/
theorem payload_zero (t : Fin cfg1.N) (j : S1x1x1.Idx) :
    k1_pay2 (F := Ideal) (Region1.blkA (V8 m ρ) c t) (Region1.blkB (V8 m ρ) c t) (Region1.blkD (V8 m ρ) c t)
        (k1_pay1 (F := Ideal)) j
      = pointTerm (fun i k => m ((c : Thread nD τ).loc main_arg2) (ix2 i k))
          (fun i a => m ((c : Thread nD τ).loc main_arg3) (ix2 i a)) E0 E1 t.val := by
  rw [SpatialValue.acc_payload, SpatialValue.zero_payload, zero_add]
  exact contrib_eq m ρ c E0 E1 he0 he1 t

/-- After a core's first point the block holds that point's contribution. -/
theorem accAt_reset (n : ℕ) (h : n < cfg1.N) (hn : n % 125 = 0) (j : S1x1x1.Idx) :
    Region1.accAt (V8 m ρ) c n h j
      = pointTerm (fun i k => m ((c : Thread nD τ).loc main_arg2) (ix2 i k))
          (fun i a => m ((c : Thread nD τ).loc main_arg3) (ix2 i a)) E0 E1 n := by
  cases n with
  | zero =>
    rw [Region1.accAt]
    exact payload_zero m ρ c E0 E1 he0 he1 ⟨0, h⟩ j
  | succ n =>
    rw [Region1.accAt, if_pos hn]
    exact payload_zero m ρ c E0 E1 he0 he1 ⟨n + 1, h⟩ j

/-- After a later point the block holds what it held, plus that point's contribution. -/
theorem accAt_succ (n : ℕ) (h : n + 1 < cfg1.N) (hn : ¬(n + 1) % 125 = 0) (j : S1x1x1.Idx) :
    Region1.accAt (V8 m ρ) c (n + 1) h j
      = Region1.accAt (V8 m ρ) c n (Nat.lt_of_succ_lt h) j
        + pointTerm (fun i k => m ((c : Thread nD τ).loc main_arg2) (ix2 i k))
            (fun i a => m ((c : Thread nD τ).loc main_arg3) (ix2 i a)) E0 E1 (n + 1) := by
  rw [Region1.accAt, if_neg hn, SpatialValue.acc_payload]
  refine congrArg (_ + ·) ?_
  exact contrib_eq m ρ c E0 E1 he0 he1 ⟨n + 1, h⟩

/-- The invariant: after point `s` of core `p` the block holds the contributions of the core's points up to `s`. -/
theorem acc_inv (p : Fin 2) : ∀ (s : ℕ), s < 125 → ∀ (n : ℕ) (h : n < cfg1.N), n = 125 * p.val + s →
    ∀ j : S1x1x1.Idx, Region1.accAt (V8 m ρ) c n h j
      = ∑ s' : Fin (s + 1), pointTerm (fun i k => m ((c : Thread nD τ).loc main_arg2) (ix2 i k))
          (fun i a => m ((c : Thread nD τ).loc main_arg3) (ix2 i a)) E0 E1 (125 * p.val + s'.val) := by
  intro s
  induction s with
  | zero =>
    intro _ n h hn j
    rw [accAt_reset m ρ c E0 E1 he0 he1 n h (by omega) j, Fin.sum_univ_castSucc, Fin.sum_univ_zero, zero_add]
    show pointTerm _ _ E0 E1 n = pointTerm _ _ E0 E1 (125 * p.val + 0)
    rw [hn]
  | succ s ih =>
    intro hs n h hn j
    obtain ⟨n', rfl⟩ : ∃ n', n = n' + 1 := ⟨125 * p.val + s, by omega⟩
    rw [accAt_succ m ρ c E0 E1 he0 he1 n' h (by omega) j,
      ih (by omega) n' (Nat.lt_of_succ_lt h) (by omega) j, Fin.sum_univ_castSucc (n := s + 1)]
    refine congrArg (_ + ·) ?_
    show pointTerm _ _ E0 E1 (n' + 1) = pointTerm _ _ E0 E1 (125 * p.val + (s + 1))
    rw [hn]

end Acc

/-- The two entries of the output array: entry `p` is at `(p, 0, 0)`. -/
def coreEquiv : Fin 2 ≃ S2x1x1.Idx where
  toFun p := ix3 p 0 0
  invFun i := i 0
  left_inv _ := rfl
  right_inv i := by
    funext a
    apply Fin.ext
    match a with
    | ⟨0, _⟩ => rfl
    | ⟨1, _⟩ =>
      have h1 : (i 1).val < 1 := (i 1).isLt
      show 0 = (i 1).val
      omega
    | ⟨2, _⟩ =>
      have h2 : (i 2).val < 1 := (i 2).isLt
      show 0 = (i 2).val
      omega

/-- Two cores of 125 points of 6400 edges are the 1 600 000 edges, in order. -/
theorem regroup {M : Type*} [AddCommMonoid M] (f : ℕ → M) :
    ∑ p : Fin 2, ∑ s : Fin 125, ∑ r : Fin 6400, f (6400 * (125 * p.val + s.val) + r.val)
      = ∑ e : Fin 1600000, f e.val := by
  have h1 := Cert.Moments.sum_blocks 250 6400 (fun i => f i.val)
  have h2 := Cert.Moments.sum_blocks 2 125 (fun t : Fin (2 * 125) => ∑ r : Fin 6400, f (6400 * t.val + r.val))
  exact h2.trans h1

/-- The sum of the pairwise kernel's two output entries is the specification's sum over the edges. -/
theorem sum_out (c : Dev nD) (E0 E1 : Fin 1600000 → Fin 50000)
    (he0 : ∀ e : Fin 1600000, m ((c : Thread nD τ).loc main_arg4) (ix2 0 e) = BitVec.ofNat 32 (E0 e).val)
    (he1 : ∀ e : Fin 1600000, m ((c : Thread nD τ).loc main_arg4) (ix2 1 e) = BitVec.ofNat 32 (E1 e).val)
    (R : S2x1x1.Idx → EReal)
    (hR : ∀ p : Fin 2, R (ix3 p 0 0)
      = Region1.accAt (V8 m ρ) c (125 * p.val + 124) (Region1.last_lt p) (ix3 0 0 0)) :
    ∑ i : S2x1x1.Idx, R i
      = Cert.Spec.spatialSum (fun i k => m ((c : Thread nD τ).loc main_arg2) (ix2 i k))
          (fun i a => m ((c : Thread nD τ).loc main_arg3) (ix2 i a)) E0 E1 := by
  have hp : ∀ p : Fin 2, R (coreEquiv p)
      = ∑ s : Fin 125, pointTerm (fun i k => m ((c : Thread nD τ).loc main_arg2) (ix2 i k))
          (fun i a => m ((c : Thread nD τ).loc main_arg3) (ix2 i a)) E0 E1 (125 * p.val + s.val) := fun p =>
    (hR p).trans (acc_inv m ρ c E0 E1 he0 he1 p 124 (by omega) _ _ rfl _)
  rw [← Equiv.sum_comp coreEquiv]
  refine (Finset.sum_congr rfl fun p _ => hp p).trans ?_
  unfold pointTerm
  rw [regroup]
  unfold Cert.Spec.spatialSum
  refine Finset.sum_congr rfl fun e _ => ?_
  rw [edgeTerm, dif_pos e.isLt]

/-- The penalty at the end of the run. -/
theorem penalty_eq (c : Dev nD) (E0 E1 : Fin 1600000 → Fin 50000)
    (he0 : ∀ e : Fin 1600000, m ((c : Thread nD τ).loc main_arg4) (ix2 0 e) = BitVec.ofNat 32 (E0 e).val)
    (he1 : ∀ e : Fin 1600000, m ((c : Thread nD τ).loc main_arg4) (ix2 1 e) = BitVec.ofNat 32 (E1 e).val) :
    (W10 (F := Ideal) m ρ c (Proc.devRef .tc main_v23) : FVec Ideal S_ .f32)
      = fun _ => Cert.Spec.spatial (fun i k => m ((c : Thread nD τ).loc main_arg2) (ix2 i k))
          (fun i a => m ((c : Thread nD τ).loc main_arg3) (ix2 i a)) E0 E1 := by
  funext j
  refine (congrFun (HostFold.res_penalty m ρ c) j).trans ?_
  rw [hostDivf_apply, mulf_apply, constant_apply, constant_apply, hostReduceAdd_apply, constant_apply,
    Ideal.hostReduceAdd_total _ (fun b => b.elim0), Ideal.ofBits_zero_f32, zero_add]
  exact congrArg (fun x => Ideal.div (Cert.Spec.weight * x) Cert.Spec.nEdges)
    (sum_out m ρ c E0 E1 he0 he1 ((dat1 (V8 m ρ) c).arrAt 3 cfg1.N) (Region1.arrAt_eq (V8 m ρ) c))

end Cert.KernelIdeal.KernelSpatial

end
-- ==== Proof.KernelValue.lean ====
import proofs.«419550_j77738908057987_3_alg».proof.Proof.KernelRun
import proofs.«419550_j77738908057987_3_alg».proof.Proof.KernelFocal
import proofs.«419550_j77738908057987_3_alg».proof.Proof.KernelSpatial
import Idealize.ShloMosaic.Lib.ValueIdx

/-!
# The kernel program's run, with its three results named

Every execution of the idealized kernel program terminates; where the classes, tissues and edge endpoints are in
range it returns the specification's total, focal loss and penalty of its argument arrays, which end unchanged.
The total is the sum of the other two because the program's last operation adds them.
-/

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The argument arrays of device `c` as plain functions of their coordinates. -/
abbrev scores (c : Dev nD) : Fin 4096 → Fin 10 → EReal := fun b k => m ((c.tc : Thread nD τ).loc main_arg0) (ix2 b k)
abbrev classW (c : Dev nD) : Fin 10 → EReal := fun k => m ((c.tc : Thread nD τ).loc main_arg6) (ix1 k)
abbrev tissueW (c : Dev nD) : Fin 5 → EReal := fun k => m ((c.tc : Thread nD τ).loc main_arg7) (ix1 k)
abbrev feats (c : Dev nD) : Fin 50000 → Fin 32 → EReal := fun i k => m ((c.tc : Thread nD τ).loc main_arg2) (ix2 i k)
abbrev posns (c : Dev nD) : Fin 50000 → Fin 2 → EReal := fun i a => m ((c.tc : Thread nD τ).loc main_arg3) (ix2 i a)

/-- The total at the end of the run: the loss plus the penalty. -/
theorem total_eq (c : Dev nD) (t : Fin 4096 → Fin 10) (s : Fin 4096 → Fin 5) (E0 E1 : Fin 1600000 → Fin 50000)
    (ht : ∀ b : Fin 4096, m ((c : Thread nD τ).loc main_arg1) (ix1 b) = BitVec.ofNat 32 (t b).val)
    (hs : ∀ b : Fin 4096, m ((c : Thread nD τ).loc main_arg5) (ix1 b) = BitVec.ofNat 32 (s b).val)
    (he0 : ∀ e : Fin 1600000, m ((c : Thread nD τ).loc main_arg4) (ix2 0 e) = BitVec.ofNat 32 (E0 e).val)
    (he1 : ∀ e : Fin 1600000, m ((c : Thread nD τ).loc main_arg4) (ix2 1 e) = BitVec.ofNat 32 (E1 e).val) :
    (W10 (F := Ideal) m ρ c (Proc.devRef .tc main_v24) : FVec Ideal S_ .f32)
      = fun _ => Cert.Spec.total (scores m c) t s (classW m c) (tissueW m c) (feats m c) (posns m c) E0 E1 := by
  rw [HostFold.res_total]
  have h1 := KernelFocal.loss_eq m ρ c t s ht hs
  have h2 := KernelSpatial.penalty_eq m ρ c E0 E1 he0 he1
  rw [h1, h2]
  rfl

/-- The run: every execution terminates with the three results at the specification's values and the arguments
    unchanged. -/
theorem run (t : Dev nD → Fin 4096 → Fin 10) (s : Dev nD → Fin 4096 → Fin 5) (E0 E1 : Dev nD → Fin 1600000 → Fin 50000)
    (ht : ∀ (c : Dev nD) (b : Fin 4096), m ((c : Thread nD τ).loc main_arg1) (ix1 b) = BitVec.ofNat 32 (t c b).val)
    (hs : ∀ (c : Dev nD) (b : Fin 4096), m ((c : Thread nD τ).loc main_arg5) (ix1 b) = BitVec.ofNat 32 (s c b).val)
    (he0 : ∀ (c : Dev nD) (e : Fin 1600000), m ((c : Thread nD τ).loc main_arg4) (ix2 0 e) = BitVec.ofNat 32 (E0 c e).val)
    (he1 : ∀ (c : Dev nD) (e : Fin 1600000), m ((c : Thread nD τ).loc main_arg4) (ix2 1 e) = BitVec.ofNat 32 (E1 c e).val) :
    θ_run defs (onTc (τ := τ) (main (F := Ideal))) ⟨m, fun _ => 0, ρ⟩ (fun r => ∀ c : Dev nD,
      r.2.mem ((c.tc : Thread nD τ).loc main_v24)
        = (fun _ => Cert.Spec.total (scores m c) (t c) (s c) (classW m c) (tissueW m c) (feats m c) (posns m c) (E0 c) (E1 c))
      ∧ r.2.mem ((c.tc : Thread nD τ).loc main_v5)
        = (fun _ => Cert.Spec.focal (scores m c) (t c) (s c) (classW m c) (tissueW m c))
      ∧ r.2.mem ((c.tc : Thread nD τ).loc main_v23)
        = (fun _ => Cert.Spec.spatial (feats m c) (posns m c) (E0 c) (E1 c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c).1.trans (total_eq m ρ c (t c) (s c) (E0 c) (E1 c) (ht c) (hs c) (he0 c) (he1 c)),
     (h c).2.1.trans (KernelFocal.loss_eq m ρ c (t c) (s c) (ht c) (hs c)),
     (h c).2.2.1.trans (KernelSpatial.penalty_eq m ρ c (E0 c) (E1 c) (he0 c) (he1 c)),
     (h c).2.2.2⟩)
    (ValueRun.run_values (F := Ideal) m ρ)

end Cert.KernelIdeal.KernelValue

end
-- ==== Proof.SpecReal.lean ====
import proofs.«419550_j77738908057987_3_alg».proof.Proof.Spec
import Idealize.ShloMosaic.PureOps.Ideal.Laws

/-!
# Where the scores are finite

If every score of a row is a real number, so is every log-probability of the row: the row's maximum is the largest
of ten reals, the shifted scores and their exponentials are reals, their sum is a positive real, and its logarithm
is a real. And for a real `x` the number `1 - exp x` is real, so its power with exponent 2 is its square.
-/

open scoped BigOperators
open Idealize.ShloMosaic

noncomputable section

namespace Cert.Spec

/-! ## The three words whose values the mathematics needs -/

/-- The word the row maximum is folded from denotes `-∞`. -/
theorem negInf_eq : negInf = ⊥ := by
  show Ideal.ofBits .f32 0xFF800000#32 = ⊥
  simp [Ideal.ofBits, Ideal.ieee]

/-- The word for 1.0 denotes the real number one. -/
theorem one_eq : one = ((1 : ℝ) : EReal) := by
  show Ideal.ofBits .f32 0x3F800000#32 = ((1 : ℝ) : EReal)
  simp [Ideal.ofBits, Ideal.ieee, -EReal.coe_mul]; norm_num

/-- The word for 2.0 denotes the real number two. -/
theorem two_eq : Ideal.ofBits .f32 0x40000000#32 = ((2 : ℝ) : EReal) := by
  simp [Ideal.ofBits, Ideal.ieee, -EReal.coe_mul]; norm_num

/-! ## Extended reals that are real numbers -/

/-- An extended real strictly between the two infinities is a real number. -/
theorem real_of_lt {x : EReal} (h1 : ⊥ < x) (h2 : x < ⊤) : ∃ r : ℝ, x = (r : EReal) :=
  ⟨x.toReal, (EReal.coe_toReal h2.ne h1.ne').symm⟩

/-- The largest of ten real numbers, folded from `-∞`, is a real number: it is above the first of them and every
    one of them is below `+∞`. -/
theorem fold_max_real (g : Fin 10 → ℝ) :
    ∃ r : ℝ, (Finset.univ : Finset (Fin 10)).fold max (⊥ : EReal) (fun k => (g k : EReal)) = (r : EReal) := by
  apply real_of_lt
  · rw [Finset.lt_fold_max]
    exact Or.inr ⟨0, Finset.mem_univ _, EReal.bot_lt_coe (g 0)⟩
  · rw [Finset.fold_max_lt]
    exact ⟨bot_lt_top, fun k _ => EReal.coe_lt_top (g k)⟩

/-- The coercion of a finite sum of reals is the sum of the coercions. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The log-probabilities of finite scores are real numbers. -/
theorem logp_real (lg : Fin 4096 → Fin 10 → EReal) (hfin : ∀ (b : Fin 4096) (k : Fin 10), ∃ r : ℝ, lg b k = (r : EReal))
    (b : Fin 4096) (k : Fin 10) : ∃ r : ℝ, logp lg b k = (r : EReal) := by
  choose f hf using hfin
  -- the row's maximum is a real number
  obtain ⟨M, hM⟩ : ∃ M : ℝ, rowMax lg b = (M : EReal) := by
    unfold rowMax
    rw [negInf_eq, show lg b = fun k => ((f b k : ℝ) : EReal) from funext (hf b)]
    exact fold_max_real (f b)
  -- so every shifted score is
  have hsh : ∀ c : Fin 10, shifted lg b c = ((f b c - M : ℝ) : EReal) := fun c => by
    unfold shifted
    rw [hf b c, hM, EReal.coe_sub]
  -- and the sum of their exponentials is a positive real number
  have hsum : sumExp lg b = ((∑ c : Fin 10, Real.exp (f b c - M) : ℝ) : EReal) := by
    unfold sumExp
    rw [coe_sum]
    exact Finset.sum_congr rfl fun c _ => by rw [hsh c, Ideal.exp_coe]
  have hpos : 0 < ∑ c : Fin 10, Real.exp (f b c - M) :=
    Finset.sum_pos (fun c _ => Real.exp_pos _) Finset.univ_nonempty
  -- whose logarithm is real; a difference of reals is real
  refine ⟨f b k - M - Real.log (∑ c : Fin 10, Real.exp (f b c - M)), ?_⟩
  unfold logp
  rw [hsh k, hsum, Ideal.log_coe, if_neg (not_le.mpr hpos)]
  exact (EReal.coe_sub _ _).symm

/-- For a real `x`, `(1 - exp x)` to the power 2.0 is its square. -/
theorem pow_two_eq_sq (x : EReal) (hx : ∃ r : ℝ, x = (r : EReal)) :
    Ideal.pow (one - Ideal.exp x) (Ideal.ofBits .f32 0x40000000#32) = (one - Ideal.exp x) * (one - Ideal.exp x) := by
  obtain ⟨r, rfl⟩ := hx
  -- `1 - exp r` is a real number
  have h1 : one - Ideal.exp (r : EReal) = ((1 - Real.exp r : ℝ) : EReal) := by
    rw [one_eq, Ideal.exp_coe, EReal.coe_sub]
  -- and a real to the real power two is its square
  rw [h1, two_eq, Ideal.pow_coe_coe, ← EReal.coe_mul]
  congr 1
  show (1 - Real.exp r) ^ (2 : ℝ) = (1 - Real.exp r) * (1 - Real.exp r)
  rw [Real.rpow_two, sq]

end Cert.Spec

end
-- ==== Proof.RefFocal.lean ====
import proofs.«419550_j77738908057987_3_alg».proof.Proof.RefReadP
import proofs.«419550_j77738908057987_3_alg».proof.Proof.Spec
import proofs.«419550_j77738908057987_3_alg».proof.Proof.SpecReal
import proofs.«419550_j77738908057987_3_alg».proof.Proof.LibScatterRows
import Idealize.ShloMosaic.Lib.ValueIdx
import Idealize.ShloMosaic.Lib.ValueIdxRank1
import Idealize.ShloMosaic.Lib.ValueLayout
import Idealize.ShloMosaic.Lib.Pipeline.Value
import Idealize.ShloMosaic.Lib.IdealHost
import Idealize.ShloMosaic.Lib.StableHlo.Predicate
import Idealize.ShloMosaic.PureOps.Ideal.Laws

/-!
# The reference's loss is the specification's

The reference takes the log-softmax of the scores, reads the log-probability of each row's class (a read that
fills a not-a-number where the class is out of range and otherwise reads the class's column), weights
`(1 - p) ^ 2` by the class's and the tissue's weight, and averages `-(weight) * log-probability` over the rows.
Where the classes and tissues are in range and the scores are finite, `1 - p` is a real number, its power 2 is its
square, and the reads are the plain ones: the result is the specification's focal loss.
-/

open scoped BigOperators

noncomputable section

namespace Cert.ReferenceIdeal.RefFocal

open Cert.ReferenceIdeal Cert.ReferenceIdeal.Gen Idealize.ShloMosaic Idealize.ShloMosaic.TcCoe Idealize.SL.Sem
open Idealize.ShloMosaic.ValueIdx

/-! ## Small general facts -/

/-- A fold of `max` from `a` is at least `a`. -/
theorem max_fold_self {ι : Type} (s : Finset ι) (a : EReal) (f : ι → EReal) :
    max a (s.fold max a f) = s.fold max a f :=
  max_eq_right ((Finset.le_fold_max a).mpr (Or.inl le_rfl))

/-- A sum over a rank-1 index set is the sum over its coordinate. -/
theorem sum_idx1 {M : Type} [AddCommMonoid M] {n : Nat} (f : (⟨1, ![n]⟩ : Shape).Idx → M) :
    ∑ j, f j = ∑ b : Fin n, f (ix1 b) :=
  (Equiv.sum_comp (idxEquiv1 (n := n)).symm f).symm

/-! ## A gather batched over the rows: row `e` of the result reads row `e` of the operand at the column its start index names -/

theorem getElem_of_eq {α : Type} {l l' : List α} (hl : l = l') {k k' : Nat} (hk : k = k') (h : k < l.length)
    (h' : k' < l'.length) : l[k]'h = l'[k']'h' := by
  subst hl; subst hk; rfl

section GatherBatched
variable {n K w : Nat} (d : GatherDims ⟨2, ![n, K]⟩ ⟨3, ![n, 1, 1]⟩ ⟨2, ![n, 1]⟩)

theorem gB_batchDims (hoff : d.offsetDims = []) : d.batchDims = [0, 1] := by
  show Shape.kept _ d.offsetDims = [0, 1]
  rw [hoff]; rfl

theorem gB_siKept (hivd : d.indexVectorDim = 2) : d.siKept = [0, 1] := by
  show List.filter _ (List.finRange 3) = [0, 1]
  rw [hivd]; rfl

/-- The start indices' two batch axes read the result's two axes, in order. -/
theorem gB_siCoord0 (hoff : d.offsetDims = []) (hivd : d.indexVectorDim = 2) (j : (⟨2, ![n, 1]⟩ : Shape).Idx)
    (b : Fin 3) (hb : b ∈ d.siKept) (h0 : b = 0) : (d.siCoord j b hb).val = (j 0).val := by
  subst h0
  unfold GatherDims.siCoord
  simp only [Fin.val_cast]
  rw [getElem_of_eq (gB_batchDims d hoff) (k' := 0) (by rw [gB_siKept d hivd]; rfl) _ (by simp)]
  rfl

theorem gB_siCoord1 (hoff : d.offsetDims = []) (hivd : d.indexVectorDim = 2) (j : (⟨2, ![n, 1]⟩ : Shape).Idx)
    (b : Fin 3) (hb : b ∈ d.siKept) (h1 : b = 1) : (d.siCoord j b hb).val = (j 1).val := by
  subst h1
  unfold GatherDims.siCoord
  simp only [Fin.val_cast]
  rw [getElem_of_eq (gB_batchDims d hoff) (k' := 1) (by rw [gB_siKept d hivd]; rfl) _ (by simp)]
  rfl

/-- The start-indices position row `e` reads: row `e` of the column. -/
theorem gB_siIdx (hoff : d.offsetDims = []) (hsim : d.startIndexMap = [1]) (hivd : d.indexVectorDim = 2)
    (e : Fin n) (c : Fin d.startIndexMap.length) :
    d.siIdx (ix2 e (0 : Fin 1)) c = ix3 e (0 : Fin 1) (0 : Fin 1) := by
  funext b
  apply Fin.ext
  match b with
  | ⟨0, _⟩ =>
    unfold GatherDims.siIdx
    rw [dif_neg (by rw [hivd]; simp)]
    exact gB_siCoord0 d hoff hivd _ _ _ rfl
  | ⟨1, _⟩ =>
    unfold GatherDims.siIdx
    rw [dif_neg (by rw [hivd]; simp)]
    exact gB_siCoord1 d hoff hivd _ _ _ rfl
  | ⟨2, _⟩ =>
    unfold GatherDims.siIdx
    rw [dif_pos (by rw [hivd])]
    have hc : c.val < d.startIndexMap.length := c.isLt
    have hl : d.startIndexMap.length = 1 := by rw [hsim]; rfl
    show c.val = 0
    omega

/-- On the row axis the operand index is the result's own row: the axis is batched, not start-indexed. -/
theorem gB_coord0 (hoff : d.offsetDims = []) (hob : d.operandBatchingDims = [0])
    (hsb : d.startIndicesBatchingDims = [0]) (hsim : d.startIndexMap = [1]) (hivd : d.indexVectorDim = 2)
    (idx : IVec ⟨3, ![n, 1, 1]⟩ w) (e : Fin n) :
    (d.operandIdx (ix2 e (0 : Fin 1)) idx 0).val = e.val := by
  have hb : (0 : Fin 2) ∈ d.operandBatchingDims := by rw [hob]; exact List.mem_singleton.mpr rfl
  have hk : (0 : Fin 2) ∉ d.sKept := by rw [GatherDims.mem_sKept, hob]; simp
  have hm : (0 : Fin 2) ∉ d.startIndexMap := by rw [hsim]; simp
  simp only [GatherDims.operandIdx, GatherDims.offCoord_eq_zero _ _ _ hk, Nat.add_zero, GatherDims.start, dif_neg hm,
    Nat.zero_add]
  unfold GatherDims.batchCoord
  rw [dif_pos hb]
  exact gB_siCoord0 d hoff hivd _ _ _ (getElem_of_eq hsb (k' := 0) (by rw [hob]; rfl) _ (by simp))

/-- On the column axis it is the start index, read signed and clamped into `[0, K − 1]`. -/
theorem gB_coord1 (hoff : d.offsetDims = []) (hcoll : d.collapsedSliceDims = [1]) (hob : d.operandBatchingDims = [0])
    (hsim : d.startIndexMap = [1]) (hivd : d.indexVectorDim = 2) (idx : IVec ⟨3, ![n, 1, 1]⟩ w) (e : Fin n) :
    (d.operandIdx (ix2 e (0 : Fin 1)) idx 1).val = min (idx (ix3 e (0 : Fin 1) (0 : Fin 1))).toInt.toNat (K - 1) := by
  have hb : (1 : Fin 2) ∉ d.operandBatchingDims := by rw [hob]; simp
  have hk : (1 : Fin 2) ∉ d.sKept := by rw [GatherDims.mem_sKept, hcoll]; simp
  have hm : (1 : Fin 2) ∈ d.startIndexMap := by rw [hsim]; exact List.mem_singleton.mpr rfl
  have hsl : d.sliceSizes 1 = 1 := d.slice_collapsed 1 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gB_siIdx d hoff hsim hivd, hsl]
  rfl

end GatherBatched

/-- The batched gather read at row `e`. -/
theorem gather_batched {α : Type} {n K w : Nat} (d : GatherDims ⟨2, ![n, K]⟩ ⟨3, ![n, 1, 1]⟩ ⟨2, ![n, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![n, K]⟩ : Shape).Idx → α) (idx : IVec ⟨3, ![n, 1, 1]⟩ w) (e : Fin n) (hK : 0 < K) :
    Host.gather d x idx (ix2 e (0 : Fin 1))
      = x (ix2 e (⟨min (idx (ix3 e (0 : Fin 1) (0 : Fin 1))).toInt.toNat (K - 1), by omega⟩ : Fin K)) := by
  unfold Host.gather
  congr 1
  funext a
  apply Fin.ext
  match a with
  | ⟨0, _⟩ => exact gB_coord0 d hoff hob hsb hsim hivd idx e
  | ⟨1, _⟩ => exact gB_coord1 d hoff hcoll hob hsim hivd idx e

/-! ## The reference's stages, read at an index -/

open Cert.ReferenceIdeal.ReadP

section Stages
variable (x0 : (⟨S4096x10, .f32⟩ : BufTy).Contents (Elt Ideal))

/-- The scores by row and column. -/
abbrev lg : Fin 4096 → Fin 10 → EReal := fun b k => x0 (ix2 b k)

/-- The reduce by `max` over a row: the fold of `max` from the −∞ word over the row's ten columns. -/
theorem rowReduce_eq (b : Fin 4096) :
    Host.reduce (FloatOps.maximumf (F := Ideal) (φ := .f32)) x0 (val_main_call0_cst (F := Ideal))
        reducesTo_S4096x10_S4096_d1 h_S_ (ix1 b)
      = (Finset.univ : Finset (Fin 10)).fold max Cert.Spec.negInf (lg x0 b) := by
  refine (Host.reduce_eq_fold_single (FloatOps.maximumf (F := Ideal) (φ := .f32)) x0 (val_main_call0_cst (F := Ideal))
    reducesTo_S4096x10_S4096_d1 (by decide) h_S_ (ix1 b)).trans ?_
  show (Finset.univ : Finset (Fin 10)).fold max Cert.Spec.negInf _ = _
  congr 1
  funext k
  show x0 _ = x0 (ix2 b k)
  congr 1
  funext a
  apply Fin.ext
  match a with
  | ⟨0, _⟩ => rfl
  | ⟨1, _⟩ => rfl

/-- The row maximum: the further `max` with −∞ changes nothing. -/
theorem rowMax_eq (b : Fin 4096) : val_main_call0_v2 (F := Ideal) x0 (ix1 b) = Cert.Spec.rowMax (lg x0) b := by
  rw [val_main_call0_v2_apply, val_main_call0_v1_apply, val_main_call0_cst_0_apply]
  unfold val_main_call0_v0
  refine (congrArg (max Cert.Spec.negInf) (rowReduce_eq x0 b)).trans ?_
  exact max_fold_self _ _ _

/-- A score less its row's maximum. -/
theorem shifted_eq (b : Fin 4096) (k : Fin 10) :
    val_main_call0_v5 (F := Ideal) x0 (ix2 b k) = Cert.Spec.shifted (lg x0) b k := by
  rw [val_main_call0_v5_apply, val_main_call0_v4_apply, val_main_call0_v3_apply,
    show idx_main_call0_v3 (idx_main_call0_v4 (ix2 b k)) = ix1 b from
      funext fun a => Fin.ext (by match a with | ⟨0, _⟩ => rfl),
    rowMax_eq]
  rfl

/-- The sum over the row of the exponentials. -/
theorem sumExp_eq (b : Fin 4096) : val_main_call0_v7 (F := Ideal) x0 (ix1 b) = Cert.Spec.sumExp (lg x0) b := by
  rw [val_main_call0_v7_apply, val_main_call0_cst_1_apply]
  show Ideal.ofBits .f32 0x00000000#32 + _ = _
  rw [Ideal.ofBits_zero_f32, zero_add]
  unfold Cert.Spec.sumExp
  refine Finset.sum_congr rfl fun k _ => ?_
  rw [val_main_call0_v6_apply,
    show idx_main_call0_v7 (ix1 b) k = ix2 b k from
      funext fun a => Fin.ext (by match a with | ⟨0, _⟩ => rfl | ⟨1, _⟩ => rfl),
    shifted_eq]
  rfl

/-- The log-probability of column `k` in row `b`. -/
theorem logp_eq (b : Fin 4096) (k : Fin 10) : val_main_v0 (F := Ideal) x0 (ix2 b k) = Cert.Spec.logp (lg x0) b k := by
  rw [val_main_v0_apply, shifted_eq, val_main_call0_v10_apply, val_main_call0_v9_apply, val_main_call0_v8_apply,
    show idx_main_call0_v8 (idx_main_call0_v10 (ix2 b k)) = ix1 b from
      funext fun a => Fin.ext (by match a with | ⟨0, _⟩ => rfl),
    sumExp_eq]
  rfl

end Stages

section Words
open Idealize.ShloMosaic.StableHlo.Predicate

/-- A small number as a 32-bit word reads back as itself. -/
theorem toNat_small (n : ℕ) (hn : n < 2 ^ 31) : (BitVec.ofNat 32 n).toNat = n := by
  rw [BitVec.toNat_ofNat]; exact Nat.mod_eq_of_lt (by omega)

/-- A class or tissue number is not negative: normalising it changes nothing. -/
theorem norm_small (n : ℕ) (hn : n < 2 ^ 31) (c : BitVec 32) :
    Scalar.select (IntOp.cmpi .slt (BitVec.ofNat 32 n) 0#32) (IntOp.addi (BitVec.ofNat 32 n) c) (BitVec.ofNat 32 n)
      = BitVec.ofNat 32 n := by
  have h : ¬IntOp.cmpi .slt (BitVec.ofNat 32 n) 0#32 = 1#1 := by
    rw [slt_iff_toNat (by rw [toNat_small n hn]; exact hn) (by decide)]
    simp
  rw [eq_zero_of_ne_one h, select_zero]

/-- Such a number read signed, as a start index clamped into `[0, N − 1]`, is itself when below `N`. -/
theorem clamp_small (n N : ℕ) (hn : n < N) (hN : N < 2 ^ 31) : min (BitVec.ofNat 32 n).toInt.toNat (N - 1) = n := by
  rw [toInt_ofNat_small n (by omega), Int.toNat_natCast]
  omega

/-- A fold of `and` from 1 over words that are all 1 is 1. -/
theorem fold_andi_one {ι : Type} (s : Finset ι) (f : ι → BitVec 1) (hf : ∀ k ∈ s, f k = 1#1) :
    s.fold IntOp.andi 1#1 f = 1#1 := by
  classical
  induction s using Finset.induction_on with
  | empty => rfl
  | insert a s ha ih =>
    rw [Finset.fold_insert ha, hf a (Finset.mem_insert_self a s), ih fun k hk => hf k (Finset.mem_insert_of_mem hk)]
    decide

end Words

section Index
open Idealize.ShloMosaic.StableHlo.Predicate
variable (x0 : (⟨S4096x10, .f32⟩ : BufTy).Contents (Elt Ideal)) (x1 : (⟨S4096, .i32⟩ : BufTy).Contents (Elt Ideal))
variable (t : Fin 4096 → Fin 10) (ht : ∀ b : Fin 4096, x1 (ix1 b) = BitVec.ofNat 32 (t b).val)
include ht

/-- The normalised class column holds the class. -/
theorem cls_col_eq (b : Fin 4096) :
    val_main_call1_v4 (F := Ideal) x1 (ix2 b (0 : Fin 1)) = BitVec.ofNat 32 (t b).val := by
  rw [val_main_call1_v4_apply, val_main_call1_v1_apply, val_main_call1_v3_apply, val_main_v1_apply,
    val_main_call1_v0_apply, val_main_call1_c_apply,
    show idx_main_v1 (ix2 b (0 : Fin 1)) = ix1 b from funext fun a => Fin.ext (by match a with | ⟨0, _⟩ => rfl), ht]
  exact norm_small _ (by have := (t b).isLt; omega) _

/-- So do the start indices of the gather. -/
theorem cls_idx_eq (b : Fin 4096) :
    val_main_call1_v5 (F := Ideal) x1 (ix3 b (0 : Fin 1) (0 : Fin 1)) = BitVec.ofNat 32 (t b).val := by
  rw [val_main_call1_v5_apply,
    show idx_main_call1_v5 (ix3 b (0 : Fin 1) (0 : Fin 1)) = ix2 b (0 : Fin 1) from
      funext fun a => Fin.ext (by
        match a with
        | ⟨0, _⟩ => show ((b.val * 1 + 0) * 1 + 0) / 1 = b.val; omega
        | ⟨1, _⟩ => rfl)]
  exact cls_col_eq x1 t ht b

/-- The class is in range: the range test's bit is 1. -/
theorem inrange_eq (b : Fin 4096) : val_main_call1_v11 (F := Ideal) x1 (ix3 b (0 : Fin 1) (0 : Fin 1)) = 1#1 := by
  have hlt : (t b).val < 10 := (t b).isLt
  rw [val_main_call1_v11_apply, val_main_call1_v7_apply, val_main_call1_v10_apply, cls_idx_eq x1 t ht b,
    val_main_call1_v6_apply, val_main_call1_c_2_apply, val_main_call1_v9_apply, val_main_call1_v8_apply,
    val_main_call1_c_1_apply]
  have hge : IntOp.cmpi .sge (BitVec.ofNat 32 (t b).val) 0#32 = 1#1 :=
    (sge_iff_toNat (by rw [toNat_small _ (by omega)]; omega) (by decide)).mpr (by simp)
  have hle : IntOp.cmpi .sle (BitVec.ofNat 32 (t b).val) 9#32 = 1#1 :=
    (sle_iff_toNat (by rw [toNat_small _ (by omega)]; omega) (by decide)).mpr (by
      rw [toNat_small _ (by omega)]; show (t b).val ≤ 9; omega)
  rw [hge, hle]
  decide

/-- The mask: the range test reduced by `and` over its unit axis. -/
theorem mask_eq (b : Fin 4096) : val_main_call1_v12 (F := Ideal) x1 (ix2 b (0 : Fin 1)) = 1#1 := by
  unfold val_main_call1_v12
  refine (Host.reduce_eq_fold_single (IntOp.andi (w := 1)) (val_main_call1_v11 (F := Ideal) x1)
    (val_main_call1_c_3 (F := Ideal)) reducesTo_S4096x1x1_S4096x1_d2 (by decide) h_S_ (ix2 b (0 : Fin 1))).trans ?_
  rw [val_main_call1_c_3_apply]
  refine fold_andi_one _ _ fun k _ => ?_
  have hk : k.val < 1 := k.isLt
  refine Eq.trans (congrArg (val_main_call1_v11 (F := Ideal) x1) (funext fun a => Fin.ext ?_)) (inrange_eq x1 t ht b)
  match a with
  | ⟨0, _⟩ => rfl
  | ⟨1, _⟩ => rfl
  | ⟨2, _⟩ => show k.val = 0; omega

/-- The batched gather reads the log-probabilities of row `b` at the row's class. -/
theorem gathered_eq (b : Fin 4096) :
    val_main_call1_v13 (F := Ideal) x0 x1 (ix2 b (0 : Fin 1)) = val_main_v0 (F := Ideal) x0 (ix2 b (t b)) := by
  unfold val_main_call1_v13
  refine (gather_batched (w := 32) gather_S4096x10_S4096x1x1_S4096x1_n_1_0_0_1_2_11 rfl rfl rfl rfl rfl rfl
    (val_main_v0 (F := Ideal) x0) (val_main_call1_v5 (F := Ideal) x1) b (by decide)).trans ?_
  congr 1
  funext a
  apply Fin.ext
  match a with
  | ⟨0, _⟩ => rfl
  | ⟨1, _⟩ =>
    show min (val_main_call1_v5 (F := Ideal) x1 (ix3 b (0 : Fin 1) (0 : Fin 1))).toInt.toNat (10 - 1) = (t b).val
    rw [cls_idx_eq x1 t ht b]
    exact clamp_small _ 10 (t b).isLt (by decide)

/-- The row's log-probability of its own class, as the reference reads it. -/
theorem lp_eq (b : Fin 4096) : val_main_v3 (F := Ideal) x0 x1 (ix1 b) = Cert.Spec.logp (lg x0) b (t b) := by
  rw [val_main_v3_apply,
    show idx_main_v3 (ix1 b) = ix2 b (0 : Fin 1) from
      funext fun a => Fin.ext (by
        match a with
        | ⟨0, _⟩ => show b.val / 1 = b.val; omega
        | ⟨1, _⟩ => rfl),
    val_main_v2_apply, mask_eq x1 t ht b, select_one, gathered_eq x0 x1 t ht b, logp_eq]

end Index

section Weights
open Idealize.ShloMosaic.StableHlo.Predicate
variable (x1 x5 : (⟨S4096, .i32⟩ : BufTy).Contents (Elt Ideal))
variable (x6 : (⟨S10, .f32⟩ : BufTy).Contents (Elt Ideal)) (x7 : (⟨S5, .f32⟩ : BufTy).Contents (Elt Ideal))
variable (t : Fin 4096 → Fin 10) (s : Fin 4096 → Fin 5)

/-- The rank-1 index at a coordinate, in the two spellings. -/
theorem ix1_eq_ofFin {n : Nat} (p : Fin n) : (ix1 p : (⟨1, ![n]⟩ : Shape).Idx) = Shape.Idx.ofFin p :=
  funext fun a => Fin.ext (by match a with | ⟨0, _⟩ => rfl)

/-- The normalised class column the class weights are taken along holds the class. -/
theorem cwcol_eq (ht : ∀ b : Fin 4096, x1 (ix1 b) = BitVec.ofNat 32 (t b).val) (b : Fin 4096) :
    val_main_v14 (F := Ideal) x1 (ixP b) = BitVec.ofNat 32 (t b).val := by
  rw [val_main_v14_apply,
    show idx_main_v14 (ixP b) = ix1 b from funext fun a => Fin.ext (by match a with | ⟨0, _⟩ => rfl),
    val_main_v13_apply, val_main_v10_apply, val_main_v12_apply, val_main_v9_apply, val_main_c_apply, ht]
  exact norm_small _ (by have := (t b).isLt; omega) _

/-- The class weight taken at row `b` is the weight of the row's class. -/
theorem cw_eq (ht : ∀ b : Fin 4096, x1 (ix1 b) = BitVec.ofNat 32 (t b).val) (b : Fin 4096) :
    val_main_v15 (F := Ideal) x1 x6 (ix1 b) = x6 (ix1 (t b)) := by
  unfold val_main_v15
  rw [ix1_eq_ofFin b, ix1_eq_ofFin (t b)]
  refine (gather_take (w := 32) gather_S10_S4096x1_S4096_n_0_n_n_0_1_1 rfl rfl rfl rfl x6
    (val_main_v14 (F := Ideal) x1) b (by decide)).trans ?_
  congr 1
  funext a
  apply Fin.ext
  match a with
  | ⟨0, _⟩ =>
    show min (val_main_v14 (F := Ideal) x1 (ixP b)).toInt.toNat (10 - 1) = (t b).val
    rw [cwcol_eq x1 t ht b]
    exact clamp_small _ 10 (t b).isLt (by decide)

/-- The normalised tissue column holds the tissue. -/
theorem twcol_eq (hs : ∀ b : Fin 4096, x5 (ix1 b) = BitVec.ofNat 32 (s b).val) (b : Fin 4096) :
    val_main_v22 (F := Ideal) x5 (ixP b) = BitVec.ofNat 32 (s b).val := by
  rw [val_main_v22_apply,
    show idx_main_v22 (ixP b) = ix1 b from funext fun a => Fin.ext (by match a with | ⟨0, _⟩ => rfl),
    val_main_v21_apply, val_main_v18_apply, val_main_v20_apply, val_main_v17_apply, val_main_c_2_apply, hs]
  exact norm_small _ (by have := (s b).isLt; omega) _

/-- The tissue weight taken at row `b` is the weight of the row's tissue. -/
theorem tw_eq (hs : ∀ b : Fin 4096, x5 (ix1 b) = BitVec.ofNat 32 (s b).val) (b : Fin 4096) :
    val_main_v23 (F := Ideal) x5 x7 (ix1 b) = x7 (ix1 (s b)) := by
  unfold val_main_v23
  rw [ix1_eq_ofFin b, ix1_eq_ofFin (s b)]
  refine (gather_take (w := 32) gather_S5_S4096x1_S4096_n_0_n_n_0_1_1 rfl rfl rfl rfl x7
    (val_main_v22 (F := Ideal) x5) b (by decide)).trans ?_
  congr 1
  funext a
  apply Fin.ext
  match a with
  | ⟨0, _⟩ =>
    show min (val_main_v22 (F := Ideal) x5 (ixP b)).toInt.toNat (5 - 1) = (s b).val
    rw [twcol_eq x5 s hs b]
    exact clamp_small _ 5 (s b).isLt (by decide)

end Weights

section Loss
variable (x0 : (⟨S4096x10, .f32⟩ : BufTy).Contents (Elt Ideal)) (x1 x5 : (⟨S4096, .i32⟩ : BufTy).Contents (Elt Ideal))
variable (x6 : (⟨S10, .f32⟩ : BufTy).Contents (Elt Ideal)) (x7 : (⟨S5, .f32⟩ : BufTy).Contents (Elt Ideal))
variable (t : Fin 4096 → Fin 10) (s : Fin 4096 → Fin 5)
variable (ht : ∀ b : Fin 4096, x1 (ix1 b) = BitVec.ofNat 32 (t b).val)
variable (hs : ∀ b : Fin 4096, x5 (ix1 b) = BitVec.ofNat 32 (s b).val)
variable (hfin : ∀ (b : Fin 4096) (k : Fin 10), ∃ r : ℝ, x0 (ix2 b k) = (r : EReal))
include ht hs hfin

/-- Row `b`'s term: with the log-probability real, the power with exponent 2 of `1 − p` is its square. -/
theorem row_eq (b : Fin 4096) :
    val_main_v26 (F := Ideal) x0 x1 x5 x6 x7 (ix1 b)
      = Cert.Spec.rowLoss (lg x0) t s (fun k => x6 (ix1 k)) (fun k => x7 (ix1 k)) b := by
  rw [val_main_v26_apply, val_main_v25_apply, val_main_v24_apply, val_main_v16_apply, val_main_v8_apply,
    val_main_v6_apply, val_main_v4_apply, lp_eq x0 x1 t ht b, val_main_v5_apply, val_main_cst_apply,
    val_main_v7_apply, val_main_cst_0_apply, cw_eq x1 x6 t ht b, tw_eq x5 x7 s hs b]
  show -((Ideal.pow (Cert.Spec.one - Ideal.exp (Cert.Spec.logp (lg x0) b (t b))) (Ideal.ofBits .f32 0x40000000#32)
      * x6 (ix1 (t b))) * x7 (ix1 (s b))) * Cert.Spec.logp (lg x0) b (t b) = _
  rw [Cert.Spec.pow_two_eq_sq _ (Cert.Spec.logp_real (lg x0) hfin b (t b))]
  rfl

/-- The loss: the rows' terms summed from the zero word, divided by the word for the number of rows. -/
theorem loss_eq :
    val_main_v28 (F := Ideal) x0 x1 x5 x6 x7
      = fun _ => Cert.Spec.focal (lg x0) t s (fun k => x6 (ix1 k)) (fun k => x7 (ix1 k)) := by
  funext i
  rw [val_main_v28_apply, val_main_v27_apply, val_main_cst_4_apply, val_main_cst_5_apply]
  show Ideal.div (Ideal.ofBits .f32 0x00000000#32 + ∑ j : S4096.Idx, val_main_v26 (F := Ideal) x0 x1 x5 x6 x7 j)
      Cert.Spec.nRows = _
  rw [Ideal.ofBits_zero_f32, zero_add, sum_idx1]
  unfold Cert.Spec.focal
  congr 1
  exact Finset.sum_congr rfl fun b _ => row_eq x0 x1 x5 x6 x7 t s ht hs hfin b

end Loss

variable (m : (ℓ : Loc nD τ sig) → Buf (Elt Ideal) ℓ) (c : Dev nD)

/-- The loss the reference returns. -/
theorem res_out1_eq (t : Fin 4096 → Fin 10) (s : Fin 4096 → Fin 5)
    (ht : ∀ b : Fin 4096, m ((c.tc : Thread nD τ).loc main_arg1) (ix1 b) = BitVec.ofNat 32 (t b).val)
    (hs : ∀ b : Fin 4096, m ((c.tc : Thread nD τ).loc main_arg5) (ix1 b) = BitVec.ofNat 32 (s b).val)
    (hfin : ∀ (b : Fin 4096) (k : Fin 10), ∃ r : ℝ, m ((c.tc : Thread nD τ).loc main_arg0) (ix2 b k) = (r : EReal)) :
    Cert.ReferenceIdeal.ValueP.res_out1 (F := Ideal) m c
      = fun _ => Cert.Spec.focal (fun b k => m ((c.tc : Thread nD τ).loc main_arg0) (ix2 b k)) t s
          (fun k => m ((c.tc : Thread nD τ).loc main_arg6) (ix1 k)) (fun k => m ((c.tc : Thread nD τ).loc main_arg7) (ix1 k)) := by
  show Cert.ReferenceIdeal.ValueP.res_main_v28 m c = _
  rw [ReadP.val_main_v28_eq]
  exact loss_eq (m ((c.tc : Thread nD τ).loc main_arg0)) (m ((c.tc : Thread nD τ).loc main_arg1))
    (m ((c.tc : Thread nD τ).loc main_arg5)) (m ((c.tc : Thread nD τ).loc main_arg6))
    (m ((c.tc : Thread nD τ).loc main_arg7)) t s ht hs hfin

end Cert.ReferenceIdeal.RefFocal

end
-- ==== Proof.RefSpatial.lean ====
import proofs.«419550_j77738908057987_3_alg».proof.Proof.RefReadP
import proofs.«419550_j77738908057987_3_alg».proof.Proof.Spec
import proofs.«419550_j77738908057987_3_alg».proof.Proof.LibScatterRows
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.PureOps.Ideal.Laws
import Idealize.ShloMosaic.Lib.ValueIdxRank1
import Idealize.ShloMosaic.Lib.WordArith

/-!
# The reference's penalty is the specification's

The reference reads the features and the positions at every edge's two endpoints (plain reads, which clamp), keeps
the product of two features where both are above zero and zero elsewhere, sums it over the features, multiplies by
the squared distance, sums over the edges, multiplies by the weight and divides by the number of edges. A product
kept only where both factors are positive is the product of the factors cut off below at zero, on every extended
real; where the endpoints are in range the reads are the plain ones: the result is the specification's penalty.
-/

open scoped BigOperators

noncomputable section

namespace Cert.ReferenceIdeal.RefSpatial

open Cert.ReferenceIdeal Cert.ReferenceIdeal.Gen Idealize.ShloMosaic Idealize.ShloMosaic.TcCoe Idealize.SL.Sem
open Idealize.ShloMosaic.ValueIdx Idealize.ShloMosaic.StableHlo.Predicate

/-! ## Words and extended reals -/

/-- A small non-negative word is not signed-below zero. -/
theorem slt_zero_of_small (n : Nat) (hn : n < 2 ^ 31) : IntOp.cmpi .slt (BitVec.ofNat 32 n) 0#32 = 0#1 := by
  have h : ¬ (IntOp.cmpi .slt (BitVec.ofNat 32 n) 0#32 = 1#1) := by
    intro h1
    have h2 : n < 0 := (slt_ofNat_iff n 0 hn (by norm_num)).1 h1
    omega
  rcases BitVec.eq_zero_or_eq_one (IntOp.cmpi .slt (BitVec.ofNat 32 n) 0#32) with h0 | h1
  · exact h0
  · exact absurd h1 h

/-- Normalising a small non-negative word (adding the extent where it is negative) leaves it alone. -/
theorem norm_word (n : Nat) (hn : n < 2 ^ 31) (alt : BitVec 32) :
    Scalar.select (IntOp.cmpi .slt (BitVec.ofNat 32 n) 0#32) alt (BitVec.ofNat 32 n) = BitVec.ofNat 32 n := by
  rw [slt_zero_of_small n hn, select_zero]

/-- A product kept where both factors are above zero, and zero elsewhere, is the product of the factors cut off
    below at zero, on every extended real: where a factor is not above zero its cut-off is zero. -/
theorem masked_mul (a b : EReal) :
    Scalar.select (IntOp.andi (Ideal.cmp .ogt a 0) (Ideal.cmp .ogt b 0)) (a * b) (0 : EReal) = max a 0 * max b 0 := by
  show Scalar.select (IntOp.andi (BitVec.ofBool (decide (0 < a))) (BitVec.ofBool (decide (0 < b)))) (a * b) 0 = _
  rw [WordArith.andi_ofBool]
  by_cases ha : 0 < a
  · by_cases hb : 0 < b
    · have hd : (decide (0 < a) && decide (0 < b)) = true := by simp [ha, hb]
      rw [hd]
      show Scalar.select 1#1 _ _ = _
      rw [select_one, max_eq_left ha.le, max_eq_left hb.le]
    · have hd : (decide (0 < a) && decide (0 < b)) = false := by simp [hb]
      rw [hd]
      show Scalar.select 0#1 _ _ = _
      rw [select_zero, max_eq_right (not_lt.1 hb), mul_zero]
  · have hd : (decide (0 < a) && decide (0 < b)) = false := by simp [ha]
    rw [hd]
    show Scalar.select 0#1 _ _ = _
    rw [select_zero, max_eq_right (not_lt.1 ha), zero_mul]

/-- A gather of rows along a column whose entry at e is the word of an in-range row number r reads row r:
    the clamp into the operand is the identity there. -/
theorem gathered_row {α : Type} {D : Nat} (d : GatherDims ⟨2, ![50000, D]⟩ ⟨2, ![1600000, 1]⟩ ⟨2, ![1600000, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![50000, D]⟩ : Shape).Idx → α) (idx : IVec ⟨2, ![1600000, 1]⟩ 32) (e : Fin 1600000) (q : Fin D)
    (r : Fin 50000) (hr : idx (ixP e) = BitVec.ofNat 32 r.val) :
    Host.gather d x idx (ix2 e q) = x (ix2 r q) := by
  rw [Cert.ScatterRows.gather_rows d hoff hcoll hob hsim hivd hss x idx e q (by norm_num)]
  have hrow : (⟨min (idx (ixP e)).toInt.toNat (50000 - 1), by omega⟩ : Fin 50000) = r := by
    apply Fin.ext
    show min (idx (ixP e)).toInt.toNat (50000 - 1) = r.val
    rw [hr, toInt_ofNat_small r.val (by have := r.isLt; omega)]
    have := r.isLt
    simp only [Int.toNat_natCast]
    omega
  rw [hrow]

/-! ## The stages of the penalty, each read at an index -/

section Stages

open Cert.ReferenceIdeal.ReadP

variable (x2 : (⟨S50000x32, .f32⟩ : BufTy).Contents (Elt Ideal)) (x3 : (⟨S50000x2, .f32⟩ : BufTy).Contents (Elt Ideal))
  (x4 : (⟨S2x1600000, .i32⟩ : BufTy).Contents (Elt Ideal))

/-- The zero word is zero. -/
theorem zero_word : FloatOps.ofBits (F := Ideal) .f32 0x00000000#32 = (0 : EReal) := Ideal.ofBits_zero_f32

/-- Row 0 of the edge list, as a vector, at e. -/
theorem src_at (e : Fin 1600000) : val_main_v30 (F := Ideal) x4 (ix1 e) = x4 (ix2 0 e) := by
  rw [val_main_v30_apply, val_main_v29_apply]
  refine congrArg x4 (funext fun a => Fin.ext ?_)
  match a with
  | ⟨0, _⟩ => rfl
  | ⟨1, _⟩ => exact (Nat.mod_eq_of_lt e.isLt : e.val % 1600000 = e.val)

/-- Row 1 of the edge list, as a vector, at e. -/
theorem dst_at (e : Fin 1600000) : val_main_v32 (F := Ideal) x4 (ix1 e) = x4 (ix2 1 e) := by
  rw [val_main_v32_apply, val_main_v31_apply]
  refine congrArg x4 (funext fun a => Fin.ext ?_)
  match a with
  | ⟨0, _⟩ => rfl
  | ⟨1, _⟩ => exact (Nat.mod_eq_of_lt e.isLt : e.val % 1600000 = e.val)

/-- The four normalised index columns: where the edge list holds the word of an in-range node, so does the column. -/
theorem col38_at (e : Fin 1600000) (r : Fin 50000) (h : x4 (ix2 0 e) = BitVec.ofNat 32 r.val) :
    val_main_v38 (F := Ideal) x4 (ixP e) = BitVec.ofNat 32 r.val := by
  have hi : idx_main_v38 (ixP e) = ix1 e := funext fun a => Fin.ext (by match a with | ⟨0, _⟩ => rfl)
  rewrite [val_main_v38_apply, hi, val_main_v37_apply, val_main_v34_apply,
    val_main_v33_apply, val_main_c_6_apply, src_at, h]
  exact norm_word r.val (by have := r.isLt; omega) _

theorem col45_at (e : Fin 1600000) (r : Fin 50000) (h : x4 (ix2 1 e) = BitVec.ofNat 32 r.val) :
    val_main_v45 (F := Ideal) x4 (ixP e) = BitVec.ofNat 32 r.val := by
  have hi : idx_main_v45 (ixP e) = ix1 e := funext fun a => Fin.ext (by match a with | ⟨0, _⟩ => rfl)
  rewrite [val_main_v45_apply, hi, val_main_v44_apply, val_main_v41_apply,
    val_main_v40_apply, val_main_c_8_apply, dst_at, h]
  exact norm_word r.val (by have := r.isLt; omega) _

theorem col55_at (e : Fin 1600000) (r : Fin 50000) (h : x4 (ix2 0 e) = BitVec.ofNat 32 r.val) :
    val_main_v55 (F := Ideal) x4 (ixP e) = BitVec.ofNat 32 r.val := by
  have hi : idx_main_v55 (ixP e) = ix1 e := funext fun a => Fin.ext (by match a with | ⟨0, _⟩ => rfl)
  rewrite [val_main_v55_apply, hi, val_main_v54_apply, val_main_v51_apply,
    val_main_v50_apply, val_main_c_11_apply, src_at, h]
  exact norm_word r.val (by have := r.isLt; omega) _

theorem col62_at (e : Fin 1600000) (r : Fin 50000) (h : x4 (ix2 1 e) = BitVec.ofNat 32 r.val) :
    val_main_v62 (F := Ideal) x4 (ixP e) = BitVec.ofNat 32 r.val := by
  have hi : idx_main_v62 (ixP e) = ix1 e := funext fun a => Fin.ext (by match a with | ⟨0, _⟩ => rfl)
  rewrite [val_main_v62_apply, hi, val_main_v61_apply, val_main_v58_apply,
    val_main_v57_apply, val_main_c_13_apply, dst_at, h]
  exact norm_word r.val (by have := r.isLt; omega) _

/-- The positions read at the edge's first endpoint. -/
theorem v39_at (e : Fin 1600000) (a : Fin 2) (r : Fin 50000) (h : x4 (ix2 0 e) = BitVec.ofNat 32 r.val) :
    val_main_v39 (F := Ideal) x3 x4 (ix2 e a) = x3 (ix2 r a) := by
  unfold val_main_v39
  exact gathered_row _ rfl rfl rfl rfl rfl rfl x3 _ e a r (col38_at x4 e r h)

/-- The positions read at the edge's second endpoint. -/
theorem v46_at (e : Fin 1600000) (a : Fin 2) (r : Fin 50000) (h : x4 (ix2 1 e) = BitVec.ofNat 32 r.val) :
    val_main_v46 (F := Ideal) x3 x4 (ix2 e a) = x3 (ix2 r a) := by
  unfold val_main_v46
  exact gathered_row _ rfl rfl rfl rfl rfl rfl x3 _ e a r (col45_at x4 e r h)

/-- The features read at the edge's first endpoint. -/
theorem v56_at (e : Fin 1600000) (k : Fin 32) (r : Fin 50000) (h : x4 (ix2 0 e) = BitVec.ofNat 32 r.val) :
    val_main_v56 (F := Ideal) x2 x4 (ix2 e k) = x2 (ix2 r k) := by
  unfold val_main_v56
  exact gathered_row _ rfl rfl rfl rfl rfl rfl x2 _ e k r (col55_at x4 e r h)

/-- The features read at the edge's second endpoint. -/
theorem v63_at (e : Fin 1600000) (k : Fin 32) (r : Fin 50000) (h : x4 (ix2 1 e) = BitVec.ofNat 32 r.val) :
    val_main_v63 (F := Ideal) x2 x4 (ix2 e k) = x2 (ix2 r k) := by
  unfold val_main_v63
  exact gathered_row _ rfl rfl rfl rfl rfl rfl x2 _ e k r (col62_at x4 e r h)

/-- The masked product of the two endpoints' feature k is the product of the cut-off features. -/
theorem v70_at (e : Fin 1600000) (k : Fin 32) (r0 r1 : Fin 50000) (h0 : x4 (ix2 0 e) = BitVec.ofNat 32 r0.val)
    (h1 : x4 (ix2 1 e) = BitVec.ofNat 32 r1.val) :
    val_main_v70 (F := Ideal) x2 x4 (ix2 e k) = max (x2 (ix2 r0 k)) 0 * max (x2 (ix2 r1 k)) 0 := by
  rewrite [val_main_v70_apply, val_main_v68_apply, val_main_v65_apply, val_main_v67_apply, val_main_v69_apply,
    val_main_call2_v1_apply, val_main_call2_v0_apply, val_main_cst_17_apply, val_main_v64_apply, val_main_cst_15_apply,
    val_main_v66_apply, val_main_cst_16_apply, v56_at x2 x4 e k r0 h0, v63_at x2 x4 e k r1 h1, zero_word]
  exact masked_mul _ _

/-- The overlap of the two endpoints' features. -/
theorem v71_at (e : Fin 1600000) (r0 r1 : Fin 50000) (h0 : x4 (ix2 0 e) = BitVec.ofNat 32 r0.val)
    (h1 : x4 (ix2 1 e) = BitVec.ofNat 32 r1.val) :
    val_main_v71 (F := Ideal) x2 x4 (ix1 e) = ∑ k : Fin 32, max (x2 (ix2 r0 k)) 0 * max (x2 (ix2 r1 k)) 0 := by
  rw [val_main_v71_apply, val_main_cst_18_apply, zero_word, zero_add]
  refine Finset.sum_congr rfl fun k _ => ?_
  have hi : idx_main_v71 (ix1 e) k = ix2 e k :=
    funext fun a => Fin.ext (by match a with | ⟨0, _⟩ => rfl | ⟨1, _⟩ => rfl)
  rw [hi]
  exact v70_at x2 x4 e k r0 r1 h0 h1

/-- The squared distance of the two endpoints' positions. -/
theorem v49_at (e : Fin 1600000) (r0 r1 : Fin 50000) (h0 : x4 (ix2 0 e) = BitVec.ofNat 32 r0.val)
    (h1 : x4 (ix2 1 e) = BitVec.ofNat 32 r1.val) :
    val_main_v49 (F := Ideal) x3 x4 (ix1 e)
      = ∑ a : Fin 2, (x3 (ix2 r0 a) - x3 (ix2 r1 a)) * (x3 (ix2 r0 a) - x3 (ix2 r1 a)) := by
  rw [val_main_v49_apply, val_main_cst_10_apply, zero_word, zero_add]
  refine Finset.sum_congr rfl fun a _ => ?_
  have hi : idx_main_v49 (ix1 e) a = ix2 e a :=
    funext fun b => Fin.ext (by match b with | ⟨0, _⟩ => rfl | ⟨1, _⟩ => rfl)
  rewrite [hi, val_main_v48_apply, val_main_v47_apply, v39_at x3 x4 e a r0 h0, v46_at x3 x4 e a r1 h1]
  rfl

/-- The sum over the edges of overlap times squared distance. -/
theorem v73_at (E0 E1 : Fin 1600000 → Fin 50000)
    (he0 : ∀ e : Fin 1600000, x4 (ix2 0 e) = BitVec.ofNat 32 (E0 e).val)
    (he1 : ∀ e : Fin 1600000, x4 (ix2 1 e) = BitVec.ofNat 32 (E1 e).val) (i : S_.Idx) :
    val_main_v73 (F := Ideal) x2 x3 x4 i
      = Cert.Spec.spatialSum (fun i k => x2 (ix2 i k)) (fun i a => x3 (ix2 i a)) E0 E1 := by
  rw [val_main_v73_apply, val_main_cst_19_apply, zero_word, zero_add]
  refine (Equiv.sum_comp (idxEquiv1 (n := 1600000)).symm _).symm.trans ?_
  unfold Cert.Spec.spatialSum
  refine Finset.sum_congr rfl fun e _ => ?_
  show val_main_v72 (F := Ideal) x2 x3 x4 (ix1 e) = _
  rewrite [val_main_v72_apply, v71_at x2 x4 e (E0 e) (E1 e) (he0 e) (he1 e), v49_at x3 x4 e (E0 e) (E1 e) (he0 e) (he1 e)]
  rfl

/-- The penalty: the weight times that sum, divided by the number of edges. -/
theorem v75_at (E0 E1 : Fin 1600000 → Fin 50000)
    (he0 : ∀ e : Fin 1600000, x4 (ix2 0 e) = BitVec.ofNat 32 (E0 e).val)
    (he1 : ∀ e : Fin 1600000, x4 (ix2 1 e) = BitVec.ofNat 32 (E1 e).val) (i : S_.Idx) :
    val_main_v75 (F := Ideal) x2 x3 x4 i
      = Cert.Spec.spatial (fun i k => x2 (ix2 i k)) (fun i a => x3 (ix2 i a)) E0 E1 := by
  rewrite [val_main_v75_apply, val_main_v74_apply, val_main_cst_20_apply, val_main_cst_21_apply,
    v73_at x2 x3 x4 E0 E1 he0 he1 i]
  rfl

end Stages

variable (m : (ℓ : Loc nD τ sig) → Buf (Elt Ideal) ℓ) (c : Dev nD)

/-- The penalty the reference returns. -/
theorem res_out2_eq (E0 E1 : Fin 1600000 → Fin 50000)
    (he0 : ∀ e : Fin 1600000, m ((c.tc : Thread nD τ).loc main_arg4) (ix2 0 e) = BitVec.ofNat 32 (E0 e).val)
    (he1 : ∀ e : Fin 1600000, m ((c.tc : Thread nD τ).loc main_arg4) (ix2 1 e) = BitVec.ofNat 32 (E1 e).val) :
    Cert.ReferenceIdeal.ValueP.res_out2 (F := Ideal) m c
      = fun _ => Cert.Spec.spatial (fun i k => m ((c.tc : Thread nD τ).loc main_arg2) (ix2 i k))
          (fun i a => m ((c.tc : Thread nD τ).loc main_arg3) (ix2 i a)) E0 E1 := by
  funext i
  show Cert.ReferenceIdeal.ValueP.res_main_v75 (F := Ideal) m c i = _
  rw [ReadP.val_main_v75_eq]
  exact v75_at (m ((c.tc : Thread nD τ).loc main_arg2)) (m ((c.tc : Thread nD τ).loc main_arg3))
    (m ((c.tc : Thread nD τ).loc main_arg4)) E0 E1 he0 he1 i

end Cert.ReferenceIdeal.RefSpatial

end
-- ==== Proof.RefTotal.lean ====
import proofs.«419550_j77738908057987_3_alg».proof.Proof.RefFocal
import proofs.«419550_j77738908057987_3_alg».proof.Proof.RefSpatial

/-!
# The reference's total is the specification's

The reference's last operation adds its loss and its penalty, so the total it returns is the specification's
total once the loss and the penalty are the specification's.
-/

noncomputable section

namespace Cert.ReferenceIdeal.RefTotal

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ) (c : Dev nD)

/-- The total the reference returns. -/
theorem res_out0_eq (t : Fin 4096 → Fin 10) (s : Fin 4096 → Fin 5) (E0 E1 : Fin 1600000 → Fin 50000)
    (ht : ∀ b : Fin 4096, m ((c.tc : Thread nD τ).loc main_arg1) (ix1 b) = BitVec.ofNat 32 (t b).val)
    (hs : ∀ b : Fin 4096, m ((c.tc : Thread nD τ).loc main_arg5) (ix1 b) = BitVec.ofNat 32 (s b).val)
    (hfin : ∀ (b : Fin 4096) (k : Fin 10), ∃ r : ℝ, m ((c.tc : Thread nD τ).loc main_arg0) (ix2 b k) = (r : EReal))
    (he0 : ∀ e : Fin 1600000, m ((c.tc : Thread nD τ).loc main_arg4) (ix2 0 e) = BitVec.ofNat 32 (E0 e).val)
    (he1 : ∀ e : Fin 1600000, m ((c.tc : Thread nD τ).loc main_arg4) (ix2 1 e) = BitVec.ofNat 32 (E1 e).val) :
    Cert.ReferenceIdeal.ValueP.res_out0 (F := Ideal) m c
      = fun _ => Cert.Spec.total (fun b k => m ((c.tc : Thread nD τ).loc main_arg0) (ix2 b k)) t s
          (fun k => m ((c.tc : Thread nD τ).loc main_arg6) (ix1 k)) (fun k => m ((c.tc : Thread nD τ).loc main_arg7) (ix1 k))
          (fun i k => m ((c.tc : Thread nD τ).loc main_arg2) (ix2 i k))
          (fun i a => m ((c.tc : Thread nD τ).loc main_arg3) (ix2 i a)) E0 E1 := by
  have h1 : Cert.ReferenceIdeal.ValueP.res_main_v28 (F := Ideal) m c = _ := RefFocal.res_out1_eq m c t s ht hs hfin
  have h2 : Cert.ReferenceIdeal.ValueP.res_main_v75 (F := Ideal) m c = _ := RefSpatial.res_out2_eq m c E0 E1 he0 he1
  show Cert.ReferenceIdeal.ValueP.res_main_v76 (F := Ideal) m c = _
  rw [Cert.ReferenceIdeal.ReadP.val_main_v76_eq]
  unfold Cert.ReferenceIdeal.ReadP.val_main_v76
  rw [← Cert.ReferenceIdeal.ReadP.val_main_v28_eq, ← Cert.ReferenceIdeal.ReadP.val_main_v75_eq, h1, h2]
  rfl

end Cert.ReferenceIdeal.RefTotal

end
-- ==== Proof.PreDecode.lean ====
import proofs.«419550_j77738908057987_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

/-!
# What the precondition says, entry by entry

The precondition is one bit: every score, feature, position and weight is finite, every class is in 0 … 9, every
tissue in 0 … 4 and every edge endpoint in 0 … 49999. Read at Ideal and decoded: every score is a real number,
and the classes, tissues and endpoints are given by functions into the finite index ranges.
-/

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-! ## The three element facts -/

/-- The pattern with all exponent bits set and no fraction bit is +∞. -/
theorem inf_bits : Ideal.ofBits .f32 0x7F800000#32 = (⊤ : EReal) := by
  simp [Ideal.ofBits, Ideal.ieee]

/-- An extended real whose absolute value max a (-a) is strictly below +∞ is a real number: at ⊥ and at ⊤ the
    absolute value is ⊤, which is not below itself. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- A word that is signed-at-least 0 and signed-below a small n has value below n: the first comparison
    puts it in the lower half, where the signed and unsigned readings agree. -/
theorem toNat_lt_of_range (a : BitVec 32) (n : Nat) (hn : n < 2 ^ 31)
    (h1 : IntOp.cmpi .sge a 0#32 = 1#1) (h2 : IntOp.cmpi .slt a (BitVec.ofNat 32 n) = 1#1) : a.toNat < n := by
  have h1' := IntOp.cmpi_sge.1 h1
  have h2' := IntOp.cmpi_slt.1 h2
  rw [StableHlo.Predicate.toInt_ofNat_small n hn] at h2'
  have h0 : (0#32 : BitVec 32).toInt = 0 := by decide
  rw [h0] at h1'
  have hc := BitVec.toInt_eq_toNat_cond a
  have hl := a.isLt
  omega

/-! ## The masks read at an element -/

/-- The finiteness mask |x| < +∞ (the bound a broadcast scalar constant) set at i: x i is a real number. -/
theorem finite_at {s : Shape} (x : FVec Ideal s .f32) (hb : S_.BroadcastsInDim s ![]) (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [inf_bits] at h'
  exact real_of_abs_lt_top _ h'

/-- The range mask 0 ≤ x < n (both bounds broadcast scalar constants) set at i: the word x i has value below n. -/
theorem range_at {s : Shape} (x : IVec s 32) (hb : S_.BroadcastsInDim s ![]) (n : Nat) (hn : n < 2 ^ 31) (i : s.Idx)
    (h : andi (cmpi .sge x (broadcastInDim s ![] hb (constantI S_ 32 0#32)))
      (cmpi .slt x (broadcastInDim s ![] hb (constantI S_ 32 (BitVec.ofNat 32 n)))) i = 1#1) : (x i).toNat < n := by
  have h' : IntOp.andi (IntOp.cmpi .sge (x i) 0#32) (IntOp.cmpi .slt (x i) (BitVec.ofNat 32 n)) = 1#1 := h
  obtain ⟨h1, h2⟩ := IntOp.andi_eq_one.1 h'
  exact toNat_lt_of_range _ n hn h1 h2

/-- A word is the word of its own value. -/
theorem eq_ofNat_toNat (a : BitVec 32) : a = BitVec.ofNat 32 a.toNat := by
  rw [BitVec.ofNat_toNat, BitVec.setWidth_eq]

/-! ## The decoding -/

theorem decode (x0 : FVec Ideal S4096x10 .f32) (x1 : IVec S4096 32) (x2 : FVec Ideal S50000x32 .f32)
    (x3 : FVec Ideal S50000x2 .f32) (x4 : IVec S2x1600000 32) (x5 : IVec S4096 32) (x6 : FVec Ideal S10 .f32)
    (x7 : FVec Ideal S5 .f32)
    (h : Cert.Pre_finite_inputs.fn (F := Ideal) x0 x1 x2 x3 x4 x5 x6 x7 = fun _ => 1#1) :
    (∀ (b : Fin 4096) (k : Fin 10), ∃ r : ℝ, x0 (ix2 b k) = (r : EReal))
    ∧ (∃ t : Fin 4096 → Fin 10, ∀ b : Fin 4096, x1 (ix1 b) = BitVec.ofNat 32 (t b).val)
    ∧ (∃ s : Fin 4096 → Fin 5, ∀ b : Fin 4096, x5 (ix1 b) = BitVec.ofNat 32 (s b).val)
    ∧ (∃ E0 E1 : Fin 1600000 → Fin 50000,
        (∀ e : Fin 1600000, x4 (ix2 0 e) = BitVec.ofNat 32 (E0 e).val)
        ∧ (∀ e : Fin 1600000, x4 (ix2 1 e) = BitVec.ofNat 32 (E1 e).val)) := by
  -- the one bit, read at the scalar shape's index, is a conjunction of eight bits
  have h0 := congrFun h ix0
  dsimp only [fn, fn_part1, fn_part2] at h0
  have andi_at : ∀ X Y : IVec S_ 1, andi X Y ix0 = IntOp.andi (X ix0) (Y ix0) := fun _ _ => rfl
  simp only [andi_at, IntOp.andi_eq_one] at h0
  obtain ⟨⟨⟨⟨⟨⟨⟨hx0, -⟩, -⟩, -⟩, -⟩, hx1⟩, hx5⟩, hx4⟩ := h0
  -- each of them is an and-reduction over all of a mask: the mask is set everywhere
  have m0 := Host.reduce_andi_all _ _ _ _ _ hx0
  have m1 := Host.reduce_andi_all _ _ _ _ _ hx1
  have m5 := Host.reduce_andi_all _ _ _ _ _ hx5
  have m4 := Host.reduce_andi_all _ _ _ _ _ hx4
  have r1 : ∀ b : Fin 4096, (x1 (ix1 b)).toNat < 10 := fun b => range_at x1 _ 10 (by norm_num) _ (m1 (ix1 b))
  have r5 : ∀ b : Fin 4096, (x5 (ix1 b)).toNat < 5 := fun b => range_at x5 _ 5 (by norm_num) _ (m5 (ix1 b))
  have r4 : ∀ (c : Fin 2) (e : Fin 1600000), (x4 (ix2 c e)).toNat < 50000 :=
    fun c e => range_at x4 _ 50000 (by norm_num) _ (m4 (ix2 c e))
  refine ⟨fun b k => finite_at x0 _ _ (m0 (ix2 b k)), ⟨fun b => ⟨_, r1 b⟩, fun b => eq_ofNat_toNat _⟩,
    ⟨fun b => ⟨_, r5 b⟩, fun b => eq_ofNat_toNat _⟩,
    ⟨fun e => ⟨_, r4 0 e⟩, fun e => ⟨_, r4 1 e⟩, fun e => eq_ofNat_toNat _, fun e => eq_ofNat_toNat _⟩⟩

end Cert.PreDecode

end
-- ==== Proof.lean ====
/-
  The kernel program and its reference compute the same three numbers on the extended reals — the total, the focal
  loss and the pairwise penalty — wherever every class, tissue and edge endpoint is an in-range index and the class
  scores are finite.

  Both are shown equal to one specification (Proof/Spec.lean). On the kernel side the program's run is opened at
  its last boundary (Proof/KernelRun.lean), the boundary's contents are read back through the host operations and
  the two kernel calls' write-backs (Proof/HostStretch.lean, Proof/HostFold.lean), each call's output array is
  read off its frame (Proof/Region0.lean, Proof/Region1.lean), and the stored values are evaluated on the
  extended reals (Proof/FocalValue.lean, Proof/SpatialValue.lean, joined in Proof/KernelFocal.lean,
  Proof/KernelSpatial.lean, Proof/KernelValue.lean). On the reference side the run's three terms are read stage by
  stage (Proof/RefFocal.lean, Proof/RefSpatial.lean, Proof/RefTotal.lean). The precondition's one bit is decoded
  into the index functions and the finiteness both sides take as hypotheses (Proof/PreDecode.lean).

  The laws that join the two sides: a one-hot row times a row sums to the entry at the hot position; a product kept
  only where both factors are positive is the product of the factors cut off at zero; a real number's power 2 is
  its square; a sum over 2 × 125 × 6400 terms in blocks is the sum over all of them. Only the power needs
  finiteness.
-/
import proofs.«419550_j77738908057987_3_alg».proof.Defs
import proofs.«419550_j77738908057987_3_alg».proof.Proof.Gen.Kernel
import proofs.«419550_j77738908057987_3_alg».proof.Proof.Gen.Kernel.Frame
import proofs.«419550_j77738908057987_3_alg».proof.Proof.Gen.KernelIdeal
import proofs.«419550_j77738908057987_3_alg».proof.Proof.Gen.KernelIdeal.Frame
import proofs.«419550_j77738908057987_3_alg».proof.Proof.Gen.ReferenceIdeal
import proofs.«419550_j77738908057987_3_alg».proof.Proof.Gen.Pre_finite_inputs
import proofs.«419550_j77738908057987_3_alg».proof.Proof.KernelValue
import proofs.«419550_j77738908057987_3_alg».proof.Proof.RefTotal
import proofs.«419550_j77738908057987_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the three results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- The ideal pass rewrote nothing. -/
theorem preserves : Cert.preserves_Kernel_KernelIdeal := trivial

/-- From memories agreeing on the arguments both programs end at the specification's total, loss and penalty. -/
theorem algebraic : Cert.algebraic_KernelIdeal_ReferenceIdeal := by
  intro m ρ m' ρ' hpre hagree
  have hdec := fun c : Dev Cert.KernelIdeal.nD => Cert.PreDecode.decode _ _ _ _ _ _ _ _ (hpre c)
  have hfin := fun c => (hdec c).1
  have hT := fun c => (hdec c).2.1
  have hS := fun c => (hdec c).2.2.1
  have hE := fun c => (hdec c).2.2.2
  choose t ht using hT
  choose s hs using hS
  choose E0 E1 hE using hE
  refine ⟨_, _, _, Cert.KernelIdeal.KernelValue.run m ρ t s E0 E1 ht hs (fun c => (hE c).1) (fun c => (hE c).2), ?_⟩
  refine (θ_run Cert.ReferenceIdeal.defs _ _).mono (fun r h c => ?_) (Cert.ReferenceIdeal.ValueP.run (F := Ideal) m' ρ')
  obtain ⟨a0, a1, a2, a3, a4, a5, a6, a7⟩ := hagree c
  have ht' : ∀ b : Fin 4096, m' ((c.tc : Thread Cert.ReferenceIdeal.nD Cert.ReferenceIdeal.τ).loc Cert.ReferenceIdeal.main_arg1) (ix1 b) = BitVec.ofNat 32 (t c b).val := fun b => by
    rw [a1]; exact ht c b
  have hs' : ∀ b : Fin 4096, m' ((c.tc : Thread Cert.ReferenceIdeal.nD Cert.ReferenceIdeal.τ).loc Cert.ReferenceIdeal.main_arg5) (ix1 b) = BitVec.ofNat 32 (s c b).val := fun b => by
    rw [a5]; exact hs c b
  have hfin' : ∀ (b : Fin 4096) (k : Fin 10), ∃ x : ℝ, m' ((c.tc : Thread Cert.ReferenceIdeal.nD Cert.ReferenceIdeal.τ).loc Cert.ReferenceIdeal.main_arg0) (ix2 b k) = (x : EReal) := fun b k => by
    rw [a0]; exact hfin c b k
  have he0' : ∀ e : Fin 1600000, m' ((c.tc : Thread Cert.ReferenceIdeal.nD Cert.ReferenceIdeal.τ).loc Cert.ReferenceIdeal.main_arg4) (ix2 0 e) = BitVec.ofNat 32 (E0 c e).val := fun e => by
    rw [a4]; exact (hE c).1 e
  have he1' : ∀ e : Fin 1600000, m' ((c.tc : Thread Cert.ReferenceIdeal.nD Cert.ReferenceIdeal.τ).loc Cert.ReferenceIdeal.main_arg4) (ix2 1 e) = BitVec.ofNat 32 (E1 c e).val := fun e => by
    rw [a4]; exact (hE c).2 e
  refine ⟨(h c).1.trans ?_, (h c).2.1.trans ?_, (h c).2.2.1.trans ?_, (h c).2.2.2⟩
  · refine (Cert.ReferenceIdeal.RefTotal.res_out0_eq m' c (t c) (s c) (E0 c) (E1 c) ht' hs' hfin' he0' he1').trans ?_
    simp only [a0, a2, a3, a6, a7]
    rfl
  · refine (Cert.ReferenceIdeal.RefFocal.res_out1_eq m' c (t c) (s c) ht' hs' hfin').trans ?_
    simp only [a0, a6, a7]
    rfl
  · refine (Cert.ReferenceIdeal.RefSpatial.res_out2_eq m' c (E0 c) (E1 c) he0' he1').trans ?_
    simp only [a2, a3]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
